-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x5000000 : Shape := ⟨2, ![2, 5000000]⟩
abbrev S5000000 : Shape := ⟨1, ![5000000]⟩
abbrev S128x16 : Shape := ⟨2, ![128, 16]⟩
abbrev S16x1 : Shape := ⟨2, ![16, 1]⟩
abbrev S16x16 : Shape := ⟨2, ![16, 16]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S500000x1 : S_.BroadcastsInDim S500000x1 (![] : Fin 0 → Fin S500000x1.rank)
  reducesTo_S500000x1_S_d0_1 : S500000x1.ReducesTo [0, 1] S_
  bcast_S_S5000000 : S_.BroadcastsInDim S5000000 (![] : Fin 0 → Fin S5000000.rank)
  reducesTo_S5000000_S_d0 : S5000000.ReducesTo [0] S_

variable [Facts]

def fn_part2 {F : FTy → Type} [FloatOps F] (main_arg2 : IVec S5000000 32) (main_v28 : IVec S_ 1) (main_v33 : IVec S500000x1 1) : IVec S_ 1 :=
  let main_c_12 : IVec S_ 1 := constantI S_ 1 1#1
  let main_v34 : IVec S_ 1 := (fun x v => Host.reduce IntOp.andi x v reducesTo_S500000x1_S_d0_1 h_S_) main_v33 main_c_12
  let main_v35 : IVec S_ 1 := andi main_v28 main_v34
  let main_c_13 : IVec S_ 32 := constantI S_ 32 0#32
  let main_v36 : IVec S5000000 32 := broadcastInDim S5000000 ![] bcast_S_S5000000 main_c_13
  let main_v37 : IVec S5000000 1 := cmpi .sge main_arg2 main_v36
  let main_c_14 : IVec S_ 32 := constantI S_ 32 16#32
  let main_v38 : IVec S5000000 32 := broadcastInDim S5000000 ![] bcast_S_S5000000 main_c_14
  let main_v39 : IVec S5000000 1 := cmpi .slt main_arg2 main_v38
  let main_v40 : IVec S5000000 1 := andi main_v37 main_v39
  let main_c_15 : IVec S_ 1 := constantI S_ 1 1#1
  let main_v41 : IVec S_ 1 := (fun x v => Host.reduce IntOp.andi x v reducesTo_S5000000_S_d0 h_S_) main_v40 main_c_15
  let main_v42 : IVec S_ 1 := andi main_v35 main_v41
  main_v42

def fn_part1 {F : FTy → Type} [FloatOps F] (main_arg0 : IVec S500000x1 32) (main_arg2 : IVec S5000000 32) (main_arg7 : FVec F S1x16 .f32) (main_arg8 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg7
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S500000x1 32 := broadcastInDim S500000x1 ![] bcast_S_S500000x1 main_c_10
  let main_v30 : IVec S500000x1 1 := cmpi .sge main_arg0 main_v29
  let main_c_11 : IVec S_ 32 := constantI S_ 32 128#32
  let main_v31 : IVec S500000x1 32 := broadcastInDim S500000x1 ![] bcast_S_S500000x1 main_c_11
  let main_v32 : IVec S500000x1 1 := cmpi .slt main_arg0 main_v31
  let main_v33 : IVec S500000x1 1 := andi main_v30 main_v32
  fn_part2 (F := F) main_arg2 main_v28 main_v33

def fn {F : FTy → Type} [FloatOps F] (main_arg0 : IVec S500000x1 32) (main_arg1 : IVec S2x5000000 32) (main_arg2 : IVec S5000000 32) (main_arg3 : FVec F S128x16 .f32) (main_arg4 : FVec F S16x1 .f32) (main_arg5 : FVec F S16x16 .f32) (main_arg6 : FVec F S16 .f32) (main_arg7 : FVec F S1x16 .f32) (main_arg8 : FVec F S1 .f32) : IVec S_ 1 :=
  let main_v0 : FVec F S128x16 .f32 := Host.absf main_arg3
  let main_cst : FVec F S_ .f32 := constant S_ .f32 0x7F800000#32
  let main_v1 : FVec F S128x16 .f32 := broadcastInDim S128x16 ![] bcast_S_S128x16 main_cst
  let main_v2 : IVec S128x16 1 := cmpf .olt main_v0 main_v1
  let main_c : IVec S_ 1 := constantI S_ 1 1#1
  let main_v3 : IVec S_ 1 := (fun x v => Host.reduce IntOp.andi x v reducesTo_S128x16_S_d0_1 h_S_) main_v2 main_c
  let main_v4 : FVec F S16x1 .f32 := Host.absf main_arg4
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16x16 .f32 := Host.absf main_arg5
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg6
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg2 main_arg7 main_arg8 main_v13 main_v16
-- ==== Kernel.lean ====
abbrev S500000x1 : Shape := ⟨2, ![500000, 1]⟩
abbrev S2x5000000 : Shape := ⟨2, ![2, 5000000]⟩
abbrev S5000000 : Shape := ⟨1, ![5000000]⟩
abbrev S128x16 : Shape := ⟨2, ![128, 16]⟩
abbrev S16x1 : Shape := ⟨2, ![16, 1]⟩
abbrev S16x16 : Shape := ⟨2, ![16, 16]⟩
abbrev S16 : Shape := ⟨1, ![16]⟩
abbrev S1x16 : Shape := ⟨2, ![1, 16]⟩
abbrev S1 : Shape := ⟨1, ![1]⟩
abbrev S5000000x1 : Shape := ⟨2, ![5000000, 1]⟩
abbrev S1x5000000 : Shape := ⟨2, ![1, 5000000]⟩
abbrev S500000x16 : Shape := ⟨2, ![500000, 16]⟩
abbrev S4000x1 : Shape := ⟨2, ![4000, 1]⟩
abbrev S4000x16 : Shape := ⟨2, ![4000, 16]⟩
abbrev S4000 : Shape := ⟨1, ![4000]⟩
abbrev S4000x128 : Shape := ⟨2, ![4000, 128]⟩
abbrev S8000x1 : Shape := ⟨2, ![8000, 1]⟩
abbrev S8000 : Shape := ⟨1, ![8000]⟩
abbrev S8000x16 : Shape := ⟨2, ![8000, 16]⟩
abbrev S_ : Shape := ⟨0, ![]⟩
abbrev S500000 : Shape := ⟨1, ![500000]⟩
abbrev S5000000x16 : Shape := ⟨2, ![5000000, 16]⟩
abbrev S1x1 : Shape := ⟨2, ![1, 1]⟩

abbrev nBuf : Space → Nat
  | .hbm => 93
  | .vmem => 28
  | .smem => 0
  | _ => 0

abbrev bufTy : (tb : Table) → Fin (tcTables nBuf tb) → BufTy
  | .hbm, ⟨0, _⟩ => ⟨S500000x1, .i32⟩
  | .hbm, ⟨1, _⟩ => ⟨S2x5000000, .i32⟩
  | .hbm, ⟨2, _⟩ => ⟨S5000000, .i32⟩
  | .hbm, ⟨3, _⟩ => ⟨S128x16, .f32⟩
  | .hbm, ⟨4, _⟩ => ⟨S16x1, .f32⟩
  | .hbm, ⟨5, _⟩ => ⟨S16x16, .f32⟩
  | .hbm, ⟨6, _⟩ => ⟨S16, .f32⟩
  | .hbm, ⟨7, _⟩ => ⟨S1x16, .f32⟩
  | .hbm, ⟨8, _⟩ => ⟨S1, .f32⟩
  | .hbm, ⟨9, _⟩ => ⟨S5000000x1, .i32⟩
  | .hbm, ⟨10, _⟩ => ⟨S1x5000000, .i32⟩
  | .hbm, ⟨11, _⟩ => ⟨S5000000, .i32⟩
  | .hbm, ⟨12, _⟩ => ⟨S1x5000000, .i32⟩
  | .hbm, ⟨13, _⟩ => ⟨S5000000, .i32⟩
  | .hbm, ⟨14, _⟩ => ⟨S16x16, .f32⟩
  | .hbm, ⟨15, _⟩ => ⟨S128x16, .f32⟩
  | .hbm, ⟨16, _⟩ => ⟨S500000x16, .f32⟩
  | .hbm, ⟨17, _⟩ => ⟨S5000000x1, .f32⟩
  | .hbm, ⟨18, _⟩ => ⟨S5000000, .f32⟩
  | .hbm, ⟨19, _⟩ => ⟨S_, .f32⟩
  | .hbm, ⟨20, _⟩ => ⟨S500000, .f32⟩
  | .hbm, ⟨21, _⟩ => ⟨S5000000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S500000, .f32⟩
  | .hbm, ⟨28, _⟩ => ⟨S500000, .i1⟩
  | .hbm, ⟨29, _⟩ => ⟨S500000, .f32⟩
  | .hbm, ⟨30, _⟩ => ⟨S_, .f32⟩
  | .hbm, ⟨31, _⟩ => ⟨S_, .f32⟩
  | .hbm, ⟨32, _⟩ => ⟨S500000, .f32⟩
  | .hbm, ⟨33, _⟩ => ⟨S500000, .f32⟩
  | .hbm, ⟨34, _⟩ => ⟨S500000, .f32⟩
  | .hbm, ⟨35, _⟩ => ⟨S500000x1, .f32⟩
  | .hbm, ⟨36, _⟩ => ⟨S_, .i32⟩
  | .hbm, ⟨37, _⟩ => ⟨S5000000, .i32⟩
  | .hbm, ⟨38, _⟩ => ⟨S5000000, .i1⟩
  | .hbm, ⟨39, _⟩ => ⟨S_, .i32⟩
  | .hbm, ⟨40, _⟩ => ⟨S5000000, .i32⟩
  | .hbm, ⟨41, _⟩ => ⟨S5000000, .i32⟩
  | .hbm, ⟨42, _⟩ => ⟨S5000000, .i32⟩
  | .hbm, ⟨43, _⟩ => ⟨S5000000x1, .i32⟩
  | .hbm, ⟨44, _⟩ => ⟨S5000000, .f32⟩
  | .hbm, ⟨45, _⟩ => ⟨S5000000, .f32⟩
  | .hbm, ⟨46, _⟩ => ⟨S_, .i32⟩
  | .hbm, ⟨47, _⟩ => ⟨S5000000, .i32⟩
  | .hbm, ⟨48, _⟩ => ⟨S5000000, .i1⟩
  | .hbm, ⟨49, _⟩ => ⟨S_, .i32⟩
  | .hbm, ⟨50, _⟩ => ⟨S5000000, .i32⟩
  | .hbm, ⟨51, _⟩ => ⟨S5000000, .i32⟩
  | .hbm, ⟨52, _⟩ => ⟨S5000000, .i32⟩
  | .hbm, ⟨53, _⟩ => ⟨S5000000x1, .i32⟩
  | .hbm, ⟨54, _⟩ => ⟨S5000000, .f32⟩
  | .hbm, ⟨55, _⟩ => ⟨S5000000, .f32⟩
  | .hbm, ⟨56, _⟩ => ⟨S_, .i32⟩
  | .hbm, ⟨57, _⟩ => ⟨S5000000, .i32⟩
  | .hbm, ⟨58, _⟩ => ⟨S5000000, .i1⟩
  | .hbm, ⟨59, _⟩ => ⟨S_, .i32⟩
  | .hbm, ⟨60, _⟩ => ⟨S5000000, .i32⟩
  | .hbm, ⟨61, _⟩ => ⟨S5000000, .i32⟩
  | .hbm, ⟨62, _⟩ => ⟨S5000000, .i32⟩
  | .hbm, ⟨63, _⟩ => ⟨S5000000x1, .i32⟩
  | .hbm, ⟨64, _⟩ => ⟨S5000000x16, .f32⟩
  | .hbm, ⟨65, _⟩ => ⟨S5000000x1, .f32⟩
  | .hbm, ⟨66, _⟩ => ⟨S5000000x16, .f32⟩
  | .hbm, ⟨67, _⟩ => ⟨S5000000x16, .f32⟩
  | .hbm, ⟨68, _⟩ => ⟨S_, .f32⟩
  | .hbm, ⟨69, _⟩ => ⟨S500000x16, .f32⟩
  | .hbm, ⟨70, _⟩ => ⟨S5000000x1, .i32⟩
  | .hbm, ⟨71, _⟩ => ⟨S500000x16, .f32⟩
  | .hbm, ⟨72, _⟩ => ⟨S1x16, .f32⟩
  | .hbm, ⟨73, _⟩ => ⟨S16x1, .f32⟩
  | .hbm, ⟨74, _⟩ => ⟨S500000x1, .f32⟩
  | .hbm, ⟨75, _⟩ => ⟨S_, .i32⟩
  | .hbm, ⟨76, _⟩ => ⟨S5000000, .i32⟩
  | .hbm, ⟨77, _⟩ => ⟨S5000000, .i1⟩
  | .hbm, ⟨78, _⟩ => ⟨S_, .i32⟩
  | .hbm, ⟨79, _⟩ => ⟨S5000000, .i32⟩
  | .hbm, ⟨80, _⟩ => ⟨S5000000, .i32⟩
  | .hbm, ⟨81, _⟩ => ⟨S5000000, .i32⟩
  | .hbm, ⟨82, _⟩ => ⟨S5000000x1, .i32⟩
  | .hbm, ⟨83, _⟩ => ⟨S5000000x1, .f32⟩
  | .hbm, ⟨84, _⟩ => ⟨S5000000x1, .f32⟩
  | .hbm, ⟨85, _⟩ => ⟨S5000000x1, .f32⟩
  | .hbm, ⟨86, _⟩ => ⟨S_, .f32⟩
  | .hbm, ⟨87, _⟩ => ⟨S500000x1, .f32⟩
  | .hbm, ⟨88, _⟩ => ⟨S5000000x1, .i32⟩
  | .hbm, ⟨89, _⟩ => ⟨S500000x1, .f32⟩
  | .hbm, ⟨90, _⟩ => ⟨S1x1, .f32⟩
  | .hbm, ⟨91, _⟩ => ⟨S1x1, .f32⟩
  | .hbm, ⟨92, _⟩ => ⟨S1, .f32⟩
  | .local _ .vmem, ⟨0, _⟩ => ⟨S4000x1, .i32⟩
  | .local _ .vmem, ⟨1, _⟩ => ⟨S4000x1, .i32⟩
  | .local _ .vmem, ⟨2, _⟩ => ⟨S128x16, .f32⟩
  | .local _ .vmem, ⟨3, _⟩ => ⟨S4000x16, .f32⟩
  | .local _ .vmem, ⟨4, _⟩ => ⟨S4000x16, .f32⟩
  | .local _ .vmem, ⟨5, _⟩ => ⟨S8000x1, .i32⟩
  | .local _ .vmem, ⟨6, _⟩ => ⟨S8000x1, .i32⟩
  | .local _ .vmem, ⟨7, _⟩ => ⟨S16x1, .f32⟩
  | .local _ .vmem, ⟨8, _⟩ => ⟨S8000x1, .f32⟩
  | .local _ .vmem, ⟨9, _⟩ => ⟨S8000x1, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S4000x16, .f32⟩
  | .local _ .vmem, ⟨14, _⟩ => ⟨S4000x1, .f32⟩
  | .local _ .vmem, ⟨15, _⟩ => ⟨S4000x1, .f32⟩
  | .local _ .vmem, ⟨16, _⟩ => ⟨S1x16, .f32⟩
  | .local _ .vmem, ⟨17, _⟩ => ⟨S16x1, .f32⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S4000x1, .f32⟩
  | .local _ .vmem, ⟨25, _⟩ => ⟨S4000x1, .f32⟩
  | .local _ .vmem, ⟨26, _⟩ => ⟨S1x1, .f32⟩
  | .local _ .vmem, ⟨27, _⟩ => ⟨S1x1, .f32⟩
  | _, _ => ⟨S500000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  shapeCasts_S5000000_S5000000x1 : S5000000.ShapeCasts S5000000x1
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  transposes_S16x16_S16x16_1_0 : S16x16.Transposes [1, 0] S16x16
  inb_S4000x1_S4000x1_0_0 : ∀ a, (![0, 0] : Fin 2 → Nat) a + S4000x1.size a ≤ S4000x1.size a
  h_S4000x1 : 0 < S4000x1.numel
  shapeCasts_S4000x1_S4000 : S4000x1.ShapeCasts S4000
  iota_S4000x128_d1_w32 : S4000x128.Iotas .tc 32 [1]
  shapeCasts_S4000_S4000x1 : S4000.ShapeCasts S4000x1
  broadcasts_S4000x1_S4000x128 : S4000x1.Broadcasts S4000x128
  natLt_1_32 : 1 < 32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4000x16_S4000x16_0_0 : ∀ a, (![0, 0] : Fin 2 → Nat) a + S4000x16.size a ≤ S4000x16.size a
  h_S4000x16 : 0 < S4000x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  shapeCasts_S8000x1_S8000 : S8000x1.ShapeCasts S8000
  iota_S8000x16_d1_w32 : S8000x16.Iotas .tc 32 [1]
  shapeCasts_S8000_S8000x1 : S8000.ShapeCasts S8000x1
  broadcasts_S8000x1_S8000x16 : S8000x1.Broadcasts S8000x16
  inb_S16x1_S16x1_0_0 : ∀ a, (![0, 0] : Fin 2 → Nat) a + S16x1.size a ≤ S16x1.size a
  h_S16x1 : 0 < S16x1.numel
  shapeCasts_S5000000x1_S5000000 : S5000000x1.ShapeCasts S5000000
  bcast_S_S500000 : S_.BroadcastsInDim S500000 (![] : Fin 0 → Fin S500000.rank)
  bcast_S5000000_S5000000x1_0 : S5000000.BroadcastsInDim S5000000x1 (![0] : Fin 1 → Fin S5000000x1.rank)
  shapeCasts_S500000_S500000x1 : S500000.ShapeCasts S500000x1
  bcast_S_S5000000 : S_.BroadcastsInDim S5000000 (![] : Fin 0 → Fin S5000000.rank)
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  shapeCasts_S16_S1x16 : S16.ShapeCasts S1x16
  transposes_S1x16_S16x1_1_0 : S1x16.Transposes [1, 0] S16x1
  shapeCasts_S4000x16_S4000x16 : S4000x16.ShapeCasts S4000x16
  shapeCasts_S4000x1_S4000x1 : S4000x1.ShapeCasts S4000x1
  broadcasts_S4000x1_S4000x16 : S4000x1.Broadcasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  bitsLt_bf16_f32 : FTy.bits .bf16 < FTy.bits .f32
  shapeCasts_S16x1_S16x1 : S16x1.ShapeCasts S16x1
  bcast_S_S500000x1 : S_.BroadcastsInDim S500000x1 (![] : Fin 0 → Fin S500000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  reduces_S4000x1_S1 : S4000x1.Reduces [0] S1
  shapeCasts_S1x1_S1 : S1x1.ShapeCasts S1
  dot_S128x16_S16x16_S128x16_1_0_0_1_n_n_wf : DotDims.WF S128x16 S16x16 S128x16 [1] [0] [0] [1] [] []
  dot_S4000x128_S128x16_S4000x16_1_0_0_1_n_n_wf : DotDims.WF S4000x128 S128x16 S4000x16 [1] [0] [0] [1] [] []
  dot_S8000x16_S16x1_S8000x1_1_0_0_1_n_n_wf : DotDims.WF S8000x16 S16x1 S8000x1 [1] [0] [0] [1] [] []
  scatter_S500000_S5000000x1_S5000000_n_0_0_1_wf : ScatterDims.WF S500000 S5000000x1 S5000000 [] [0] [0] 1
  gather_S500000_S5000000x1_S5000000_n_0_n_n_0_1_1_wf : GatherDims.WF S500000 S5000000x1 S5000000 [] [0] [] [0] [] 1 ![1]
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S4000x16_S16x1_S4000x1_1_0_0_1_n_n_wf : DotDims.WF S4000x16 S16x1 S4000x1 [1] [0] [0] [1] [] []
  gather_S500000x1_S5000000x1_S5000000x1_1_0_n_n_0_1_11_wf : GatherDims.WF S500000x1 S5000000x1 S5000000x1 [1] [0] [] [0] [] 1 ![1, 1]
  scatter_S500000x1_S5000000x1_S5000000x1_1_0_0_1_wf : ScatterDims.WF S500000x1 S5000000x1 S5000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S500000x1.size a
  hwx0_0 : ∀ i : grid0.Coords, EltTy.bits .i32 = 32 ∨ (Rect.block (s := S500000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S500000x16.size a
  hwx0_2 : ∀ i : grid0.Coords, EltTy.bits .f32 = 32 ∨ (Rect.block (s := S500000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S5000000x1.size a
  hwx1_0 : ∀ i : grid1.Coords, EltTy.bits .i32 = 32 ∨ (Rect.block (s := S5000000x1) S8000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S5000000x1.size a
  hwx1_2 : ∀ i : grid1.Coords, EltTy.bits .f32 = 32 ∨ (Rect.block (s := S5000000x1) S8000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S500000x16.size a
  hwx2_0 : ∀ i : grid2.Coords, EltTy.bits .f32 = 32 ∨ (Rect.block (s := S500000x16) S4000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x16.size a ≤ S500000x16.size a
  hwx2_1 : ∀ i : grid2.Coords, EltTy.bits .f32 = 32 ∨ (Rect.block (s := S500000x16) S4000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S500000x1.size a
  hwx2_2 : ∀ i : grid2.Coords, EltTy.bits .f32 = 32 ∨ (Rect.block (s := S500000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x1.size a ≤ S16x1.size a
  hwx2_4 : ∀ i : grid2.Coords, EltTy.bits .f32 = 32 ∨ (Rect.block (s := S16x1) S16x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S500000x1.size a
  hwx2_5 : ∀ i : grid2.Coords, EltTy.bits .f32 = 32 ∨ (Rect.block (s := S500000x1) S4000x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S500000x1.size a
  hwx3_0 : ∀ i : grid3.Coords, EltTy.bits .f32 = 32 ∨ (Rect.block (s := S500000x1) S4000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S500000x1.size a
  hwx3_1 : ∀ i : grid3.Coords, EltTy.bits .f32 = 32 ∨ (Rect.block (s := S500000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S500000x1.size a
  hwx3_2 : ∀ i : grid3.Coords, EltTy.bits .f32 = 32 ∨ (Rect.block (s := S500000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)

variable [Facts₀]

def dot_S128x16_S16x16_S128x16_1_0_0_1_n_n : DotDims S128x16 S16x16 S128x16 where
  lhsContracting := [1]
  rhsContracting := [0]
  lhsNonContracting := [0]
  rhsNonContracting := [1]
  lhsBatch := []
  rhsBatch := []
  wf := dot_S128x16_S16x16_S128x16_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000_S5000000x1_S5000000_n_0_n_n_0_1_1 : GatherDims S500000 S5000000x1 S5000000 where
  offsetDims := []
  collapsedSliceDims := [0]
  operandBatchingDims := []
  startIndicesBatchingDims := []
  startIndexMap := [0]
  indexVectorDim := 1
  sliceSizes := ![1]
  wf := gather_S500000_S5000000x1_S5000000_n_0_n_n_0_1_1_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf
def gather_S500000x1_S5000000x1_S5000000x1_1_0_n_n_0_1_11 : GatherDims S500000x1 S5000000x1 S5000000x1 where
  offsetDims := [1]
  collapsedSliceDims := [0]
  operandBatchingDims := []
  startIndicesBatchingDims := []
  startIndexMap := [0]
  indexVectorDim := 1
  sliceSizes := ![1, 1]
  wf := gather_S500000x1_S5000000x1_S5000000x1_1_0_n_n_0_1_11_wf
def scatter_S500000x1_S5000000x1_S5000000x1_1_0_0_1 : ScatterDims S500000x1 S5000000x1 S5000000x1 where
  updateWindowDims := [1]
  insertedWindowDims := [0]
  scatterDimsToOperandDims := [0]
  indexVectorDim := 1
  wf := scatter_S500000x1_S5000000x1_S5000000x1_1_0_0_1_wf

abbrev win0_0 : Pipeline.Window sig grid0 :=
  Pipeline.Window.ofSpec (Memref.whole main_arg0) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S16x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S500000x1 : Shape := ⟨2, ![500000, 1]⟩
abbrev S2x5000000 : Shape := ⟨2, ![2, 5000000]⟩
abbrev S5000000 : Shape := ⟨1, ![5000000]⟩
abbrev S128x16 : Shape := ⟨2, ![128, 16]⟩
abbrev S16x1 : Shape := ⟨2, ![16, 1]⟩
abbrev S16x16 : Shape := ⟨2, ![16, 16]⟩
abbrev S16 : Shape := ⟨1, ![16]⟩
abbrev S1x16 : Shape := ⟨2, ![1, 16]⟩
abbrev S1 : Shape := ⟨1, ![1]⟩
abbrev S500000 : Shape := ⟨1, ![500000]⟩
abbrev S_ : Shape := ⟨0, ![]⟩
abbrev S500000x16 : Shape := ⟨2, ![500000, 16]⟩
abbrev S5000000x1 : Shape := ⟨2, ![5000000, 1]⟩
abbrev S1x5000000 : Shape := ⟨2, ![1, 5000000]⟩
abbrev S5000000x16 : Shape := ⟨2, ![5000000, 16]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S500000x1, .i32⟩
  | 1 => ⟨S2x5000000, .i32⟩
  | 2 => ⟨S5000000, .i32⟩
  | 3 => ⟨S128x16, .f32⟩
  | 4 => ⟨S16x1, .f32⟩
  | 5 => ⟨S16x16, .f32⟩
  | 6 => ⟨S16, .f32⟩
  | 7 => ⟨S1x16, .f32⟩
  | 8 => ⟨S1, .f32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x16, .f32⟩
  | 19 => ⟨S_, .i32⟩
  | 20 => ⟨S5000000, .i32⟩
  | 21 => ⟨S5000000, .i1⟩
  | 22 => ⟨S_, .i32⟩
  | 23 => ⟨S5000000, .i32⟩
  | 24 => ⟨S5000000, .i32⟩
  | 25 => ⟨S5000000, .i32⟩
  | 26 => ⟨S5000000x1, .i32⟩
  | 27 => ⟨S5000000x1, .f32⟩
  | 28 => ⟨S5000000, .f32⟩
  | 29 => ⟨S1x5000000, .i32⟩
  | 30 => ⟨S5000000, .i32⟩
  | 31 => ⟨S1x5000000, .i32⟩
  | 32 => ⟨S5000000, .i32⟩
  | 33 => ⟨S16x16, .f32⟩
  | 34 => ⟨S500000x16, .f32⟩
  | 35 => ⟨S_, .f32⟩
  | 36 => ⟨S500000, .f32⟩
  | 37 => ⟨S5000000x1, .i32⟩
  | 38 => ⟨S500000, .f32⟩
  | 39 => ⟨S_, .f32⟩
  | 40 => ⟨S500000, .f32⟩
  | 41 => ⟨S500000, .f32⟩
  | 42 => ⟨S_, .f32⟩
  | 43 => ⟨S500000, .f32⟩
  | 44 => ⟨S500000, .i1⟩
  | 45 => ⟨S500000, .f32⟩
  | 46 => ⟨S_, .f32⟩
  | 47 => ⟨S_, .f32⟩
  | 48 => ⟨S500000, .f32⟩
  | 49 => ⟨S500000, .f32⟩
  | 50 => ⟨S_, .i32⟩
  | 51 => ⟨S5000000, .i32⟩
  | 52 => ⟨S5000000, .i1⟩
  | 53 => ⟨S_, .i32⟩
  | 54 => ⟨S5000000, .i32⟩
  | 55 => ⟨S5000000, .i32⟩
  | 56 => ⟨S5000000, .i32⟩
  | 57 => ⟨S5000000x1, .i32⟩
  | 58 => ⟨S5000000, .f32⟩
  | 59 => ⟨S5000000, .f32⟩
  | 60 => ⟨S_, .i32⟩
  | 61 => ⟨S5000000, .i32⟩
  | 62 => ⟨S5000000, .i1⟩
  | 63 => ⟨S_, .i32⟩
  | 64 => ⟨S5000000, .i32⟩
  | 65 => ⟨S5000000, .i32⟩
  | 66 => ⟨S5000000, .i32⟩
  | 67 => ⟨S5000000x1, .i32⟩
  | 68 => ⟨S5000000, .f32⟩
  | 69 => ⟨S5000000, .f32⟩
  | 70 => ⟨S5000000x1, .f32⟩
  | 71 => ⟨S_, .i32⟩
  | 72 => ⟨S5000000, .i32⟩
  | 73 => ⟨S5000000, .i1⟩
  | 74 => ⟨S_, .i32⟩
  | 75 => ⟨S5000000, .i32⟩
  | 76 => ⟨S5000000, .i32⟩
  | 77 => ⟨S5000000, .i32⟩
  | 78 => ⟨S5000000x1, .i32⟩
  | 79 => ⟨S5000000x16, .f32⟩
  | 80 => ⟨S5000000x16, .f32⟩
  | 81 => ⟨S5000000x16, .f32⟩
  | 82 => ⟨S_, .f32⟩
  | 83 => ⟨S500000x16, .f32⟩
  | 84 => ⟨S5000000x1, .i32⟩
  | 85 => ⟨S500000x16, .f32⟩
  | 86 => ⟨S500000, .f32⟩
  | 87 => ⟨S500000x1, .f32⟩
  | 88 => ⟨S500000x16, .f32⟩
  | 89 => ⟨S500000x16, .f32⟩
  | 90 => ⟨S500000x16, .f32⟩
  | 91 => ⟨S1x16, .f32⟩
  | 92 => ⟨S500000x16, .f32⟩
  | 93 => ⟨S500000x16, .f32⟩
  | 94 => ⟨S_, .f32⟩
  | 95 => ⟨S500000x16, .f32⟩
  | 96 => ⟨S500000x16, .f32⟩
  | 97 => ⟨S16x1, .f32⟩
  | 98 => ⟨S500000x1, .f32⟩
  | 99 => ⟨S_, .f32⟩
  | 100 => ⟨S500000, .f32⟩
  | 101 => ⟨S5000000x1, .i32⟩
  | 102 => ⟨S500000, .f32⟩
  | 103 => ⟨S_, .f32⟩
  | 104 => ⟨S500000, .f32⟩
  | 105 => ⟨S500000, .f32⟩
  | 106 => ⟨S_, .f32⟩
  | 107 => ⟨S500000, .f32⟩
  | 108 => ⟨S500000, .i1⟩
  | 109 => ⟨S500000, .f32⟩
  | 110 => ⟨S_, .f32⟩
  | 111 => ⟨S_, .f32⟩
  | 112 => ⟨S500000, .f32⟩
  | 113 => ⟨S500000, .f32⟩
  | 114 => ⟨S_, .i32⟩
  | 115 => ⟨S5000000, .i32⟩
  | 116 => ⟨S5000000, .i1⟩
  | 117 => ⟨S_, .i32⟩
  | 118 => ⟨S5000000, .i32⟩
  | 119 => ⟨S5000000, .i32⟩
  | 120 => ⟨S5000000, .i32⟩
  | 121 => ⟨S5000000x1, .i32⟩
  | 122 => ⟨S5000000, .f32⟩
  | 123 => ⟨S5000000, .f32⟩
  | 124 => ⟨S_, .i32⟩
  | 125 => ⟨S5000000, .i32⟩
  | 126 => ⟨S5000000, .i1⟩
  | 127 => ⟨S_, .i32⟩
  | _ => ⟨S500000x1, .i32⟩

abbrev hbmTy0_1 (i : Nat) : BufTy := match i % 128 with
  | 0 => ⟨S5000000, .i32⟩
  | 1 => ⟨S5000000, .i32⟩
  | 2 => ⟨S5000000, .i32⟩
  | 3 => ⟨S5000000x1, .i32⟩
  | 4 => ⟨S5000000, .f32⟩
  | 5 => ⟨S5000000, .f32⟩
  | 6 => ⟨S5000000x1, .f32⟩
  | 7 => ⟨S_, .i32⟩
  | 8 => ⟨S5000000, .i32⟩
  | 9 => ⟨S5000000, .i1⟩
  | 10 => ⟨S_, .i32⟩
  | 11 => ⟨S5000000, .i32⟩
  | 12 => ⟨S5000000, .i32⟩
  | 13 => ⟨S5000000, .i32⟩
  | 14 => ⟨S5000000x1, .i32⟩
  | 15 => ⟨S5000000x1, .f32⟩
  | 16 => ⟨S5000000x1, .f32⟩
  | 17 => ⟨S_, .f32⟩
  | 18 => ⟨S500000x1, .f32⟩
  | 19 => ⟨S5000000x1, .i32⟩
  | 20 => ⟨S500000x1, .f32⟩
  | 21 => ⟨S500000, .f32⟩
  | 22 => ⟨S500000x1, .f32⟩
  | 23 => ⟨S500000x1, .f32⟩
  | 24 => ⟨S500000x1, .f32⟩
  | 25 => ⟨S1x1, .f32⟩
  | 26 => ⟨S500000x1, .f32⟩
  | 27 => ⟨S500000x1, .f32⟩
  | 28 => ⟨S_, .f32⟩
  | 29 => ⟨S1, .f32⟩
  | _ => ⟨S500000x1, .i32⟩

abbrev hbmTy (i : Nat) : BufTy := match i / 128 with
  | 0 => hbmTy0_0 i
  | 1 => hbmTy0_1 i
  | _ => ⟨S500000x1, .i32⟩

abbrev bufTy : (tb : Table) → Fin (tcTables nBuf tb) → BufTy
  | .hbm, ⟨i, _⟩ => hbmTy i
  | _, _ => ⟨S500000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_call2_v0 : Ref sig .tc := ⟨.hbm, 111, rfl⟩
abbrev main_call2_v1 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_19 : Ref sig .tc := ⟨.hbm, 124, rfl⟩
abbrev main_v88 : Ref sig .tc := ⟨.hbm, 125, rfl⟩
abbrev main_v89 : Ref sig .tc := ⟨.hbm, 126, rfl⟩
abbrev main_c_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_c_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_23 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_24 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S5000000 : S_.BroadcastsInDim S5000000 (![] : Fin 0 → Fin S5000000.rank)
  bcast_S5000000_S5000000x1_0 : S5000000.BroadcastsInDim S5000000x1 (![0] : Fin 1 → Fin S5000000x1.rank)
  shapeCasts_S5000000x1_S5000000 : S5000000x1.ShapeCasts S5000000
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  transposes_S16x16_S16x16_1_0 : S16x16.Transposes [1, 0] S16x16
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  transposes_S1x16_S16x1_1_0 : S1x16.Transposes [1, 0] S16x1
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S1_d0 : S500000x1.ReducesTo [0] S1
  h_S_ : 0 < S_.numel
  gather_S128x16_S500000x1_S500000x16_1_0_n_n_0_1_116_wf : GatherDims.WF S128x16 S500000x1 S500000x16 [1] [0] [] [0] [] 1 ![1, 16]
  gather_S16x1_S5000000x1_S5000000x1_1_0_n_n_0_1_11_wf : GatherDims.WF S16x1 S5000000x1 S5000000x1 [1] [0] [] [0] [] 1 ![1, 1]
  dot_S500000x16_S16x16_S500000x16_1_0_0_1_n_n_wf : DotDims.WF S500000x16 S16x16 S500000x16 [1] [0] [0] [1] [] []
  scatter_S500000_S5000000x1_S5000000_n_0_0_1_wf : ScatterDims.WF S500000 S5000000x1 S5000000 [] [0] [0] 1
  gather_S500000_S5000000x1_S5000000_n_0_n_n_0_1_1_wf : GatherDims.WF S500000 S5000000x1 S5000000 [] [0] [] [0] [] 1 ![1]
  gather_S500000x16_S5000000x1_S5000000x16_1_0_n_n_0_1_116_wf : GatherDims.WF S500000x16 S5000000x1 S5000000x16 [1] [0] [] [0] [] 1 ![1, 16]
  scatter_S500000x16_S5000000x1_S5000000x16_1_0_0_1_wf : ScatterDims.WF S500000x16 S5000000x1 S5000000x16 [1] [0] [0] 1
  dot_S500000x16_S16x1_S500000x1_1_0_0_1_n_n_wf : DotDims.WF S500000x16 S16x1 S500000x1 [1] [0] [0] [1] [] []
  gather_S500000x1_S5000000x1_S5000000x1_1_0_n_n_0_1_11_wf : GatherDims.WF S500000x1 S5000000x1 S5000000x1 [1] [0] [] [0] [] 1 ![1, 1]
  scatter_S500000x1_S5000000x1_S5000000x1_1_0_0_1_wf : ScatterDims.WF S500000x1 S5000000x1 S5000000x1 [1] [0] [0] 1

variable [Facts₀]

def gather_S128x16_S500000x1_S500000x16_1_0_n_n_0_1_116 : GatherDims S128x16 S500000x1 S500000x16 where
  offsetDims := [1]
  collapsedSliceDims := [0]
  operandBatchingDims := []
  startIndicesBatchingDims := []
  startIndexMap := [0]
  indexVectorDim := 1
  sliceSizes := ![1, 16]
  wf := gather_S128x16_S500000x1_S500000x16_1_0_n_n_0_1_116_wf
def gather_S16x1_S5000000x1_S5000000x1_1_0_n_n_0_1_11 : GatherDims S16x1 S5000000x1 S5000000x1 where
  offsetDims := [1]
  collapsedSliceDims := [0]
  operandBatchingDims := []
  startIndicesBatchingDims := []
  startIndexMap := [0]
  indexVectorDim := 1
  sliceSizes := ![1, 1]
  wf := gather_S16x1_S5000000x1_S5000000x1_1_0_n_n_0_1_11_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000_S5000000x1_S5000000_n_0_n_n_0_1_1 : GatherDims S500000 S5000000x1 S5000000 where
  offsetDims := []
  collapsedSliceDims := [0]
  operandBatchingDims := []
  startIndicesBatchingDims := []
  startIndexMap := [0]
  indexVectorDim := 1
  sliceSizes := ![1]
  wf := gather_S500000_S5000000x1_S5000000_n_0_n_n_0_1_1_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf
def gather_S500000x1_S5000000x1_S5000000x1_1_0_n_n_0_1_11 : GatherDims S500000x1 S5000000x1 S5000000x1 where
  offsetDims := [1]
  collapsedSliceDims := [0]
  operandBatchingDims := []
  startIndicesBatchingDims := []
  startIndexMap := [0]
  indexVectorDim := 1
  sliceSizes := ![1, 1]
  wf := gather_S500000x1_S5000000x1_S5000000x1_1_0_n_n_0_1_11_wf
def scatter_S500000x1_S5000000x1_S5000000x1_1_0_0_1 : ScatterDims S500000x1 S5000000x1 S5000000x1 where
  updateWindowDims := [1]
  insertedWindowDims := [0]
  scatterDimsToOperandDims := [0]
  indexVectorDim := 1
  wf := scatter_S500000x1_S5000000x1_S5000000x1_1_0_0_1_wf

class Facts : Prop extends Facts₀ where

variable [Facts]
-- ==== Proof.Spec.lean ====
/-
  What the four kernels compute, as functions of the arrays they read, index by index, on the extended reals.

  rowsOf: an embedding lookup. Row r of the result is the table's row named by the r-th start index, that index read
    as a signed integer and clamped into the table's rows; the column is copied.
  combine1: the first layer's epilogue and the second layer's projection. At node r, over the 16 channels l, the sum of
    max(agg(r,l) + d2(r) * xl(r,l) + b(l), 0) * w(l): the aggregated messages plus the self loop plus the bias,
    rectified, then multiplied into the weight column.
  combine2: the second layer's epilogue summed over all nodes: the sum over r of agg(r) + d2(r) * xl(r) + b.
  The zero that the rectifier compares against is kept as the word it is printed as.
-/
import Idealize.ShloMosaic.PureOps.Ideal
import Idealize.ShloMosaic.Lib.ValueIdx

noncomputable section

namespace GcnSpec

open Idealize.ShloMosaic Idealize.ShloMosaic.ValueIdx

/-- Row r of the result is row clamp(idx r) of the table. -/
def rowsOf {α : Type} {N C R : Nat} (hN : 0 < N) (tab : (⟨2, ![N, C]⟩ : Shape).Idx → α) (idx : IVec ⟨2, ![R, 1]⟩ 32) :
    (⟨2, ![R, C]⟩ : Shape).Idx → α :=
  fun i => tab (ix2 ⟨min (idx (ix2 (i 0) 0)).toInt.toNat (N - 1), by omega⟩ (i 1))

theorem rowsOf_apply {α : Type} {N C R : Nat} (hN : 0 < N) (tab : (⟨2, ![N, C]⟩ : Shape).Idx → α)
    (idx : IVec ⟨2, ![R, 1]⟩ 32) (r : Fin R) (c : Fin C) :
    rowsOf hN tab idx (ix2 r c) = tab (ix2 ⟨min (idx (ix2 r 0)).toInt.toNat (N - 1), by omega⟩ c) := rfl

/-- At node r: the sum over the channels of the rectified combination times the weight column. -/
def combine1 (agg xl : FVec Ideal ⟨2, ![500000, 16]⟩ .f32) (d2 : FVec Ideal ⟨2, ![500000, 1]⟩ .f32)
    (b : FVec Ideal ⟨2, ![1, 16]⟩ .f32) (w : FVec Ideal ⟨2, ![16, 1]⟩ .f32) : FVec Ideal ⟨2, ![500000, 1]⟩ .f32 :=
  fun i => ∑ l : Fin 16,
    max (agg (ix2 (i 0) l) + d2 (ix2 (i 0) 0) * xl (ix2 (i 0) l) + b (ix2 0 l)) (Ideal.ofBits .f32 0x00000000#32)
      * w (ix2 l 0)

/-- The folded table: entry (k, j) is the sum over l of emb(k, l) * w(j, l), the embedding table times the transposed
    first-layer weight. -/
def projTable (emb : FVec Ideal ⟨2, ![128, 16]⟩ .f32) (w : FVec Ideal ⟨2, ![16, 16]⟩ .f32) : FVec Ideal ⟨2, ![128, 16]⟩ .f32 :=
  fun i => ∑ l : Fin 16, emb (ix2 (i 0) l) * w (ix2 (i 1) l)

/-- A vector as a one-column matrix. -/
def col {α : Type} {R : Nat} (v : (⟨1, ![R]⟩ : Shape).Idx → α) : (⟨2, ![R, 1]⟩ : Shape).Idx → α := fun i => v (ix1 (i 0))

/-- A vector as a one-row matrix. -/
def row {α : Type} {C : Nat} (v : (⟨1, ![C]⟩ : Shape).Idx → α) : (⟨2, ![1, C]⟩ : Shape).Idx → α := fun i => v (ix1 (i 1))

/-- A one-column matrix as a vector. -/
def uncol {α : Type} {R : Nat} (v : (⟨2, ![R, 1]⟩ : Shape).Idx → α) : (⟨1, ![R]⟩ : Shape).Idx → α := fun i => v (ix2 (i 0) 0)

/-- A one-by-one matrix as a one-element vector, and back. -/
def flat11 {α : Type} (v : (⟨2, ![1, 1]⟩ : Shape).Idx → α) : (⟨1, ![1]⟩ : Shape).Idx → α := fun _ => v (ix2 0 0)
def cell11 {α : Type} (v : (⟨1, ![1]⟩ : Shape).Idx → α) : (⟨2, ![1, 1]⟩ : Shape).Idx → α := fun _ => v (ix1 0)

/-- The sum over all nodes of the second layer's combination. -/
def combine2 (agg xl d2 : FVec Ideal ⟨2, ![500000, 1]⟩ .f32) (b : FVec Ideal ⟨2, ![1, 1]⟩ .f32) :
    FVec Ideal ⟨2, ![1, 1]⟩ .f32 :=
  fun _ => ∑ r : Fin 500000, (agg (ix2 r 0) + d2 (ix2 r 0) * xl (ix2 r 0) + b (ix2 0 0))

end GcnSpec

end
-- ==== Proof.KHost.lean ====
/-
  The host operations of the kernel program, stretch by stretch, as the reference's stages.

  Between its kernels the program runs the reference's own host operations: it scatters the edge weights onto the
  target nodes to get the degrees, takes their inverse roots, gathers them at both ends of every edge for the edge
  normalisation, gathers the projected features at the source nodes, scales them and scatters the sum onto the target
  nodes. Each lemma reads one buffer after one stretch of operations from any buffer contents u: if the buffers the
  stretch reads hold the reference's stages of some arguments, the buffer it writes holds the reference's next stage
  of the same arguments, the two being the same operations applied to the same arrays. Small reshapes that the two
  programs spell differently (a vector as a column, as a row, a one-element vector as a one-by-one matrix) are read at
  an index. A buffer no operation of a stretch writes keeps its contents.
-/
import proofs.«422157_j56495999811736_3_alg».proof.Proof.Gen.KernelIdeal.Frame
import proofs.«422157_j56495999811736_3_alg».proof.Proof.Gen.ReferenceIdeal.Read
import proofs.«422157_j56495999811736_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

/-- Closes: a buffer that no operation of a literal stretch writes holds after the stretch what it held before. -/
local macro "not_written" : tactic =>
  `(tactic| (refine StableHlo.after_of_forall_not_mem _ _ (List.forall_iff_forall_mem.mp ?_)
             simp only [hostOps0, hostOps2, hostOps2_1, hostOps2_2, hostOps3, hostOps4, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## Reshapes between a vector and a one-column or one-row matrix -/

/-- A vector reshaped to one column holds element r at (r, 0). -/
theorem shapeCast_col {α : Type} {R : Nat} (v : (⟨1, ![R]⟩ : Shape).Idx → α)
    (h : (⟨1, ![R]⟩ : Shape).ShapeCasts ⟨2, ![R, 1]⟩) : shapeCast ⟨2, ![R, 1]⟩ v h = GcnSpec.col v := by
  funext i
  refine shapeCast_apply v h i (ix1 (i 0)) ?_
  rw [Shape.rowMajor_val_one, Shape.rowMajor_val_two]
  have h1 : (i 1).val < 1 := (i 1).isLt
  show (i 0).val = (i 0).val * 1 + (i 1).val
  omega

/-- A vector reshaped to one row holds element c at (0, c). -/
theorem shapeCast_row {α : Type} {C : Nat} (v : (⟨1, ![C]⟩ : Shape).Idx → α)
    (h : (⟨1, ![C]⟩ : Shape).ShapeCasts ⟨2, ![1, C]⟩) : shapeCast ⟨2, ![1, C]⟩ v h = GcnSpec.row v := by
  funext i
  refine shapeCast_apply v h i (ix1 (i 1)) ?_
  rw [Shape.rowMajor_val_one, Shape.rowMajor_val_two]
  have h0 : (i 0).val < 1 := (i 0).isLt
  show (i 1).val = (i 0).val * C + (i 1).val
  have : (i 0).val = 0 := by omega
  rw [this]; omega

/-- A one-element vector reshaped to a one-by-one matrix. -/
theorem shapeCast_cell11 {α : Type} (v : (⟨1, ![1]⟩ : Shape).Idx → α)
    (h : (⟨1, ![1]⟩ : Shape).ShapeCasts ⟨2, ![1, 1]⟩) : shapeCast ⟨2, ![1, 1]⟩ v h = GcnSpec.cell11 v := by
  funext i
  refine shapeCast_apply v h i (ix1 0) ?_
  rw [Shape.rowMajor_val_one, Shape.rowMajor_val_two]
  have h0 : (i 0).val < 1 := (i 0).isLt
  have h1 : (i 1).val < 1 := (i 1).isLt
  show (0 : Nat) = (i 0).val * 1 + (i 1).val
  omega

/-- A one-by-one matrix reshaped to a one-element vector. -/
theorem shapeCast_flat11 {α : Type} (v : (⟨2, ![1, 1]⟩ : Shape).Idx → α)
    (h : (⟨2, ![1, 1]⟩ : Shape).ShapeCasts ⟨1, ![1]⟩) : shapeCast ⟨1, ![1]⟩ v h = GcnSpec.flat11 v := by
  funext i
  refine shapeCast_apply v h i (ix2 0 0) ?_
  rw [Shape.rowMajor_val_one, Shape.rowMajor_val_two]
  have h0 : (i 0).val < 1 := (i 0).isLt
  show (0 : Nat) * 1 + 0 = (i 0).val
  omega

/-! ## The host operations before the first kernel -/

section Stretch0

variable (w : Valuation τ sig (Elt Ideal))

theorem s0_arg0 : after (hostOps0 (F := Ideal)) w (Proc.devRef .tc main_arg0) = w (Proc.devRef .tc main_arg0) := by
  after_results
theorem s0_arg1 : after (hostOps0 (F := Ideal)) w (Proc.devRef .tc main_arg1) = w (Proc.devRef .tc main_arg1) := by
  after_results
theorem s0_arg4 : after (hostOps0 (F := Ideal)) w (Proc.devRef .tc main_arg4) = w (Proc.devRef .tc main_arg4) := by
  after_results
theorem s0_arg6 : after (hostOps0 (F := Ideal)) w (Proc.devRef .tc main_arg6) = w (Proc.devRef .tc main_arg6) := by
  after_results
theorem s0_arg7 : after (hostOps0 (F := Ideal)) w (Proc.devRef .tc main_arg7) = w (Proc.devRef .tc main_arg7) := by
  after_results
theorem s0_arg8 : after (hostOps0 (F := Ideal)) w (Proc.devRef .tc main_arg8) = w (Proc.devRef .tc main_arg8) := by
  after_results

/-- The source nodes of the edges: row 0 of the edge index, as the reference slices it. -/
theorem s0_v2 : (after (hostOps0 (F := Ideal)) w (Proc.devRef .tc main_v2) : S5000000.Idx → BitVec 32)
    = Cert.ReferenceIdeal.Read.val_main_v17 (F := Ideal) (w (Proc.devRef .tc main_arg1)) := by
  after_results
  rfl

/-- The target nodes of the edges: row 1 of the edge index. -/
theorem s0_v4 : (after (hostOps0 (F := Ideal)) w (Proc.devRef .tc main_v4) : S5000000.Idx → BitVec 32)
    = Cert.ReferenceIdeal.Read.val_main_v19 (F := Ideal) (w (Proc.devRef .tc main_arg1)) := by
  after_results
  rfl

/-- The edge attributes as one column. -/
theorem s0_v0 : (after (hostOps0 (F := Ideal)) w (Proc.devRef .tc main_v0) : S5000000x1.Idx → BitVec 32)
    = GcnSpec.col (w (Proc.devRef .tc main_arg2) : S5000000.Idx → BitVec 32) := by
  after_results
  exact shapeCast_col (w (Proc.devRef .tc main_arg2) : S5000000.Idx → BitVec 32) shapeCasts_S5000000_S5000000x1

theorem lhs_tab_0 (i : S128x16.Idx) (q : dot_S128x16_S16x16_S128x16_1_0_0_1_n_n.contr.Idx) :
    (dot_S128x16_S16x16_S128x16_1_0_0_1_n_n.lhsIdx i q 0).val = (i 0).val := by
  unfold DotDims.lhsIdx
  rw [dif_neg (show ¬(0 : Fin S128x16.rank) ∈ dot_S128x16_S16x16_S128x16_1_0_0_1_n_n.lhsBatch by decide), dif_pos (show (0 : Fin S128x16.rank) ∈ dot_S128x16_S16x16_S128x16_1_0_0_1_n_n.lhsNonContracting by decide)]
  rfl
theorem lhs_tab_1 (i : S128x16.Idx) (q : dot_S128x16_S16x16_S128x16_1_0_0_1_n_n.contr.Idx) :
    (dot_S128x16_S16x16_S128x16_1_0_0_1_n_n.lhsIdx i q 1).val = (q ⟨0, by decide⟩).val :=
  dot_S128x16_S16x16_S128x16_1_0_0_1_n_n.lhsIdx_val_of_single rfl i q
theorem rhs_tab_0 (i : S128x16.Idx) (q : dot_S128x16_S16x16_S128x16_1_0_0_1_n_n.contr.Idx) :
    (dot_S128x16_S16x16_S128x16_1_0_0_1_n_n.rhsIdx i q 0).val = (q ⟨0, by decide⟩).val :=
  dot_S128x16_S16x16_S128x16_1_0_0_1_n_n.rhsIdx_val_of_single rfl i q
theorem rhs_tab_1 (i : S128x16.Idx) (q : dot_S128x16_S16x16_S128x16_1_0_0_1_n_n.contr.Idx) :
    (dot_S128x16_S16x16_S128x16_1_0_0_1_n_n.rhsIdx i q 1).val = (i 1).val := by
  unfold DotDims.rhsIdx
  rw [dif_neg (show ¬(1 : Fin S16x16.rank) ∈ dot_S128x16_S16x16_S128x16_1_0_0_1_n_n.rhsBatch by decide), dif_pos (show (1 : Fin S16x16.rank) ∈ dot_S128x16_S16x16_S128x16_1_0_0_1_n_n.rhsNonContracting by decide)]
  rfl

/-- The embedding table times the transposed first-layer weight, entry by entry: the sum over l of emb(k, l) * w(j, l). -/
theorem tab_eq (emb : FVec Ideal S128x16 .f32) (w1 : FVec Ideal S16x16 .f32) :
    Host.dotGeneral dot_S128x16_S16x16_S128x16_1_0_0_1_n_n (some .fp32) emb
      (transpose S16x16 [1, 0] w1 transposes_S16x16_S16x16_1_0) = GcnSpec.projTable emb w1 := by
  funext i
  generalize ht : transpose S16x16 [1, 0] w1 transposes_S16x16_S16x16_1_0 = y1
  simp only [Host.dotGeneral]
  rw [Ideal.dotGeneral_apply, ← Equiv.sum_comp (ValueIdx.contrEquiv1 dot_S128x16_S16x16_S128x16_1_0_0_1_n_n 16 rfl rfl).symm]
  unfold GcnSpec.projTable
  refine Finset.sum_congr rfl fun k _ => ?_
  have hk := ValueIdx.contrEquiv1_symm_val dot_S128x16_S16x16_S128x16_1_0_0_1_n_n 16 rfl rfl k
  have el : dot_S128x16_S16x16_S128x16_1_0_0_1_n_n.lhsIdx i ((ValueIdx.contrEquiv1 dot_S128x16_S16x16_S128x16_1_0_0_1_n_n 16 rfl rfl).symm k) = ix2 (i 0) k := funext fun a => Fin.ext (by
    match a with
    | ⟨0, _⟩ => exact lhs_tab_0 _ _
    | ⟨1, _⟩ => exact (lhs_tab_1 _ _).trans hk)
  rw [el]
  refine congrArg (emb (ix2 (i 0) k) * ·) ?_
  subst ht
  refine transpose_apply [1, 0] w1 transposes_S16x16_S16x16_1_0 _ (ix2 (i 1) k) ?_
  intro b
  match b with
  | ⟨0, _⟩ => exact ((rhs_tab_0 _ _).trans hk).symm
  | ⟨1, _⟩ => exact (rhs_tab_1 _ _).symm

/-- The folded table the first kernel reads. -/
theorem s0_v6 : (after (hostOps0 (F := Ideal)) w (Proc.devRef .tc main_v6) : S128x16.Idx → EReal)
    = GcnSpec.projTable (w (Proc.devRef .tc main_arg3)) (w (Proc.devRef .tc main_arg5)) := by
  after_results
  exact tab_eq _ _

end Stretch0

/-! ## The host operations between the lookups and the first epilogue kernel -/

/-- The squared inverse root degrees, one per node, as a column. -/
abbrev sqCol (d : FVec Ideal S500000 .f32) : FVec Ideal S500000x1 .f32 := GcnSpec.col (mulf d d)

section Stretch2

variable (u : Valuation τ sig (Elt Ideal))
variable (x0 : IVec S500000x1 32) (x1 : IVec S2x5000000 32) (x2 : IVec S5000000 32) (x3 : FVec Ideal S128x16 .f32) (x4 : FVec Ideal S16x1 .f32) (x5 : FVec Ideal S16x16 .f32) (x6 : FVec Ideal S16 .f32) (x7 : FVec Ideal S1x16 .f32) (x8 : FVec Ideal S1 .f32)

theorem keep_2_v2 : after (hostOps2 (F := Ideal)) u (Proc.devRef .tc main_v2) = u (Proc.devRef .tc main_v2) := by not_written
theorem keep_2_v4 : after (hostOps2 (F := Ideal)) u (Proc.devRef .tc main_v4) = u (Proc.devRef .tc main_v4) := by not_written
theorem keep_2_v7 : after (hostOps2 (F := Ideal)) u (Proc.devRef .tc main_v7) = u (Proc.devRef .tc main_v7) := by not_written
theorem keep_2_arg6 : after (hostOps2 (F := Ideal)) u (Proc.devRef .tc main_arg6) = u (Proc.devRef .tc main_arg6) := by not_written
theorem keep_2_arg7 : after (hostOps2 (F := Ideal)) u (Proc.devRef .tc main_arg7) = u (Proc.devRef .tc main_arg7) := by not_written
theorem keep_2_arg8 : after (hostOps2 (F := Ideal)) u (Proc.devRef .tc main_arg8) = u (Proc.devRef .tc main_arg8) := by not_written

theorem keep_2_1_v9 : after (hostOps2_1 (F := Ideal)) u (Proc.devRef .tc main_v9) = u (Proc.devRef .tc main_v9) := by not_written
theorem keep_2_1_v2 : after (hostOps2_1 (F := Ideal)) u (Proc.devRef .tc main_v2) = u (Proc.devRef .tc main_v2) := by not_written
theorem keep_2_1_v4 : after (hostOps2_1 (F := Ideal)) u (Proc.devRef .tc main_v4) = u (Proc.devRef .tc main_v4) := by not_written
theorem keep_2_1_v7 : after (hostOps2_1 (F := Ideal)) u (Proc.devRef .tc main_v7) = u (Proc.devRef .tc main_v7) := by not_written
theorem keep_2_1_arg6 : after (hostOps2_1 (F := Ideal)) u (Proc.devRef .tc main_arg6) = u (Proc.devRef .tc main_arg6) := by not_written
theorem keep_2_1_arg7 : after (hostOps2_1 (F := Ideal)) u (Proc.devRef .tc main_arg7) = u (Proc.devRef .tc main_arg7) := by not_written
theorem keep_2_1_arg8 : after (hostOps2_1 (F := Ideal)) u (Proc.devRef .tc main_arg8) = u (Proc.devRef .tc main_arg8) := by not_written

theorem keep_2_2_v7 : after (hostOps2_2 (F := Ideal)) u (Proc.devRef .tc main_v7) = u (Proc.devRef .tc main_v7) := by not_written
theorem keep_2_2_v2 : after (hostOps2_2 (F := Ideal)) u (Proc.devRef .tc main_v2) = u (Proc.devRef .tc main_v2) := by not_written
theorem keep_2_2_v4 : after (hostOps2_2 (F := Ideal)) u (Proc.devRef .tc main_v4) = u (Proc.devRef .tc main_v4) := by not_written
theorem keep_2_2_arg8 : after (hostOps2_2 (F := Ideal)) u (Proc.devRef .tc main_arg8) = u (Proc.devRef .tc main_arg8) := by not_written

set_option maxRecDepth 200000 in
set_option maxHeartbeats 4000000 in
/-- The looked-up edge weights as a vector. -/
theorem s2a_v9 (h0 : (u (Proc.devRef .tc main_v8) : S5000000x1.Idx → EReal) = Cert.ReferenceIdeal.Read.val_main_v14 (F := Ideal) x2 x4) :
    (after (hostOps2 (F := Ideal)) u (Proc.devRef .tc main_v9) : S5000000.Idx → EReal) = Cert.ReferenceIdeal.Read.val_main_v15 (F := Ideal) x2 x4 := by
  after_results_simp
  rw [h0]
  unfold Cert.ReferenceIdeal.Read.val_main_v15
  generalize Cert.ReferenceIdeal.Read.val_main_v14 (F := Ideal) x2 x4 = g0
  rfl

set_option maxRecDepth 200000 in
set_option maxHeartbeats 4000000 in
/-- Where the degree, the scattered edge weights plus one, is positive. -/
theorem s2a_v16 (h0 : (u (Proc.devRef .tc main_v8) : S5000000x1.Idx → EReal) = Cert.ReferenceIdeal.Read.val_main_v14 (F := Ideal) x2 x4)
    (h1 : (u (Proc.devRef .tc main_v4) : S5000000.Idx → BitVec 32) = Cert.ReferenceIdeal.Read.val_main_v19 (F := Ideal) x1) :
    (after (hostOps2 (F := Ideal)) u (Proc.devRef .tc main_v16) : S500000.Idx → BitVec 1) = Cert.ReferenceIdeal.Read.val_main_v28 (F := Ideal) x1 x2 x4 := by
  after_results_simp
  rw [h0, h1]
  unfold Cert.ReferenceIdeal.Read.val_main_v28 Cert.ReferenceIdeal.Read.val_main_v26 Cert.ReferenceIdeal.Read.val_main_v24 Cert.ReferenceIdeal.Read.val_main_v22 Cert.ReferenceIdeal.Read.val_main_cst Cert.ReferenceIdeal.Read.val_main_v23 Cert.ReferenceIdeal.Read.val_main_v15 Cert.ReferenceIdeal.Read.val_main_v25 Cert.ReferenceIdeal.Read.val_main_cst_3 Cert.ReferenceIdeal.Read.val_main_v27 Cert.ReferenceIdeal.Read.val_main_cst_4
  generalize Cert.ReferenceIdeal.Read.val_main_v14 (F := Ideal) x2 x4 = g0
  generalize Cert.ReferenceIdeal.Read.val_main_v19 (F := Ideal) x1 = g1
  rfl

set_option maxRecDepth 200000 in
set_option maxHeartbeats 4000000 in
/-- The inverse square root of the degree. -/
theorem s2a_v17 (h0 : (u (Proc.devRef .tc main_v8) : S5000000x1.Idx → EReal) = Cert.ReferenceIdeal.Read.val_main_v14 (F := Ideal) x2 x4)
    (h1 : (u (Proc.devRef .tc main_v4) : S5000000.Idx → BitVec 32) = Cert.ReferenceIdeal.Read.val_main_v19 (F := Ideal) x1) :
    (after (hostOps2 (F := Ideal)) u (Proc.devRef .tc main_v17) : S500000.Idx → EReal) = Cert.ReferenceIdeal.Read.val_main_v29 (F := Ideal) x1 x2 x4 := by
  after_results_simp
  rw [h0, h1]
  unfold Cert.ReferenceIdeal.Read.val_main_v29 Cert.ReferenceIdeal.Read.val_main_v26 Cert.ReferenceIdeal.Read.val_main_v24 Cert.ReferenceIdeal.Read.val_main_v22 Cert.ReferenceIdeal.Read.val_main_cst Cert.ReferenceIdeal.Read.val_main_v23 Cert.ReferenceIdeal.Read.val_main_v15 Cert.ReferenceIdeal.Read.val_main_v25 Cert.ReferenceIdeal.Read.val_main_cst_3
  generalize Cert.ReferenceIdeal.Read.val_main_v14 (F := Ideal) x2 x4 = g0
  generalize Cert.ReferenceIdeal.Read.val_main_v19 (F := Ideal) x1 = g1
  rfl

set_option maxRecDepth 200000 in
set_option maxHeartbeats 4000000 in
/-- The zero that stands where the degree is not positive. -/
theorem s2a_cst2 :
    (after (hostOps2 (F := Ideal)) u (Proc.devRef .tc main_cst_2) : S_.Idx → EReal) = Cert.ReferenceIdeal.Read.val_main_cst_5 (F := Ideal)  := by
  after_results_simp
  unfold Cert.ReferenceIdeal.Read.val_main_cst_5
  rfl

/-- The three operations of the where: the mask selects the inverse root, the broadcast constant elsewhere. -/
theorem s2b_v18 :
    (after (hostOps2_1 (F := Ideal)) u (Proc.devRef .tc main_v18) : S500000.Idx → EReal)
      = select (u (Proc.devRef .tc main_v16) : S500000.Idx → BitVec 1) (u (Proc.devRef .tc main_v17) : S500000.Idx → EReal)
          (broadcastInDim S500000 ![] bcast_S_S500000 (u (Proc.devRef .tc main_cst_2) : S_.Idx → EReal)) := by
  after_results
  rfl

/-- The reference's where is that selection of its own stages. -/
theorem where_ref :
    select (Cert.ReferenceIdeal.Read.val_main_v28 (F := Ideal) x1 x2 x4) (Cert.ReferenceIdeal.Read.val_main_v29 (F := Ideal) x1 x2 x4)
        (broadcastInDim S500000 ![] bcast_S_S500000 (Cert.ReferenceIdeal.Read.val_main_cst_5 (F := Ideal)))
      = Cert.ReferenceIdeal.Read.val_main_v30 (F := Ideal) x1 x2 x4 := by
  unfold Cert.ReferenceIdeal.Read.val_main_v30 Cert.ReferenceIdeal.Read.val_main_call0_v1 Cert.ReferenceIdeal.Read.val_main_call0_v0
  rfl

set_option maxRecDepth 200000 in
set_option maxHeartbeats 4000000 in
/-- The edge normalisation: the inverse root degree at the source node times the edge weight times the inverse root degree at the target node. -/
theorem s2c_v36 (h0 : (u (Proc.devRef .tc main_v18) : S500000.Idx → EReal) = Cert.ReferenceIdeal.Read.val_main_v30 (F := Ideal) x1 x2 x4)
    (h1 : (u (Proc.devRef .tc main_v9) : S5000000.Idx → EReal) = Cert.ReferenceIdeal.Read.val_main_v15 (F := Ideal) x2 x4)
    (h2 : (u (Proc.devRef .tc main_v2) : S5000000.Idx → BitVec 32) = Cert.ReferenceIdeal.Read.val_main_v17 (F := Ideal) x1)
    (h3 : (u (Proc.devRef .tc main_v4) : S5000000.Idx → BitVec 32) = Cert.ReferenceIdeal.Read.val_main_v19 (F := Ideal) x1) :
    (after (hostOps2_2 (F := Ideal)) u (Proc.devRef .tc main_v36) : S5000000.Idx → EReal) = Cert.ReferenceIdeal.Read.val_main_v46 (F := Ideal) x1 x2 x4 := by
  after_results_simp
  rw [h0, h1, h2, h3]
  unfold Cert.ReferenceIdeal.Read.val_main_v46 Cert.ReferenceIdeal.Read.val_main_v38 Cert.ReferenceIdeal.Read.val_main_v37 Cert.ReferenceIdeal.Read.val_main_v36 Cert.ReferenceIdeal.Read.val_main_v35 Cert.ReferenceIdeal.Read.val_main_v32 Cert.ReferenceIdeal.Read.val_main_v31 Cert.ReferenceIdeal.Read.val_main_c_6 Cert.ReferenceIdeal.Read.val_main_v34 Cert.ReferenceIdeal.Read.val_main_v33 Cert.ReferenceIdeal.Read.val_main_c_7 Cert.ReferenceIdeal.Read.val_main_v45 Cert.ReferenceIdeal.Read.val_main_v44 Cert.ReferenceIdeal.Read.val_main_v43 Cert.ReferenceIdeal.Read.val_main_v40 Cert.ReferenceIdeal.Read.val_main_v39 Cert.ReferenceIdeal.Read.val_main_c_8 Cert.ReferenceIdeal.Read.val_main_v42 Cert.ReferenceIdeal.Read.val_main_v41 Cert.ReferenceIdeal.Read.val_main_c_9
  generalize Cert.ReferenceIdeal.Read.val_main_v30 (F := Ideal) x1 x2 x4 = g0
  generalize Cert.ReferenceIdeal.Read.val_main_v15 (F := Ideal) x2 x4 = g1
  generalize Cert.ReferenceIdeal.Read.val_main_v17 (F := Ideal) x1 = g2
  generalize Cert.ReferenceIdeal.Read.val_main_v19 (F := Ideal) x1 = g3
  rfl

set_option maxRecDepth 200000 in
set_option maxHeartbeats 4000000 in
/-- The first layer's messages: the projected features gathered at the source nodes, scaled by the edge normalisation, scattered onto the target nodes and summed. -/
theorem s2c_v49 (h0 : (u (Proc.devRef .tc main_v18) : S500000.Idx → EReal) = Cert.ReferenceIdeal.Read.val_main_v30 (F := Ideal) x1 x2 x4)
    (h1 : (u (Proc.devRef .tc main_v9) : S5000000.Idx → EReal) = Cert.ReferenceIdeal.Read.val_main_v15 (F := Ideal) x2 x4)
    (h2 : (u (Proc.devRef .tc main_v2) : S5000000.Idx → BitVec 32) = Cert.ReferenceIdeal.Read.val_main_v17 (F := Ideal) x1)
    (h3 : (u (Proc.devRef .tc main_v4) : S5000000.Idx → BitVec 32) = Cert.ReferenceIdeal.Read.val_main_v19 (F := Ideal) x1)
    (h4 : (u (Proc.devRef .tc main_v7) : S500000x16.Idx → EReal) = Cert.ReferenceIdeal.Read.val_main_v21 (F := Ideal) x0 x3 x5) :
    (after (hostOps2_2 (F := Ideal)) u (Proc.devRef .tc main_v49) : S500000x16.Idx → EReal) = Cert.ReferenceIdeal.Read.val_main_v59 (F := Ideal) x0 x1 x2 x3 x4 x5 := by
  after_results_simp
  rw [h0, h1, h2, h3, h4]
  unfold Cert.ReferenceIdeal.Read.val_main_v59 Cert.ReferenceIdeal.Read.val_main_v57 Cert.ReferenceIdeal.Read.val_main_cst_12 Cert.ReferenceIdeal.Read.val_main_v58 Cert.ReferenceIdeal.Read.val_main_v56 Cert.ReferenceIdeal.Read.val_main_v55 Cert.ReferenceIdeal.Read.val_main_v47 Cert.ReferenceIdeal.Read.val_main_v46 Cert.ReferenceIdeal.Read.val_main_v38 Cert.ReferenceIdeal.Read.val_main_v37 Cert.ReferenceIdeal.Read.val_main_v36 Cert.ReferenceIdeal.Read.val_main_v35 Cert.ReferenceIdeal.Read.val_main_v32 Cert.ReferenceIdeal.Read.val_main_v31 Cert.ReferenceIdeal.Read.val_main_c_6 Cert.ReferenceIdeal.Read.val_main_v34 Cert.ReferenceIdeal.Read.val_main_v33 Cert.ReferenceIdeal.Read.val_main_c_7 Cert.ReferenceIdeal.Read.val_main_v45 Cert.ReferenceIdeal.Read.val_main_v44 Cert.ReferenceIdeal.Read.val_main_v43 Cert.ReferenceIdeal.Read.val_main_v40 Cert.ReferenceIdeal.Read.val_main_v39 Cert.ReferenceIdeal.Read.val_main_c_8 Cert.ReferenceIdeal.Read.val_main_v42 Cert.ReferenceIdeal.Read.val_main_v41 Cert.ReferenceIdeal.Read.val_main_c_9 Cert.ReferenceIdeal.Read.val_main_v54 Cert.ReferenceIdeal.Read.val_main_v53 Cert.ReferenceIdeal.Read.val_main_v52 Cert.ReferenceIdeal.Read.val_main_v49 Cert.ReferenceIdeal.Read.val_main_v48 Cert.ReferenceIdeal.Read.val_main_c_10 Cert.ReferenceIdeal.Read.val_main_v51 Cert.ReferenceIdeal.Read.val_main_v50 Cert.ReferenceIdeal.Read.val_main_c_11
  generalize Cert.ReferenceIdeal.Read.val_main_v30 (F := Ideal) x1 x2 x4 = g0
  generalize Cert.ReferenceIdeal.Read.val_main_v15 (F := Ideal) x2 x4 = g1
  generalize Cert.ReferenceIdeal.Read.val_main_v17 (F := Ideal) x1 = g2
  generalize Cert.ReferenceIdeal.Read.val_main_v19 (F := Ideal) x1 = g3
  generalize Cert.ReferenceIdeal.Read.val_main_v21 (F := Ideal) x0 x3 x5 = g4
  rfl

set_option maxRecDepth 200000 in
set_option maxHeartbeats 4000000 in
/-- The squared inverse root degree as a column. -/
theorem s2c_v20 (h0 : (u (Proc.devRef .tc main_v18) : S500000.Idx → EReal) = Cert.ReferenceIdeal.Read.val_main_v30 (F := Ideal) x1 x2 x4) :
    (after (hostOps2_2 (F := Ideal)) u (Proc.devRef .tc main_v20) : S500000x1.Idx → EReal)
      = sqCol (Cert.ReferenceIdeal.Read.val_main_v30 (F := Ideal) x1 x2 x4) := by
  after_results_simp
  rw [h0]
  generalize Cert.ReferenceIdeal.Read.val_main_v30 (F := Ideal) x1 x2 x4 = g0
  exact shapeCast_col (mulf (F := Ideal) (s := S500000) (φ := .f32) g0 g0) shapeCasts_S500000_S500000x1

set_option maxRecDepth 200000 in
set_option maxHeartbeats 4000000 in
/-- The first layer's bias as a row. -/
theorem s2c_v50 (h0 : (u (Proc.devRef .tc main_arg6) : S16.Idx → EReal) = x6) :
    (after (hostOps2_2 (F := Ideal)) u (Proc.devRef .tc main_v50) : S1x16.Idx → EReal) = GcnSpec.row x6 := by
  after_results_simp
  rw [h0]
  exact shapeCast_row x6 shapeCasts_S16_S1x16

set_option maxRecDepth 200000 in
set_option maxHeartbeats 4000000 in
/-- The second layer's weight as a column. -/
theorem s2c_v51 (h0 : (u (Proc.devRef .tc main_arg7) : S1x16.Idx → EReal) = x7) :
    (after (hostOps2_2 (F := Ideal)) u (Proc.devRef .tc main_v51) : S16x1.Idx → EReal) = Cert.ReferenceIdeal.Read.val_main_v69 (F := Ideal) x7 := by
  after_results_simp
  rw [h0]
  unfold Cert.ReferenceIdeal.Read.val_main_v69
  rfl

end Stretch2

/-! ## The host operations between the two epilogue kernels, and the last reshape -/

section Stretch3

variable (u : Valuation τ sig (Elt Ideal))
variable (x0 : IVec S500000x1 32) (x1 : IVec S2x5000000 32) (x2 : IVec S5000000 32) (x3 : FVec Ideal S128x16 .f32) (x4 : FVec Ideal S16x1 .f32) (x5 : FVec Ideal S16x16 .f32) (x6 : FVec Ideal S16 .f32) (x7 : FVec Ideal S1x16 .f32) (x8 : FVec Ideal S1 .f32)

theorem keep_3_v52 : after (hostOps3 (F := Ideal)) u (Proc.devRef .tc main_v52) = u (Proc.devRef .tc main_v52) := by not_written
theorem keep_3_v20 : after (hostOps3 (F := Ideal)) u (Proc.devRef .tc main_v20) = u (Proc.devRef .tc main_v20) := by not_written

set_option maxRecDepth 200000 in
set_option maxHeartbeats 4000000 in
/-- The second layer's messages: the projected features gathered at the source nodes, scaled by the edge normalisation, scattered onto the target nodes and summed. -/
theorem s3_v64 (h0 : (u (Proc.devRef .tc main_v36) : S5000000.Idx → EReal) = Cert.ReferenceIdeal.Read.val_main_v95 (F := Ideal) x1 x2 x4)
    (h1 : (u (Proc.devRef .tc main_v52) : S500000x1.Idx → EReal) = Cert.ReferenceIdeal.Read.val_main_v70 (F := Ideal) x0 x1 x2 x3 x4 x5 x6 x7)
    (h2 : (u (Proc.devRef .tc main_v2) : S5000000.Idx → BitVec 32) = Cert.ReferenceIdeal.Read.val_main_v17 (F := Ideal) x1)
    (h3 : (u (Proc.devRef .tc main_v4) : S5000000.Idx → BitVec 32) = Cert.ReferenceIdeal.Read.val_main_v19 (F := Ideal) x1) :
    (after (hostOps3 (F := Ideal)) u (Proc.devRef .tc main_v64) : S500000x1.Idx → EReal) = Cert.ReferenceIdeal.Read.val_main_v107 (F := Ideal) x0 x1 x2 x3 x4 x5 x6 x7 := by
  after_results_simp
  rw [h0, h1, h2, h3]
  unfold Cert.ReferenceIdeal.Read.val_main_v107 Cert.ReferenceIdeal.Read.val_main_v105 Cert.ReferenceIdeal.Read.val_main_cst_23 Cert.ReferenceIdeal.Read.val_main_v106 Cert.ReferenceIdeal.Read.val_main_v104 Cert.ReferenceIdeal.Read.val_main_v96 Cert.ReferenceIdeal.Read.val_main_v103 Cert.ReferenceIdeal.Read.val_main_v102 Cert.ReferenceIdeal.Read.val_main_v101 Cert.ReferenceIdeal.Read.val_main_v98 Cert.ReferenceIdeal.Read.val_main_v97 Cert.ReferenceIdeal.Read.val_main_c_21 Cert.ReferenceIdeal.Read.val_main_v100 Cert.ReferenceIdeal.Read.val_main_v99 Cert.ReferenceIdeal.Read.val_main_c_22
  generalize Cert.ReferenceIdeal.Read.val_main_v95 (F := Ideal) x1 x2 x4 = g0
  generalize Cert.ReferenceIdeal.Read.val_main_v70 (F := Ideal) x0 x1 x2 x3 x4 x5 x6 x7 = g1
  generalize Cert.ReferenceIdeal.Read.val_main_v17 (F := Ideal) x1 = g2
  generalize Cert.ReferenceIdeal.Read.val_main_v19 (F := Ideal) x1 = g3
  rfl

set_option maxRecDepth 200000 in
set_option maxHeartbeats 4000000 in
/-- The second layer's bias as a one-by-one matrix. -/
theorem s3_v65 (h0 : (u (Proc.devRef .tc main_arg8) : S1.Idx → EReal) = x8) :
    (after (hostOps3 (F := Ideal)) u (Proc.devRef .tc main_v65) : S1x1.Idx → EReal) = GcnSpec.cell11 x8 := by
  after_results_simp
  rw [h0]
  exact shapeCast_cell11 x8 shapeCasts_S1_S1x1

/-- The result, reshaped from the one-by-one matrix the last kernel leaves. -/
theorem s4_v67 : (after (hostOps4 (F := Ideal)) u (Proc.devRef .tc main_v67) : S1.Idx → EReal)
    = GcnSpec.flat11 (u (Proc.devRef .tc main_v66) : S1x1.Idx → EReal) := by
  after_results
  exact shapeCast_flat11 (u (Proc.devRef .tc main_v66) : S1x1.Idx → EReal) shapeCasts_S1x1_S1

end Stretch3

end Cert.KernelIdeal.Chain

end
-- ==== Proof.OneHot.lean ====
/-
  A one-hot row against a table, on the extended reals.

  A row of the matrix whose entry (r, k) is 1 where the word at r equals k and 0 elsewhere, multiplied into any
  function f of k, gives f at that word: the sum has one term 1 * f k₀ and the others 0 * f k, and on the extended
  reals 1 * y = y and 0 * y = 0 hold for every y, infinite or not. So no finiteness is used.
  Beside it, the facts about a 32-bit word known to be below n (n at most 2^31): read signed it is its unsigned value,
  clamping it to n - 1 changes nothing, and it equals the word of a number k below 2^32 exactly when k is its value.
-/
import Idealize.ShloMosaic.PureOps.Ideal
import Idealize.ShloMosaic.PureOps.Ideal.Laws
import Idealize.ShloMosaic.Lib.ValueIdx

noncomputable section

namespace GcnLookup

open Idealize.ShloMosaic

/-- A sum over k of (1 if k = k₀ else 0) * f k is f k₀, on the extended reals. -/
theorem sum_onehot_mul {n : Nat} (k0 : Fin n) (f : Fin n → EReal) :
    ∑ k : Fin n, (if k = k0 then (1 : EReal) else 0) * f k = f k0 := by
  rw [Finset.sum_eq_single k0]
  · rw [if_pos rfl, one_mul]
  · intro b _ hb
    rw [if_neg hb, zero_mul]
  · intro h
    exact absurd (Finset.mem_univ _) h

/-- A word whose unsigned value is below 2^31 reads the same signed. -/
theorem toInt_toNat_of_lt (w : BitVec 32) (h : w.toNat < 2 ^ 31) : w.toInt.toNat = w.toNat := by
  unfold BitVec.toInt
  have h32 := w.isLt
  split <;> omega

/-- Clamping a word below n into [0, n - 1] leaves its value. -/
theorem clamp_of_lt (w : BitVec 32) (n : Nat) (hn : n ≤ 2 ^ 31) (h : w.toNat < n) :
    min w.toInt.toNat (n - 1) = w.toNat := by
  rw [toInt_toNat_of_lt w (by omega)]
  omega

/-- A word equals the word of k (k below 2^32) exactly when k is its value. -/
theorem eq_ofNat_iff (w : BitVec 32) (k : Nat) (hk : k < 2 ^ 32) : w = BitVec.ofNat 32 k ↔ w.toNat = k := by
  constructor
  · intro e
    rw [e, BitVec.toNat_ofNat]
    exact Nat.mod_eq_of_lt hk
  · intro e
    apply BitVec.eq_of_toNat_eq
    rw [BitVec.toNat_ofNat, e]
    exact (Nat.mod_eq_of_lt hk).symm

/-- The one-bit result of an equality test, widened to 32 bits and read as a signed integer: 1 or 0. -/
theorem ofBool_setWidth_toInt (b : Bool) : ((BitVec.ofBool b).setWidth 32).toInt = if b then 1 else 0 := by
  cases b <;> decide

end GcnLookup

end
-- ==== Proof.Reg0.lean ====
/-
  The first kernel's result array: the embedding lookup folded with the first linear layer.

  Each grid point loads a block of 4000 node ids and the whole 128-row table, builds the 4000 x 128 matrix whose
  entry (r, k) is 1 where id r equals k and 0 elsewhere, and multiplies it into the table. Where every id is below
  128, row r of the product is the table's row id r (one term 1 * table(k, c), the rest 0 * table(k, c)), so the
  125 blocks written back tile the array with rowsOf of the table at the ids.
-/
import proofs.«422157_j56495999811736_3_alg».proof.Proof.Gen.KernelIdeal.Frame
import proofs.«422157_j56495999811736_3_alg».proof.Proof.Spec
import proofs.«422157_j56495999811736_3_alg».proof.Proof.OneHot
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg0

/-! ## The one-hot matrix and the product, at an index -/

/-- Entry (r, k) of the one-hot matrix: the equality test of id r against the column number k, widened to a 32-bit
    word and read as a signed integer, is 1 where they agree and 0 elsewhere. -/
theorem onehot_apply (v0 : Vec Ideal S4000x1 .i32) (r : Fin 4000) (k : Fin 128) :
    (sitofp .f32 (extui 32 (cmpi .eq (broadcastTo S4000x128 (shapeCast S4000x1 (shapeCast S4000 v0 shapeCasts_S4000x1_S4000) shapeCasts_S4000_S4000x1) broadcasts_S4000x1_S4000x128)
        (iota .tc S4000x128 32 [1] iota_S4000x128_d1_w32)) natLt_1_32) : FVec Ideal S4000x128 .f32) (ix2 r k)
      = if (v0 (ix2 r 0) : BitVec 32) = BitVec.ofNat 32 k.val then (1 : EReal) else 0 := by
  rw [shapeCast_shapeCast]
  show (((((BitVec.ofBool ((broadcastTo S4000x128 v0 broadcasts_S4000x1_S4000x128 (ix2 r k) : BitVec 32)
      == iota .tc S4000x128 32 [1] iota_S4000x128_d1_w32 (ix2 r k))).setWidth 32).toInt : ℝ) : EReal)) = _
  rw [broadcastTo_apply v0 broadcasts_S4000x1_S4000x128 (ix2 r k) (ix2 r 0) (fun a => by
    match a with
    | ⟨0, _⟩ => rfl
    | ⟨1, _⟩ => rfl)]
  rw [iota_single_apply, GcnLookup.ofBool_setWidth_toInt]
  by_cases h : (v0 (ix2 r 0) : BitVec 32) = BitVec.ofNat 32 k.val
  · rw [if_pos h, if_pos (by rw [h]; exact beq_self_eq_true _)]; simp
  · rw [if_neg h, if_neg (by simpa using h)]; simp

/-- The contraction's four coordinates: a left index is (row, contraction position), a right one (contraction
    position, column). -/
theorem lhs_pay_0 (i : S4000x16.Idx) (q : dot_S4000x128_S128x16_S4000x16_1_0_0_1_n_n.contr.Idx) :
    (dot_S4000x128_S128x16_S4000x16_1_0_0_1_n_n.lhsIdx i q 0).val = (i 0).val := by
  unfold DotDims.lhsIdx
  rw [dif_neg (show ¬(0 : Fin S4000x128.rank) ∈ dot_S4000x128_S128x16_S4000x16_1_0_0_1_n_n.lhsBatch by decide),
    dif_pos (show (0 : Fin S4000x128.rank) ∈ dot_S4000x128_S128x16_S4000x16_1_0_0_1_n_n.lhsNonContracting by decide)]
  rfl
theorem lhs_pay_1 (i : S4000x16.Idx) (q : dot_S4000x128_S128x16_S4000x16_1_0_0_1_n_n.contr.Idx) :
    (dot_S4000x128_S128x16_S4000x16_1_0_0_1_n_n.lhsIdx i q 1).val = (q ⟨0, by decide⟩).val :=
  dot_S4000x128_S128x16_S4000x16_1_0_0_1_n_n.lhsIdx_val_of_single rfl i q
theorem rhs_pay_0 (i : S4000x16.Idx) (q : dot_S4000x128_S128x16_S4000x16_1_0_0_1_n_n.contr.Idx) :
    (dot_S4000x128_S128x16_S4000x16_1_0_0_1_n_n.rhsIdx i q 0).val = (q ⟨0, by decide⟩).val :=
  dot_S4000x128_S128x16_S4000x16_1_0_0_1_n_n.rhsIdx_val_of_single rfl i q
theorem rhs_pay_1 (i : S4000x16.Idx) (q : dot_S4000x128_S128x16_S4000x16_1_0_0_1_n_n.contr.Idx) :
    (dot_S4000x128_S128x16_S4000x16_1_0_0_1_n_n.rhsIdx i q 1).val = (i 1).val := by
  unfold DotDims.rhsIdx
  rw [dif_neg (show ¬(1 : Fin S128x16.rank) ∈ dot_S4000x128_S128x16_S4000x16_1_0_0_1_n_n.rhsBatch by decide),
    dif_pos (show (1 : Fin S128x16.rank) ∈ dot_S4000x128_S128x16_S4000x16_1_0_0_1_n_n.rhsNonContracting by decide)]
  rfl

/-- The product into the zero accumulator, at (r, c): the sum over the 128 contraction positions k of the left
    operand at (r, k) times the right operand at (k, c). -/
theorem matmul_apply_rc (A : FVec Ideal S4000x128 .f32) (B : FVec Ideal S128x16 .f32) (r : Fin 4000) (c : Fin 16) :
    (matmul dot_S4000x128_S128x16_S4000x16_1_0_0_1_n_n (some .fp32) A B (constant S4000x16 .f32 0x00000000#32) : FVec Ideal S4000x16 .f32) (ix2 r c)
      = ∑ k : Fin 128, A (ix2 r k) * B (ix2 k c) := by
  show FloatOps.matmul dot_S4000x128_S128x16_S4000x16_1_0_0_1_n_n (some .fp32) A B (constant S4000x16 .f32 0x00000000#32) (ix2 r c) = _
  rw [Ideal.matmul_constant_zero_apply, ← Equiv.sum_comp (ValueIdx.contrEquiv1 dot_S4000x128_S128x16_S4000x16_1_0_0_1_n_n 128 rfl rfl).symm]
  refine Finset.sum_congr rfl fun k _ => ?_
  have hk := ValueIdx.contrEquiv1_symm_val dot_S4000x128_S128x16_S4000x16_1_0_0_1_n_n 128 rfl rfl k
  have el : dot_S4000x128_S128x16_S4000x16_1_0_0_1_n_n.lhsIdx (ix2 r c) ((ValueIdx.contrEquiv1 dot_S4000x128_S128x16_S4000x16_1_0_0_1_n_n 128 rfl rfl).symm k) = ix2 r k := funext fun a => Fin.ext (by
    match a with
    | ⟨0, _⟩ => exact lhs_pay_0 _ _
    | ⟨1, _⟩ => exact (lhs_pay_1 _ _).trans hk)
  have er : dot_S4000x128_S128x16_S4000x16_1_0_0_1_n_n.rhsIdx (ix2 r c) ((ValueIdx.contrEquiv1 dot_S4000x128_S128x16_S4000x16_1_0_0_1_n_n 128 rfl rfl).symm k) = ix2 k c := funext fun a => Fin.ext (by
    match a with
    | ⟨0, _⟩ => exact (rhs_pay_0 _ _).trans hk
    | ⟨1, _⟩ => exact rhs_pay_1 _ _)
  rw [el, er]

/-- THE PAYLOAD AT AN INDEX: where id r is below 128, row r of the one-hot matrix times the table is the table's
    row id r. The sum has the one term 1 * table(id r, c); the others are 0 * table(k, c) = 0. -/
theorem pay_apply (v0 : Vec Ideal S4000x1 .i32) (v8 : Vec Ideal S128x16 .f32) (r : Fin 4000) (c : Fin 16)
    (h : (v0 (ix2 r 0) : BitVec 32).toNat < 128) :
    k0_pay1 (F := Ideal) v0 v8 (ix2 r c) = v8 (ix2 ⟨(v0 (ix2 r 0) : BitVec 32).toNat, h⟩ c) := by
  unfold k0_pay1
  refine (matmul_apply_rc _ _ r c).trans ?_
  rw [shapeCast_self]
  refine (Finset.sum_congr rfl fun k _ => ?_).trans (GcnLookup.sum_onehot_mul ⟨(v0 (ix2 r 0) : BitVec 32).toNat, h⟩ (fun k => v8 (ix2 k c)))
  rw [onehot_apply]
  have hiff : ((v0 (ix2 r 0) : BitVec 32) = BitVec.ofNat 32 k.val) ↔ k = ⟨(v0 (ix2 r 0) : BitVec 32).toNat, h⟩ := by
    rw [GcnLookup.eq_ofNat_iff _ _ (by have := k.isLt; omega), Fin.ext_iff]
    exact eq_comm
  exact congrArg (· * v8 (ix2 k c)) (if_congr hiff rfl rfl)

/-! ## The blocks: what point t writes back is block t of the looked-up rows -/

theorem hz0 : (![0, 0] : Fin 2 → Nat) = fun _ => 0 := funext fun a => by fin_cases a <;> rfl

/-- The three windows' block numbers, decided over the grid: the ids' and the result's blocks are numbered by the
    point along the rows, the table is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A table row named by a word below 128 is the row the clamped signed reading of that word names. -/
theorem row_clamp (tab : S128x16.Idx → EReal) (w w' : BitVec 32) (e : w' = w) (h : w'.toNat < 128) (c : Fin 16)
    (hb : min w.toInt.toNat (128 - 1) < 128) :
    tab (ix2 ⟨w'.toNat, h⟩ c) = tab (ix2 ⟨min w.toInt.toNat (128 - 1), hb⟩ c) := by
  subst e
  exact congrArg (fun q : Fin 128 => tab (ix2 q c)) (Fin.ext (GcnLookup.clamp_of_lt w' 128 (by norm_num) h).symm)

/-- WHAT POINT t WRITES BACK is block t of the table's rows at the ids. -/
theorem flushed0_eq (c : Dev nD)
    (hx : ∀ r : Fin 500000, ((V c main_arg0 : S500000x1.Idx → BitVec 32) (ix2 r 0)).toNat < 128) (t : Fin cfg0.N) :
    (dat0 (F := Ideal) V c).flushed 2 t = ((cfg0.win 2).blk t).view.read (Elt Ideal)
      (GcnSpec.rowsOf (by decide) (V c main_v6 : S128x16.Idx → EReal) (V c main_arg0 : S500000x1.Idx → BitVec 32) : S500000x16.Idx → EReal) := by
  show (cfg0.win 2).cut (grid0.coords t) ((dat0 (F := Ideal) V c).after 2 t) = _
  rw [after0_2]
  unfold out0_2
  rw [View.canon_unit_zero hz0]
  simp only [View.ld_unit_zero (S := S4000x1) hz0, View.ld_unit_zero (S := S128x16) hz0]
  obtain ⟨e0, e1, e2, e3, e4, e5⟩ := idx_facts0 t
  have ht : t.val < 125 := t.isLt
  funext j
  obtain ⟨r, q, rfl⟩ : ∃ (r : Fin 4000) (q : Fin 16), j = ix2 r q := ⟨j 0, j 1, eq_ix2 (n0 := 4000) (n1 := 16) j⟩
  -- the ids' block at row r is the array's row t * 4000 + r
  have b0 : ((cfg0.win 0).blk t).view.emb (ix2 r (0 : Fin 1)) = (ix2 (⟨t.val * 4000 + r.val, by omega⟩ : Fin 500000) (0 : Fin 1) : S500000x1.Idx) := by
    funext a; apply Fin.ext
    match a with
    | ⟨0, _⟩ => show win0_0.index t (0 : Fin 2) * 4000 + 1 * r.val = t.val * 4000 + r.val; omega
    | ⟨1, _⟩ => show win0_0.index t (1 : Fin 2) * 1 + 1 * 0 = 0; omega
  -- the table's block is the table
  have b1 : ∀ k : Fin 128, ((cfg0.win 1).blk t).view.emb (ix2 k q) = (ix2 k q : S128x16.Idx) := fun k => by
    funext a; apply Fin.ext
    match a with
    | ⟨0, _⟩ => show win0_1.index t (0 : Fin 2) * 128 + 1 * k.val = k.val; omega
    | ⟨1, _⟩ => show win0_1.index t (1 : Fin 2) * 16 + 1 * q.val = q.val; omega
  -- the result's block at (r, q) is the array's (t * 4000 + r, q)
  have b2 : ((cfg0.win 2).blk t).view.emb (ix2 r q) = (ix2 (⟨t.val * 4000 + r.val, by omega⟩ : Fin 500000) q : S500000x16.Idx) := by
    funext a; apply Fin.ext
    match a with
    | ⟨0, _⟩ => show win0_2.index t (0 : Fin 2) * 4000 + 1 * r.val = t.val * 4000 + r.val; omega
    | ⟨1, _⟩ => show win0_2.index t (1 : Fin 2) * 16 + 1 * q.val = q.val; omega
  have w0 : (iblk0 V c 0 t (ix2 r (0 : Fin 1)) : BitVec 32) = (V c main_arg0 : S500000x1.Idx → BitVec 32) (ix2 (⟨t.val * 4000 + r.val, by omega⟩ : Fin 500000) 0) := by
    show (V c main_arg0 : S500000x1.Idx → BitVec 32) (((cfg0.win 0).blk t).view.emb (ix2 r (0 : Fin 1))) = _
    rw [b0]
  have hw : (iblk0 V c 0 t (ix2 r (0 : Fin 1)) : BitVec 32).toNat < 128 := by rw [w0]; exact hx _
  refine (pay_apply (iblk0 V c 0 t) (iblk0 V c 1 t) r q hw).trans ?_
  show (V c main_v6 : S128x16.Idx → EReal) (((cfg0.win 1).blk t).view.emb (ix2 ⟨(iblk0 V c 0 t (ix2 r (0 : Fin 1)) : BitVec 32).toNat, hw⟩ q))
    = GcnSpec.rowsOf (by decide) (V c main_v6 : S128x16.Idx → EReal) (V c main_arg0 : S500000x1.Idx → BitVec 32) (((cfg0.win 2).blk t).view.emb (ix2 r q))
  rw [b1, b2, GcnSpec.rowsOf_apply]
  exact row_clamp _ _ _ w0 hw q _

/-! ## The blocks tile the array -/

/-- An index of the array is in point t's block iff each coordinate is in the block's range on its axis. -/
theorem mem_blk0 (t : Fin cfg0.N) (i : S500000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v7).slice (win0_2.rect t)).set ↔ _
  rw [View.set_slice_whole, Rect.mem_set_unit]
  exact Iff.rfl

/-- Row r of the array lies in the block of point r / 4000, and every point writes its block back. -/
theorem covered0 (i : S500000x16.Idx) :
    ∃ t : Fin cfg0.N, (cfg0.win 2).flush t = true ∧ i ∈ ((cfg0.win 2).blk t).view.set := by
  have hi0 : (i 0).val < 500000 := (i 0).isLt
  have hi1 : (i 1).val < 16 := (i 1).isLt
  have hN : cfg0.N = 125 := N_0
  let t : Fin cfg0.N := ⟨(i 0).val / 4000, by rw [hN]; omega⟩
  obtain ⟨e0, e1, e2, e3, e4, e5⟩ := idx_facts0 t
  have htv : t.val = (i 0).val / 4000 := rfl
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

end Reg0

/-! ## The array after the run -/

/-- With every node id below 128, the array the first kernel leaves is the table's rows at the ids. -/
theorem arr0 (c : Dev nD)
    (hx : ∀ r : Fin 500000, ((V c main_arg0 : S500000x1.Idx → BitVec 32) (ix2 r 0)).toNat < 128) :
    ((dat0 (F := Ideal) V c).arrAt 2 cfg0.N : S500000x16.Idx → EReal)
      = GcnSpec.rowsOf (by decide) (V c main_v6 : S128x16.Idx → EReal) (V c main_arg0 : S500000x1.Idx → BitVec 32) := by
  exact (dat0 (F := Ideal) V c).arrAt_eq_of_cover 2 _ (fun t _ => Reg0.flushed0_eq V c hx t) Reg0.covered0

end Cert.KernelIdeal.Regions

end
-- ==== Proof.Reg1.lean ====
/-
  The second kernel's result array: the edge-weight lookup.

  Each grid point loads a block of 8000 edge attributes and the whole 16-row, one-column table, builds the 8000 x 16
  matrix whose entry (r, k) is 1 where attribute r equals k and 0 elsewhere, and multiplies it into the table. Where
  every attribute is below 16, row r of the product is the table's row at attribute r, so the 625 blocks written back
  tile the array with rowsOf of the table at the attributes.
-/
import proofs.«422157_j56495999811736_3_alg».proof.Proof.Gen.KernelIdeal.Frame
import proofs.«422157_j56495999811736_3_alg».proof.Proof.Spec
import proofs.«422157_j56495999811736_3_alg».proof.Proof.OneHot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

/-! ## The body's product at a row

The body compares each of the block's 8000 attributes with the column numbers 0 … 15, which gives an 8000 x 16 matrix of
zeros and ones, and multiplies that matrix into the 16 x 1 table. -/

/-- The matrix of indicators at (r, k): the block's attribute r, cast to a vector and back, broadcast along the
    columns, compared with the column number, widened and converted, is 1 where the attribute is k and 0 elsewhere. -/
theorem onehot1_apply (v0 : Vec Ideal S8000x1 .i32) (r : Fin 8000) (k : Fin 16) :
    (sitofp (F := Ideal) .f32 (extui 32 (cmpi .eq
        (broadcastTo S8000x16 (shapeCast S8000x1 (shapeCast S8000 (shapeCast S8000x1 v0 shapeCasts_S8000x1_S8000x1) shapeCasts_S8000x1_S8000) shapeCasts_S8000_S8000x1) broadcasts_S8000x1_S8000x16)
        (iota .tc S8000x16 32 [1] iota_S8000x16_d1_w32)) natLt_1_32) : FVec Ideal S8000x16 .f32) (ix2 r k)
      = if v0 (ix2 r 0) = BitVec.ofNat 32 k.val then (1 : EReal) else 0 := by
  rw [shapeCast_self, shapeCast_shapeCast]
  rw [sitofp_apply, extui_apply]
  show (((((BitVec.ofBool _).setWidth 32).toInt : ℝ)) : EReal) = _
  rw [GcnLookup.ofBool_setWidth_toInt]
  rw [iota_single_apply .tc S8000x16 32 1 iota_S8000x16_d1_w32 (ix2 r k)]
  rw [broadcastTo_apply v0 broadcasts_S8000x1_S8000x16 (ix2 r k) (ix2 r 0) (fun a => match a with | ⟨0, _⟩ => rfl | ⟨1, _⟩ => rfl)]
  show ((((if (v0 (ix2 r 0) == BitVec.ofNat 32 k.val) = true then (1:ℤ) else 0) : ℤ) : ℝ) : EReal) = _
  by_cases h : v0 (ix2 r 0) = BitVec.ofNat 32 k.val
  · rw [if_pos h, if_pos (by simpa using h)]; simp
  · rw [if_neg h, if_neg (by simpa using h)]; simp

/-- The product's left operand index at output (r, ·) and contraction index q: row r … -/
theorem lhs_edge_0 (i : S8000x1.Idx) (q : dot_S8000x16_S16x1_S8000x1_1_0_0_1_n_n.contr.Idx) :
    (dot_S8000x16_S16x1_S8000x1_1_0_0_1_n_n.lhsIdx i q 0).val = (i 0).val := by
  unfold DotDims.lhsIdx
  rw [dif_neg (show ¬(0 : Fin S8000x16.rank) ∈ dot_S8000x16_S16x1_S8000x1_1_0_0_1_n_n.lhsBatch by decide), dif_pos (show (0 : Fin S8000x16.rank) ∈ dot_S8000x16_S16x1_S8000x1_1_0_0_1_n_n.lhsNonContracting by decide)]
  rfl
/-- … column q; -/
theorem lhs_edge_1 (i : S8000x1.Idx) (q : dot_S8000x16_S16x1_S8000x1_1_0_0_1_n_n.contr.Idx) :
    (dot_S8000x16_S16x1_S8000x1_1_0_0_1_n_n.lhsIdx i q 1).val = (q ⟨0, by decide⟩).val :=
  dot_S8000x16_S16x1_S8000x1_1_0_0_1_n_n.lhsIdx_val_of_single rfl i q
/-- the right operand index: row q … -/
theorem rhs_edge_0 (i : S8000x1.Idx) (q : dot_S8000x16_S16x1_S8000x1_1_0_0_1_n_n.contr.Idx) :
    (dot_S8000x16_S16x1_S8000x1_1_0_0_1_n_n.rhsIdx i q 0).val = (q ⟨0, by decide⟩).val :=
  dot_S8000x16_S16x1_S8000x1_1_0_0_1_n_n.rhsIdx_val_of_single rfl i q
/-- … and the output's column. -/
theorem rhs_edge_1 (i : S8000x1.Idx) (q : dot_S8000x16_S16x1_S8000x1_1_0_0_1_n_n.contr.Idx) :
    (dot_S8000x16_S16x1_S8000x1_1_0_0_1_n_n.rhsIdx i q 1).val = (i 1).val := by
  unfold DotDims.rhsIdx
  rw [dif_neg (show ¬(1 : Fin S16x1.rank) ∈ dot_S8000x16_S16x1_S8000x1_1_0_0_1_n_n.rhsBatch by decide), dif_pos (show (1 : Fin S16x1.rank) ∈ dot_S8000x16_S16x1_S8000x1_1_0_0_1_n_n.rhsNonContracting by decide)]
  rfl

/-- A product of an 8000 x 16 matrix and a 16 x 1 matrix into the zero accumulator, at row r: the sum over the 16
    columns. -/
theorem matmul_edge_apply (A : FVec Ideal S8000x16 .f32) (B : FVec Ideal S16x1 .f32) (r : Fin 8000) :
    matmul dot_S8000x16_S16x1_S8000x1_1_0_0_1_n_n (some .fp32) A B (constant S8000x1 .f32 0x00000000#32) (ix2 r 0)
      = ∑ k : Fin 16, A (ix2 r k) * B (ix2 k 0) := by
  simp only [matmul]
  rw [Ideal.matmul_constant_zero_apply, ← Equiv.sum_comp (ValueIdx.contrEquiv1 dot_S8000x16_S16x1_S8000x1_1_0_0_1_n_n 16 rfl rfl).symm]
  refine Finset.sum_congr rfl fun k _ => ?_
  have hk := ValueIdx.contrEquiv1_symm_val dot_S8000x16_S16x1_S8000x1_1_0_0_1_n_n 16 rfl rfl k
  have el : dot_S8000x16_S16x1_S8000x1_1_0_0_1_n_n.lhsIdx (ix2 r 0) ((ValueIdx.contrEquiv1 dot_S8000x16_S16x1_S8000x1_1_0_0_1_n_n 16 rfl rfl).symm k) = ix2 r k := funext fun a => Fin.ext (by
    match a with
    | ⟨0, _⟩ => exact lhs_edge_0 _ _
    | ⟨1, _⟩ => exact (lhs_edge_1 _ _).trans hk)
  have er : dot_S8000x16_S16x1_S8000x1_1_0_0_1_n_n.rhsIdx (ix2 r 0) ((ValueIdx.contrEquiv1 dot_S8000x16_S16x1_S8000x1_1_0_0_1_n_n 16 rfl rfl).symm k) = ix2 k 0 := funext fun a => Fin.ext (by
    match a with
    | ⟨0, _⟩ => exact (rhs_edge_0 _ _).trans hk
    | ⟨1, _⟩ => exact rhs_edge_1 _ _)
  rw [el, er]

/-- The body's result at row r, where the block's attribute r is below 16: the table's row at that attribute. -/
theorem pay1_apply (v0 : Vec Ideal S8000x1 .i32) (v9 : Vec Ideal S16x1 .f32) (r : Fin 8000)
    (h : (v0 (ix2 r 0)).toNat < 16) :
    k1_pay1 (F := Ideal) v0 v9 (ix2 r 0) = v9 (ix2 ⟨(v0 (ix2 r 0)).toNat, h⟩ 0) := by
  unfold k1_pay1
  refine (matmul_edge_apply _ v9 r).trans ?_
  have e : ∀ k : Fin 16, (if v0 (ix2 r 0) = BitVec.ofNat 32 k.val then (1 : EReal) else 0)
      = if k = (⟨(v0 (ix2 r 0)).toNat, h⟩ : Fin 16) then (1 : EReal) else 0 := fun k =>
    if_congr ((GcnLookup.eq_ofNat_iff _ k.val (by have := k.isLt; omega)).trans
      ⟨fun hh => Fin.ext hh.symm, fun hh => (congrArg Fin.val hh).symm⟩) rfl rfl
  refine (Finset.sum_congr rfl fun k _ => ?_).trans (GcnLookup.sum_onehot_mul (⟨(v0 (ix2 r 0)).toNat, h⟩ : Fin 16) (fun k => v9 (ix2 k 0)))
  exact congrArg (· * v9 (ix2 k 0)) ((onehot1_apply v0 r k).trans (e k))

variable (V : (c : Dev nD) → (b : Ref sig .tc) → Buf (Elt Ideal) ((c : Thread nD τ).loc b))

/-! ## What a point writes back -/

theorem hz1 : (![0, 0] : Fin 2 → Nat) = fun _ => 0 := funext fun a => by fin_cases a <;> rfl

/-- An index of a one-column block of 8000 rows is (r, 0). -/
theorem idx_blk1 (j : (⟨2, ![8000, 1]⟩ : Shape).Idx) : ∃ r : Fin 8000, j = ix2 r 0 :=
  ⟨j 0, (eq_ix2 j).trans (congrArg (ix2 (j 0)) (Fin.ext (by have := idx2_lt1 j; show (j 1).val = 0; omega)))⟩

/-- The printed index maps over the grid: the attribute block and the result block of point t are block t of their
    arrays, the table's block is the table. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem rows_lt1 (t : Fin cfg1.N) (r : Fin 8000) : t.val * 8000 + r.val < 5000000 := by
  have h1 : t.val < 625 := lt_of_lt_of_eq (show t.val < grid1.N from t.isLt) N_1
  have h2 := r.isLt
  omega

/-- Row r of point t's attribute block is row 8000 t + r of the attribute array. -/
theorem emb1_0 (t : Fin cfg1.N) (r : Fin 8000) :
    (((cfg1.win 0).blk t).view.emb (ix2 r 0) : S5000000x1.Idx) = ix2 ⟨t.val * 8000 + r.val, rows_lt1 t r⟩ 0 := by
  obtain ⟨e0, e1, -, -, -, -⟩ := idx_facts1 t
  funext a; apply Fin.ext
  match a with
  | ⟨0, _⟩ => show win1_0.index t (0 : Fin 2) * 8000 + 1 * r.val = t.val * 8000 + r.val; omega
  | ⟨1, _⟩ => show win1_0.index t (1 : Fin 2) * 1 + 1 * 0 = 0; omega

/-- Row r of point t's result block is row 8000 t + r of the result array. -/
theorem emb1_2 (t : Fin cfg1.N) (r : Fin 8000) :
    (((cfg1.win 2).blk t).view.emb (ix2 r 0) : S5000000x1.Idx) = ix2 ⟨t.val * 8000 + r.val, rows_lt1 t r⟩ 0 := by
  obtain ⟨-, -, -, -, e0, e1⟩ := idx_facts1 t
  funext a; apply Fin.ext
  match a with
  | ⟨0, _⟩ => show win1_2.index t (0 : Fin 2) * 8000 + 1 * r.val = t.val * 8000 + r.val; omega
  | ⟨1, _⟩ => show win1_2.index t (1 : Fin 2) * 1 + 1 * 0 = 0; omega

/-- The table's block at any point is the table. -/
theorem emb1_1 (t : Fin cfg1.N) (k : Fin 16) :
    (((cfg1.win 1).blk t).view.emb (ix2 k 0) : S16x1.Idx) = ix2 k 0 := by
  obtain ⟨-, -, e0, e1, -, -⟩ := idx_facts1 t
  funext a; apply Fin.ext
  match a with
  | ⟨0, _⟩ => show win1_1.index t (0 : Fin 2) * 16 + 1 * k.val = k.val; omega
  | ⟨1, _⟩ => show win1_1.index t (1 : Fin 2) * 1 + 1 * 0 = 0; omega

/-- The attribute at row r of point t's block is the array's at row 8000 t + r. -/
theorem iblk1_0_apply (c : Dev nD) (t : Fin cfg1.N) (r : Fin 8000) :
    (iblk1 (F := Ideal) V c 0 t : S8000x1.Idx → BitVec 32) (ix2 r 0)
      = (V c main_v0 : S5000000x1.Idx → BitVec 32) (ix2 ⟨t.val * 8000 + r.val, rows_lt1 t r⟩ 0) := by
  unfold iblk1
  exact congrArg (V c main_v0 : S5000000x1.Idx → BitVec 32) (emb1_0 t r)

/-- The table's block at a point is the table. -/
theorem iblk1_1_apply (c : Dev nD) (t : Fin cfg1.N) (k : Fin 16) :
    (iblk1 (F := Ideal) V c 1 t : S16x1.Idx → EReal) (ix2 k 0) = (V c main_arg4 : S16x1.Idx → EReal) (ix2 k 0) := by
  unfold iblk1
  exact congrArg (V c main_arg4 : S16x1.Idx → EReal) (emb1_1 t k)

/-- What point t writes back is block t of the table's rows at the attributes. -/
theorem flushed1_eq (c : Dev nD)
    (he : ∀ e : Fin 5000000, ((V c main_v0 : S5000000x1.Idx → BitVec 32) (ix2 e 0)).toNat < 16) (t : Fin cfg1.N) :
    (dat1 (F := Ideal) V c).flushed 2 t = ((cfg1.win 2).blk t).view.read (Elt Ideal)
      (GcnSpec.rowsOf (by decide) (V c main_arg4 : S16x1.Idx → EReal) (V c main_v0 : S5000000x1.Idx → BitVec 32)) := by
  show (cfg1.win 2).cut (grid1.coords t) ((dat1 V c).after 2 t) = _
  rw [after1_2]
  unfold out1_2
  rw [View.canon_unit_zero hz1]
  simp only [View.ld_unit_zero (S := S8000x1) hz1, View.ld_unit_zero (S := S16x1) hz1]
  funext j
  obtain ⟨r, rfl⟩ := idx_blk1 j
  have hlt : ((iblk1 (F := Ideal) V c 0 t : S8000x1.Idx → BitVec 32) (ix2 r 0)).toNat < 16 := by
    rw [iblk1_0_apply]; exact he _
  show k1_pay1 (F := Ideal) (iblk1 V c 0 t) (iblk1 V c 1 t) (ix2 r 0) = GcnSpec.rowsOf (by decide) (V c main_arg4 : S16x1.Idx → EReal) (V c main_v0 : S5000000x1.Idx → BitVec 32) (((cfg1.win 2).blk t).view.emb (ix2 r 0))
  rw [emb1_2 t r, GcnSpec.rowsOf_apply]
  refine (pay1_apply _ _ r hlt).trans ?_
  rw [iblk1_1_apply]
  refine congrArg (V c main_arg4 : S16x1.Idx → EReal) (congrArg (fun k : Fin 16 => ix2 k (0 : Fin 1)) (Fin.ext ?_))
  show ((iblk1 (F := Ideal) V c 0 t : S8000x1.Idx → BitVec 32) (ix2 r 0)).toNat = min _ (16 - 1)
  rw [GcnLookup.clamp_of_lt _ 16 (by norm_num) (he _), iblk1_0_apply]

/-! ## The blocks tile the array -/

/-- An index of the array is in point t's block iff each coordinate is in the block's range on its axis. -/
theorem mem_blk1 (t : Fin cfg1.N) (i : S5000000x1.Idx) :
    i ∈ ((cfg1.win 2).blk t).view.set ↔ ∀ a : Fin 2, win1_2.index t a * S8000x1.size a ≤ (i a).val ∧ (i a).val < win1_2.index t a * S8000x1.size a + S8000x1.size a := by
  show i ∈ ((View.whole main_v8).slice (win1_2.rect t)).set ↔ _
  rw [View.set_slice_whole, Rect.mem_set_unit]
  exact Iff.rfl

/-- Row e of the array is in the block of point e / 8000. -/
theorem cover1 (i : S5000000x1.Idx) : ∃ t : Fin cfg1.N, (cfg1.win 2).flush t = true ∧ i ∈ ((cfg1.win 2).blk t).view.set := by
  have hi0 : (i 0).val < 5000000 := idx2_lt0 i
  have hi1 : (i 1).val < 1 := idx2_lt1 i
  obtain ⟨t, ht⟩ : ∃ t : Fin cfg1.N, t.val = (i 0).val / 8000 :=
    ⟨⟨(i 0).val / 8000, by show (i 0).val / 8000 < grid1.N; rw [N_1]; omega⟩, rfl⟩
  obtain ⟨-, -, -, -, e0, e1⟩ := idx_facts1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 1 ≤ (i 1).val ∧ (i 1).val < win1_2.index t (1 : Fin 2) * 1 + 1; omega

/-- With every edge attribute below 16, the array the second kernel leaves is the table's rows at the attributes. -/
theorem arr1 (c : Dev nD)
    (he : ∀ e : Fin 5000000, ((V c main_v0 : S5000000x1.Idx → BitVec 32) (ix2 e 0)).toNat < 16) :
    ((dat1 (F := Ideal) V c).arrAt 2 cfg1.N : S5000000x1.Idx → EReal)
      = GcnSpec.rowsOf (by decide) (V c main_arg4 : S16x1.Idx → EReal) (V c main_v0 : S5000000x1.Idx → BitVec 32) :=
  (dat1 (F := Ideal) V c).arrAt_eq_of_cover 2 _ (fun t _ => flushed1_eq V c he t) cover1

end Cert.KernelIdeal.Regions

end
-- ==== Proof.Reg2.lean ====
/-
  The third kernel's result array: the first layer's epilogue and the second layer's projection.

  Each grid point loads 4000 rows of the aggregated messages, of the projected features and of the squared inverse
  root degrees, the bias row and the weight column; it adds messages, self loop and bias, rectifies, and multiplies the
  4000 x 16 result into the 16 x 1 weight column. Changes of float format are the identity on the extended reals, and
  the product into a zero accumulator is the plain sum over the 16 channels, so row r of the block is combine1 at
  that node, and the 125 blocks written back tile the array.
-/
import proofs.«422157_j56495999811736_3_alg».proof.Proof.Gen.KernelIdeal.Frame
import proofs.«422157_j56495999811736_3_alg».proof.Proof.Spec
import proofs.«422157_j56495999811736_3_alg».proof.Proof.OneHot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! The steps towards the array live in their own namespace, so that their short names meet no other region's. -/
namespace Arr2

/-! ## The product's operand indices: at output (r, 0) and channel l they are (r, l) and (l, 0) -/

theorem lhs_prod_0 (i : S4000x1.Idx) (q : dot_S4000x16_S16x1_S4000x1_1_0_0_1_n_n.contr.Idx) :
    (dot_S4000x16_S16x1_S4000x1_1_0_0_1_n_n.lhsIdx i q 0).val = (i 0).val := by
  unfold DotDims.lhsIdx
  rw [dif_neg (show ¬(0 : Fin S4000x16.rank) ∈ dot_S4000x16_S16x1_S4000x1_1_0_0_1_n_n.lhsBatch by decide), dif_pos (show (0 : Fin S4000x16.rank) ∈ dot_S4000x16_S16x1_S4000x1_1_0_0_1_n_n.lhsNonContracting by decide)]
  rfl
theorem lhs_prod_1 (i : S4000x1.Idx) (q : dot_S4000x16_S16x1_S4000x1_1_0_0_1_n_n.contr.Idx) :
    (dot_S4000x16_S16x1_S4000x1_1_0_0_1_n_n.lhsIdx i q 1).val = (q ⟨0, by decide⟩).val :=
  dot_S4000x16_S16x1_S4000x1_1_0_0_1_n_n.lhsIdx_val_of_single rfl i q
theorem rhs_prod_0 (i : S4000x1.Idx) (q : dot_S4000x16_S16x1_S4000x1_1_0_0_1_n_n.contr.Idx) :
    (dot_S4000x16_S16x1_S4000x1_1_0_0_1_n_n.rhsIdx i q 0).val = (q ⟨0, by decide⟩).val :=
  dot_S4000x16_S16x1_S4000x1_1_0_0_1_n_n.rhsIdx_val_of_single rfl i q
theorem rhs_prod_1 (i : S4000x1.Idx) (q : dot_S4000x16_S16x1_S4000x1_1_0_0_1_n_n.contr.Idx) :
    (dot_S4000x16_S16x1_S4000x1_1_0_0_1_n_n.rhsIdx i q 1).val = (i 1).val := by
  unfold DotDims.rhsIdx
  rw [dif_neg (show ¬(1 : Fin S16x1.rank) ∈ dot_S4000x16_S16x1_S4000x1_1_0_0_1_n_n.rhsBatch by decide), dif_pos (show (1 : Fin S16x1.rank) ∈ dot_S4000x16_S16x1_S4000x1_1_0_0_1_n_n.rhsNonContracting by decide)]
  rfl

/-! ## The body's arithmetic at a row -/

/-- A column laid along the 16 channels reads, at (r, l), the column's entry of row r. -/
theorem bcast_col_apply {α : Type} (x : S4000x1.Idx → α) (r : Fin 4000) (l : Fin 16) :
    broadcastTo S4000x16 x broadcasts_S4000x1_S4000x16 (ix2 r l) = x (ix2 r 0) :=
  broadcastTo_apply x broadcasts_S4000x1_S4000x16 (ix2 r l) (ix2 r 0) (fun a => match a with
    | ⟨0, _⟩ => rfl
    | ⟨1, _⟩ => rfl)

/-- A row laid along the 4000 rows reads, at (r, l), the row's entry of channel l. -/
theorem bcast_row_apply {α : Type} (x : S1x16.Idx → α) (r : Fin 4000) (l : Fin 16) :
    broadcastTo S4000x16 x broadcasts_S1x16_S4000x16 (ix2 r l) = x (ix2 0 l) :=
  broadcastTo_apply x broadcasts_S1x16_S4000x16 (ix2 r l) (ix2 0 l) (fun a => match a with
    | ⟨0, _⟩ => rfl
    | ⟨1, _⟩ => rfl)

/-- Row r of the body's result: the sum over the channels of the rectified combination times the weight column.
    Casts to the same shape and the roundings to the shorter float format are the identity on the extended reals,
    and the product into the zero accumulator is the plain sum over the one contracted axis. -/
theorem pay_apply (v0 : Vec Ideal S4000x16 .f32) (v2 : Vec Ideal S4000x1 .f32) (v4 : Vec Ideal S4000x16 .f32)
    (v9 : Vec Ideal S1x16 .f32) (v16 : Vec Ideal S16x1 .f32) (r : Fin 4000) :
    k2_pay1 (F := Ideal) v0 v2 v4 v9 v16 (ix2 r 0)
      = ∑ l : Fin 16, max (v0 (ix2 r l) + v2 (ix2 r 0) * v4 (ix2 r l) + v9 (ix2 0 l)) (Ideal.ofBits .f32 0x00000000#32)
          * v16 (ix2 l 0) := by
  unfold k2_pay1
  refine (Ideal.matmul_constant_zero_apply dot_S4000x16_S16x1_S4000x1_1_0_0_1_n_n none _ _ (ix2 r 0)).trans ?_
  rw [← Equiv.sum_comp (ValueIdx.contrEquiv1 dot_S4000x16_S16x1_S4000x1_1_0_0_1_n_n 16 rfl rfl).symm]
  refine Finset.sum_congr rfl fun k _ => ?_
  have hk := ValueIdx.contrEquiv1_symm_val dot_S4000x16_S16x1_S4000x1_1_0_0_1_n_n 16 rfl rfl k
  have el : dot_S4000x16_S16x1_S4000x1_1_0_0_1_n_n.lhsIdx (ix2 r 0) ((ValueIdx.contrEquiv1 dot_S4000x16_S16x1_S4000x1_1_0_0_1_n_n 16 rfl rfl).symm k) = ix2 r k := funext fun a => Fin.ext (by
    match a with
    | ⟨0, _⟩ => exact lhs_prod_0 _ _
    | ⟨1, _⟩ => exact (lhs_prod_1 _ _).trans hk)
  have er : dot_S4000x16_S16x1_S4000x1_1_0_0_1_n_n.rhsIdx (ix2 r 0) ((ValueIdx.contrEquiv1 dot_S4000x16_S16x1_S4000x1_1_0_0_1_n_n 16 rfl rfl).symm k) = ix2 k 0 := funext fun a => Fin.ext (by
    match a with
    | ⟨0, _⟩ => exact (rhs_prod_0 _ _).trans hk
    | ⟨1, _⟩ => exact rhs_prod_1 _ _)
  rw [el, er]
  simp only [shapeCast_self]
  show max (v0 (ix2 r k) + broadcastTo S4000x16 v2 broadcasts_S4000x1_S4000x16 (ix2 r k) * v4 (ix2 r k)
      + broadcastTo S4000x16 v9 broadcasts_S1x16_S4000x16 (ix2 r k)) (Ideal.ofBits .f32 0x00000000#32) * v16 (ix2 k 0) = _
  rw [bcast_col_apply, bcast_row_apply]

/-! ## From the blocks to the array -/

theorem hz : (![0, 0] : Fin 2 → Nat) = fun _ => 0 := funext fun a => by fin_cases a <;> rfl

/-- The index maps over the grid: the three row-blocked inputs and the output are at block (t, 0), the bias row
    and the weight column at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The five input blocks at a point, each at its literal type. -/
abbrev blkA (c : Dev nD) (t : Fin cfg2.N) : Vec Ideal S4000x16 .f32 := iblk2 V c 0 t
abbrev blkX (c : Dev nD) (t : Fin cfg2.N) : Vec Ideal S4000x16 .f32 := iblk2 V c 1 t
abbrev blkD (c : Dev nD) (t : Fin cfg2.N) : Vec Ideal S4000x1 .f32 := iblk2 V c 2 t
abbrev blkB (c : Dev nD) (t : Fin cfg2.N) : Vec Ideal S1x16 .f32 := iblk2 V c 3 t
abbrev blkW (c : Dev nD) (t : Fin cfg2.N) : Vec Ideal S16x1 .f32 := iblk2 V c 4 t

/-- The five arrays the kernel reads, each at its literal type. -/
abbrev arrA (c : Dev nD) : S500000x16.Idx → EReal := V c main_v49
abbrev arrX (c : Dev nD) : S500000x16.Idx → EReal := V c main_v7
abbrev arrD (c : Dev nD) : S500000x1.Idx → EReal := V c main_v20
abbrev arrB (c : Dev nD) : S1x16.Idx → EReal := V c main_v50
abbrev arrW (c : Dev nD) : S16x1.Idx → EReal := V c main_v51

/-- Row r of point t's block of the aggregated messages is row 4000 t + r of the array. -/
theorem blkA_apply (c : Dev nD) (t : Fin cfg2.N) (r : Fin 4000) (l : Fin 16) (k : Fin 500000) (hk : k.val = t.val * 4000 + r.val) :
    blkA V c t (ix2 r l) = arrA V c (ix2 k l) := by
  obtain ⟨e0, e1, -⟩ := idx_facts t
  unfold blkA iblk2
  rw [View.read_apply]
  show V c main_v49 _ = V c main_v49 _
  congr 1
  funext a; apply Fin.ext
  match a with
  | ⟨0, _⟩ => show win2_0.index t (0 : Fin 2) * 4000 + 1 * r.val = k.val; rw [e0, hk]; omega
  | ⟨1, _⟩ => show win2_0.index t (1 : Fin 2) * 16 + 1 * l.val = l.val; rw [e1]; omega

/-- The same for the projected features. -/
theorem blkX_apply (c : Dev nD) (t : Fin cfg2.N) (r : Fin 4000) (l : Fin 16) (k : Fin 500000) (hk : k.val = t.val * 4000 + r.val) :
    blkX V c t (ix2 r l) = arrX V c (ix2 k l) := by
  obtain ⟨-, -, e0, e1, -⟩ := idx_facts t
  unfold blkX iblk2
  rw [View.read_apply]
  show V c main_v7 _ = V c main_v7 _
  congr 1
  funext a; apply Fin.ext
  match a with
  | ⟨0, _⟩ => show win2_1.index t (0 : Fin 2) * 4000 + 1 * r.val = k.val; rw [e0, hk]; omega
  | ⟨1, _⟩ => show win2_1.index t (1 : Fin 2) * 16 + 1 * l.val = l.val; rw [e1]; omega

/-- The same for the one-column array. -/
theorem blkD_apply (c : Dev nD) (t : Fin cfg2.N) (r : Fin 4000) (z : Fin 1) (k : Fin 500000) (hk : k.val = t.val * 4000 + r.val) :
    blkD V c t (ix2 r z) = arrD V c (ix2 k z) := by
  obtain ⟨-, -, -, -, e0, e1, -⟩ := idx_facts t
  unfold blkD iblk2
  rw [View.read_apply]
  show V c main_v20 _ = V c main_v20 _
  congr 1
  funext a; apply Fin.ext
  match a with
  | ⟨0, _⟩ => show win2_2.index t (0 : Fin 2) * 4000 + 1 * r.val = k.val; rw [e0, hk]; omega
  | ⟨1, _⟩ => show win2_2.index t (1 : Fin 2) * 1 + 1 * z.val = z.val; rw [e1]; omega

/-- The bias row's block is the whole row at every point. -/
theorem blkB_apply (c : Dev nD) (t : Fin cfg2.N) (z : Fin 1) (l : Fin 16) :
    blkB V c t (ix2 z l) = arrB V c (ix2 z l) := by
  obtain ⟨-, -, -, -, -, -, e0, e1, -⟩ := idx_facts t
  unfold blkB iblk2
  rw [View.read_apply]
  show V c main_v50 _ = V c main_v50 _
  congr 1
  funext a; apply Fin.ext
  match a with
  | ⟨0, _⟩ => show win2_3.index t (0 : Fin 2) * 1 + 1 * z.val = z.val; rw [e0]; omega
  | ⟨1, _⟩ => show win2_3.index t (1 : Fin 2) * 16 + 1 * l.val = l.val; rw [e1]; omega

/-- The weight column's block is the whole column at every point. -/
theorem blkW_apply (c : Dev nD) (t : Fin cfg2.N) (l : Fin 16) (z : Fin 1) :
    blkW V c t (ix2 l z) = arrW V c (ix2 l z) := by
  obtain ⟨-, -, -, -, -, -, -, -, e0, e1, -⟩ := idx_facts t
  unfold blkW iblk2
  rw [View.read_apply]
  show V c main_v51 _ = V c main_v51 _
  congr 1
  funext a; apply Fin.ext
  match a with
  | ⟨0, _⟩ => show win2_4.index t (0 : Fin 2) * 16 + 1 * l.val = l.val; rw [e0]; omega
  | ⟨1, _⟩ => show win2_4.index t (1 : Fin 2) * 1 + 1 * z.val = z.val; rw [e1]; omega

/-- Row r of what point t computes is combine1 at node 4000 t + r. -/
theorem point_eq (c : Dev nD) (t : Fin cfg2.N) (r : Fin 4000) (k : Fin 500000) (hk : k.val = t.val * 4000 + r.val) :
    k2_pay1 (F := Ideal) (blkA V c t) (blkD V c t) (blkX V c t) (blkB V c t) (blkW V c t) (ix2 r 0)
      = GcnSpec.combine1 (arrA V c) (arrX V c) (arrD V c) (arrB V c) (arrW V c) (ix2 k 0) := by
  refine (pay_apply (blkA V c t) (blkD V c t) (blkX V c t) (blkB V c t) (blkW V c t) r).trans ?_
  unfold GcnSpec.combine1
  refine Finset.sum_congr rfl fun l _ => ?_
  show _ = max (arrA V c (ix2 k l) + arrD V c (ix2 k 0) * arrX V c (ix2 k l) + arrB V c (ix2 0 l))
      (Ideal.ofBits .f32 0x00000000#32) * arrW V c (ix2 l 0)
  rw [blkA_apply V c t r l k hk, blkX_apply V c t r l k hk, blkD_apply V c t r 0 k hk, blkB_apply V c t 0 l,
    blkW_apply V c t l 0]

/-- What point t writes back is block t of combine1 of the five arrays. -/
theorem flushed_eq (c : Dev nD) (t : Fin cfg2.N) :
    (dat2 (F := Ideal) V c).flushed 5 t = ((cfg2.win 5).blk t).view.read (Elt Ideal)
      (GcnSpec.combine1 (arrA V c) (arrX V c) (arrD V c) (arrB V c) (arrW V c)) := by
  show (cfg2.win 5).cut (grid2.coords t) ((dat2 V c).after 5 t) = _
  rw [after2_5]
  unfold out2_5
  rw [View.canon_unit_zero hz]
  simp only [View.ld_unit_zero (S := S4000x16) hz, View.ld_unit_zero (S := S4000x1) hz, View.ld_unit_zero (S := S1x16) hz, View.ld_unit_zero (S := S16x1) hz]
  funext j
  have hj0 : (j 0).val < 4000 := (j 0).isLt
  have hj1 : (j 1).val < 1 := (j 1).isLt
  obtain ⟨-, -, -, -, -, -, -, -, -, -, e0, e1⟩ := idx_facts t
  have hN : t.val < 125 := lt_of_lt_of_eq t.isLt N_2
  have hj : (j : S4000x1.Idx) = ix2 (⟨(j 0).val, hj0⟩ : Fin 4000) (0 : Fin 1) := by
    funext a
    match a with
    | ⟨0, _⟩ => rfl
    | ⟨1, _⟩ => exact Fin.ext (by show (j 1).val = 0; omega)
  have hemb : ((cfg2.win 5).blk t).view.emb j = ix2 (⟨t.val * 4000 + (j 0).val, by omega⟩ : Fin 500000) (0 : Fin 1) := by
    funext a; apply Fin.ext
    match a with
    | ⟨0, _⟩ => show win2_5.index t (0 : Fin 2) * 4000 + 1 * (j 0).val = t.val * 4000 + (j 0).val; rw [e0]; omega
    | ⟨1, _⟩ => show win2_5.index t (1 : Fin 2) * 1 + 1 * (j 1).val = 0; rw [e1]; omega
  show k2_pay1 (F := Ideal) (blkA V c t) (blkD V c t) (blkX V c t) (blkB V c t) (blkW V c t) j
      = GcnSpec.combine1 (arrA V c) (arrX V c) (arrD V c) (arrB V c) (arrW V c) (((cfg2.win 5).blk t).view.emb j)
  rw [hemb]
  refine Eq.trans (congrArg (k2_pay1 (F := Ideal) (blkA V c t) (blkD V c t) (blkX V c t) (blkB V c t) (blkW V c t)) hj) ?_
  exact point_eq V c t ⟨(j 0).val, hj0⟩ ⟨t.val * 4000 + (j 0).val, by omega⟩ rfl

/-- An index of the array is in point t's block iff each coordinate is in the block's range on its axis. -/
theorem mem_blk (t : Fin cfg2.N) (i : S500000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v52).slice (win2_5.rect t)).set ↔ _
  rw [View.set_slice_whole, Rect.mem_set_unit]
  exact Iff.rfl

/-- Node i is in the block of point i / 4000, which writes back: the 125 blocks of 4000 rows tile the array. -/
theorem covered (i : S500000x1.Idx) :
    ∃ t : Fin cfg2.N, (cfg2.win 5).flush t = true ∧ i ∈ ((cfg2.win 5).blk t).view.set := by
  have hi0 : (i 0).val < 500000 := (i 0).isLt
  have hi1 : (i 1).val < 1 := (i 1).isLt
  have hN : cfg2.N = 125 := N_2
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 4000 ≤ (i 0).val ∧ (i 0).val < win2_5.index t (0 : Fin 2) * 4000 + 4000
    rw [e0, ht]; omega
  | ⟨1, _⟩ =>
    show win2_5.index t (1 : Fin 2) * 1 ≤ (i 1).val ∧ (i 1).val < win2_5.index t (1 : Fin 2) * 1 + 1
    rw [e1]; omega

end Arr2

/-- The array the third kernel leaves is combine1 of the five arrays it reads. -/
theorem arr2 (c : Dev nD) :
    ((dat2 (F := Ideal) V c).arrAt 5 cfg2.N : S500000x1.Idx → EReal)
      = GcnSpec.combine1 (V c main_v49 : S500000x16.Idx → EReal) (V c main_v7 : S500000x16.Idx → EReal)
          (V c main_v20 : S500000x1.Idx → EReal) (V c main_v50 : S1x16.Idx → EReal) (V c main_v51 : S16x1.Idx → EReal) :=
  (dat2 (F := Ideal) V c).arrAt_eq_of_cover 5
    (GcnSpec.combine1 (Arr2.arrA V c) (Arr2.arrX V c) (Arr2.arrD V c) (Arr2.arrB V c) (Arr2.arrW V c))
    (fun t _ => Arr2.flushed_eq V c t) Arr2.covered

end Cert.KernelIdeal.Regions

end
-- ==== Proof.Reg3.lean ====
/-
  The fourth kernel's result array: the second layer's epilogue summed over all nodes.

  The output is one 1 x 1 block that every grid point revisits. The first point stores zero, and every point adds to
  the block the sum over its 4000 rows of messages plus self loop plus bias. So after the last of the 125 points the
  block holds zero plus the 125 partial sums in point order, which on the extended reals, where addition is
  commutative and associative, is the sum over all 500000 nodes: combine2. The block is written back once, after the
  last point, and covers the array.
-/
import proofs.«422157_j56495999811736_3_alg».proof.Proof.Gen.KernelIdeal.Frame
import proofs.«422157_j56495999811736_3_alg».proof.Proof.Spec
import proofs.«422157_j56495999811736_3_alg».proof.Proof.OneHot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Sum3

theorem hz : (![0, 0] : Fin 2 → Nat) = fun _ => 0 := funext fun a => by fin_cases a <;> rfl

/-- A 1 x 1 array has one index. -/
theorem idx11 (j : S1x1.Idx) : j = ix2 (0 : Fin 1) (0 : Fin 1) :=
  Shape.idx_ext₂ (by have := idx2_lt0 j; show (j 0).val = 0; omega) (by have := idx2_lt1 j; show (j 1).val = 0; omega)

/-! ## What one run of the body leaves in the accumulator block -/

section Pieces
variable {F : FTy → Type} [FloatOps F]

/-- At a point that is not the first the body leaves its update of the block's old contents `xo`: the one store's
    payload over the whole buffers it loads (the second load is the third array's block, the third the second's). -/
theorem out_B (c : Dev nD) (i : grid3.Coords)
    (a1 : Memref sig .tc .vmem S4000x1 .f32) (h1 : a1.IsWhole) (a2 : Memref sig .tc .vmem S4000x1 .f32) (h2 : a2.IsWhole)
    (a3 : Memref sig .tc .vmem S4000x1 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 x2 : Vec F S4000x1 .f32) (x3 xo : Vec F S1x1 .f32) :
    out3_B_4 c i a1 h1 a2 h2 a3 h3 a4 h4 a5 h5 hc x0 x1 x2 x3 xo = k3_pay2 x0 x2 x1 x3 xo := by
  unfold out3_B_4
  rw [View.read_writes_eq_canon _ _ _ (cover3_B_4 c i a1 h1 a2 h2 a3 h3 a4 h4 a5 h5 hc x0 x1 x2 x3 xo)]
  unfold kernelRun3_B
  dsimp only
  rw [View.canon_unit_zero hz]
  simp only [View.readAt_eq_ld, h1.read_unread, h2.read_unread, h3.read_unread, h4.read_unread, h5.read_unread,
    View.ld_unit_zero (S := S4000x1) hz, View.ld_unit_zero (S := S1x1) hz]

/-- At the first point the body stores the zero block, reads it back and leaves its update of that. -/
theorem out_A (c : Dev nD) (i : grid3.Coords)
    (a1 : Memref sig .tc .vmem S4000x1 .f32) (h1 : a1.IsWhole) (a2 : Memref sig .tc .vmem S4000x1 .f32) (h2 : a2.IsWhole)
    (a3 : Memref sig .tc .vmem S4000x1 .f32) (h3 : a3.IsWhole) (a4 : Memref sig .tc .vmem S1x1 .f32) (h4 : a4.IsWhole)
    (a5 : Memref sig .tc .vmem S1x1 .f32) (h5 : a5.IsWhole) (hc : cond3_0 i)
    (x0 x1 x2 : Vec F S4000x1 .f32) (x3 : Vec F S1x1 .f32) :
    out3_A_4 c i a1 h1 a2 h2 a3 h3 a4 h4 a5 h5 hc x0 x1 x2 x3 = k3_pay2 x0 x2 x1 x3 (k3_pay1 (F := F)) := by
  unfold out3_A_4
  rw [View.read_writes_eq_canon _ _ _ (cover3_A_4 c i a1 h1 a2 h2 a3 h3 a4 h4 a5 h5 hc x0 x1 x2 x3)]
  unfold kernelRun3_A
  dsimp only
  sl_unfold_words
  rw [View.canon_cons_unit_zero (S := S1x1) hz]
  simp only [View.readAt_eq_ld, h1.read_unread, h2.read_unread, h3.read_unread, h4.read_unread,
    View.ld_unit_zero (S := S4000x1) hz, View.ld_unit_zero (S := S1x1) hz, View.readCov_unit_zero (S := S1x1) _ hz]

end Pieces

/-- The zero block is the extended real zero. -/
theorem pay1_apply (j : S1x1.Idx) : (k3_pay1 (F := Ideal) : S1x1.Idx → EReal) j = 0 := Ideal.ofBits_zero_f32

/-- The body's update of the accumulator, read at its one index: the old value plus the sum over the block's rows of
    first block plus second times third plus the bias. -/
theorem pay2_apply (v3 v5 v7 : Vec Ideal S4000x1 .f32) (v11 v17 : Vec Ideal S1x1 .f32) :
    (k3_pay2 (F := Ideal) v3 v5 v7 v11 v17 : S1x1.Idx → EReal) (ix2 0 0)
      = (v17 (ix2 0 0) : EReal)
        + ∑ r : Fin 4000, ((v3 (ix2 r 0) : EReal) + (v5 (ix2 r 0) : EReal) * (v7 (ix2 r 0) : EReal) + (v11 (ix2 0 0) : EReal)) := by
  unfold k3_pay2
  simp only [shapeCast_self]
  refine (addf_apply _ _ _).trans ?_
  congr 1
  refine (shapeCast_a_1a_apply _ _ (0 : Fin 1) (0 : Fin 1)).trans ?_
  refine (Ideal.multiReduction_add_single _ _ _ _ _ _).trans ?_
  refine Finset.sum_congr rfl fun r _ => ?_
  have e : reduces_S4000x1_S1.lift (ix1 (0 : Fin 1)) r = ix2 r 0 := by
    funext a
    match a with
    | ⟨0, _⟩ => rfl
    | ⟨1, _⟩ => rfl
  rw [e]
  refine (addf_apply _ _ _).trans ?_
  refine congrArg₂ (· + ·) ?_ ?_
  · refine (addf_apply _ _ _).trans ?_
    refine congrArg₂ (· + ·) rfl ?_
    exact mulf_apply _ _ _
  · exact broadcastTo_1b_ab_apply v11 _ r (0 : Fin 1)

/-! ## The blocks a point reads are rows of the arrays -/

/-- The index maps over the grid: the three row-blocked windows are at block (t, 0), the bias at (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0) :=
  (by decide +kernel : ∀ t : Fin grid3.N, _)

/-- Row `r` of point `t`'s block is row `4000 t + r` of the array. -/
abbrev rowAt (t : Fin cfg3.N) (r : Fin 4000) : Fin 500000 :=
  ⟨4000 * t.val + r.val, by have := lt_of_lt_of_eq t.isLt (show cfg3.N = 125 from N_3); have := r.isLt; omega⟩

theorem blk0_apply (c : Dev nD) (t : Fin cfg3.N) (r : Fin 4000) :
    (iblk3 V c 0 t : S4000x1.Idx → EReal) (ix2 r 0) = (V c main_v64 : S500000x1.Idx → EReal) (ix2 (rowAt t r) 0) := by
  have hi := (idx_facts t).1
  unfold iblk3
  rw [View.read_apply]
  show (V c main_v64 : S500000x1.Idx → EReal) _ = (V c main_v64 : S500000x1.Idx → EReal) _
  congr 1
  funext a
  apply Fin.ext
  match a with
  | ⟨0, _⟩ => show win3_0.index t (0 : Fin 2) * 4000 + 1 * r.val = 4000 * t.val + r.val; rw [hi.1]; omega
  | ⟨1, _⟩ => show win3_0.index t (1 : Fin 2) * 1 + 1 * 0 = 0; rw [hi.2]

theorem blk1_apply (c : Dev nD) (t : Fin cfg3.N) (r : Fin 4000) :
    (iblk3 V c 1 t : S4000x1.Idx → EReal) (ix2 r 0) = (V c main_v52 : S500000x1.Idx → EReal) (ix2 (rowAt t r) 0) := by
  have hi := (idx_facts t).2.1
  unfold iblk3
  rw [View.read_apply]
  show (V c main_v52 : S500000x1.Idx → EReal) _ = (V c main_v52 : S500000x1.Idx → EReal) _
  congr 1
  funext a
  apply Fin.ext
  match a with
  | ⟨0, _⟩ => show win3_1.index t (0 : Fin 2) * 4000 + 1 * r.val = 4000 * t.val + r.val; rw [hi.1]; omega
  | ⟨1, _⟩ => show win3_1.index t (1 : Fin 2) * 1 + 1 * 0 = 0; rw [hi.2]

theorem blk2_apply (c : Dev nD) (t : Fin cfg3.N) (r : Fin 4000) :
    (iblk3 V c 2 t : S4000x1.Idx → EReal) (ix2 r 0) = (V c main_v20 : S500000x1.Idx → EReal) (ix2 (rowAt t r) 0) := by
  have hi := (idx_facts t).2.2.1
  unfold iblk3
  rw [View.read_apply]
  show (V c main_v20 : S500000x1.Idx → EReal) _ = (V c main_v20 : S500000x1.Idx → EReal) _
  congr 1
  funext a
  apply Fin.ext
  match a with
  | ⟨0, _⟩ => show win3_2.index t (0 : Fin 2) * 4000 + 1 * r.val = 4000 * t.val + r.val; rw [hi.1]; omega
  | ⟨1, _⟩ => show win3_2.index t (1 : Fin 2) * 1 + 1 * 0 = 0; rw [hi.2]

theorem blk3_apply (c : Dev nD) (t : Fin cfg3.N) :
    (iblk3 V c 3 t : S1x1.Idx → EReal) (ix2 0 0) = (V c main_v65 : S1x1.Idx → EReal) (ix2 0 0) := by
  have hi := (idx_facts t).2.2.2
  unfold iblk3
  rw [View.read_apply]
  show (V c main_v65 : S1x1.Idx → EReal) _ = (V c main_v65 : S1x1.Idx → EReal) _
  congr 1
  funext a
  apply Fin.ext
  match a with
  | ⟨0, _⟩ => show win3_3.index t (0 : Fin 2) * 1 + 1 * 0 = 0; rw [hi.1]
  | ⟨1, _⟩ => show win3_3.index t (1 : Fin 2) * 1 + 1 * 0 = 0; rw [hi.2]

/-! ## The running sum -/

/-- The four arrays the kernel reads and a point's four blocks, at their literal types. -/
abbrev arrA (c : Dev nD) : S500000x1.Idx → EReal := V c main_v64
abbrev arrX (c : Dev nD) : S500000x1.Idx → EReal := V c main_v52
abbrev arrD (c : Dev nD) : S500000x1.Idx → EReal := V c main_v20
abbrev arrB (c : Dev nD) : S1x1.Idx → EReal := V c main_v65
abbrev blkA (c : Dev nD) (t : Fin cfg3.N) : S4000x1.Idx → EReal := iblk3 V c 0 t
abbrev blkX (c : Dev nD) (t : Fin cfg3.N) : S4000x1.Idx → EReal := iblk3 V c 1 t
abbrev blkD (c : Dev nD) (t : Fin cfg3.N) : S4000x1.Idx → EReal := iblk3 V c 2 t
abbrev blkB (c : Dev nD) (t : Fin cfg3.N) : S1x1.Idx → EReal := iblk3 V c 3 t
abbrev accAt (c : Dev nD) (n : ℕ) (h : n < cfg3.N) : S1x1.Idx → EReal := outsAt3 V c n h

/-- Node `i`'s contribution: messages plus self loop plus bias. -/
def term (c : Dev nD) (i : Fin 500000) : EReal :=
  arrA V c (ix2 i 0) + arrD V c (ix2 i 0) * arrX V c (ix2 i 0) + arrB V c (ix2 0 0)

/-- The sum over the 4000 nodes of block `p` (zero past the grid). -/
def blockSum (c : Dev nD) (p : ℕ) : EReal :=
  if h : p < 125 then ∑ r : Fin 4000, term V c ⟨4000 * p + r.val, by have := r.isLt; omega⟩ else 0

/-- What point `t` adds to the accumulator is its block's sum. -/
theorem rows_eq (c : Dev nD) (t : Fin cfg3.N) :
    (∑ r : Fin 4000, (blkA V c t (ix2 r 0) + blkD V c t (ix2 r 0) * blkX V c t (ix2 r 0) + blkB V c t (ix2 0 0)))
      = blockSum V c t.val := by
  have ht : t.val < 125 := lt_of_lt_of_eq t.isLt (show cfg3.N = 125 from N_3)
  unfold blockSum
  rw [dif_pos ht]
  refine Finset.sum_congr rfl fun r _ => ?_
  show blkA V c t (ix2 r 0) + blkD V c t (ix2 r 0) * blkX V c t (ix2 r 0) + blkB V c t (ix2 0 0)
    = arrA V c (ix2 (rowAt t r) 0) + arrD V c (ix2 (rowAt t r) 0) * arrX V c (ix2 (rowAt t r) 0) + arrB V c (ix2 0 0)
  rw [show blkA V c t (ix2 r 0) = arrA V c (ix2 (rowAt t r) 0) from blk0_apply V c t r,
    show blkX V c t (ix2 r 0) = arrX V c (ix2 (rowAt t r) 0) from blk1_apply V c t r,
    show blkD V c t (ix2 r 0) = arrD V c (ix2 (rowAt t r) 0) from blk2_apply V c t r,
    show blkB V c t (ix2 0 0) = arrB V c (ix2 0 0) from blk3_apply V c t]

/-- The first point leaves zero plus its block's sum. -/
theorem at_A (c : Dev nD) (t : Fin cfg3.N) (h0 : t.val % 125 = 0) :
    accAt V c t.val t.isLt (ix2 0 0) = 0 + blockSum V c t.val := by
  show (outsAt3 V c t.val t.isLt : S1x1.Idx → EReal) (ix2 0 0) = _
  rw [outsAt3_A V c t h0]
  refine (congrFun (out_A (F := Ideal) c (grid3.coords t) (ms3_0 t) (hs3_0 t) (ms3_1 t) (hs3_1 t) (ms3_2 t) (hs3_2 t)
    (ms3_3 t) (hs3_3 t) (ms3_4 t) (hs3_4 t) ((hcond3_0 t).mpr h0)
    (iblk3 V c 0 t) (iblk3 V c 1 t) (iblk3 V c 2 t) (iblk3 V c 3 t)) (ix2 0 0)).trans ?_
  refine (pay2_apply (iblk3 V c 0 t) (iblk3 V c 2 t) (iblk3 V c 1 t) (iblk3 V c 3 t) (k3_pay1 (F := Ideal))).trans ?_
  rw [pay1_apply]
  exact congrArg (0 + ·) (rows_eq V c t)

/-- Every later point adds its block's sum to what the point before left. -/
theorem at_B (c : Dev nD) (t : Fin cfg3.N) (h0 : ¬t.val % 125 = 0) :
    accAt V c t.val t.isLt (ix2 0 0)
      = accAt V c (t.val - 1) (Nat.lt_of_le_of_lt (Nat.sub_le _ _) t.isLt) (ix2 0 0) + blockSum V c t.val := by
  show (outsAt3 V c t.val t.isLt : S1x1.Idx → EReal) (ix2 0 0) = _
  rw [outsAt3_B V c t h0]
  refine (congrFun (out_B (F := Ideal) c (grid3.coords t) (ms3_0 t) (hs3_0 t) (ms3_1 t) (hs3_1 t) (ms3_2 t) (hs3_2 t)
    (ms3_3 t) (hs3_3 t) (ms3_4 t) (hs3_4 t) (fun h => h0 ((hcond3_0 t).mp h))
    (iblk3 V c 0 t) (iblk3 V c 1 t) (iblk3 V c 2 t) (iblk3 V c 3 t)
    (outsAt3 V c (t.val - 1) (Nat.lt_of_le_of_lt (Nat.sub_le _ _) t.isLt))) (ix2 0 0)).trans ?_
  refine (pay2_apply (iblk3 V c 0 t) (iblk3 V c 2 t) (iblk3 V c 1 t) (iblk3 V c 3 t)
    (outsAt3 V c (t.val - 1) (Nat.lt_of_le_of_lt (Nat.sub_le _ _) t.isLt))).trans ?_
  exact congrArg (accAt V c (t.val - 1) (Nat.lt_of_le_of_lt (Nat.sub_le _ _) t.isLt) (ix2 0 0) + ·) (rows_eq V c t)

/-- After point `n` the accumulator holds the sum of the blocks up to `n`: by induction on the point. -/
theorem outsAt_eq (c : Dev nD) : ∀ (n : ℕ) (h : n < cfg3.N),
    accAt V c n h (ix2 0 0) = ∑ p ∈ Finset.range (n + 1), blockSum V c p
  | 0, h => by
    refine (at_A V c ⟨0, h⟩ (Nat.zero_mod _)).trans ?_
    rw [Finset.sum_range_one, zero_add]
  | n + 1, h => by
    have hN : cfg3.N = 125 := N_3
    have hB : ¬(⟨n + 1, h⟩ : Fin cfg3.N).val % 125 = 0 := by dsimp only; omega
    refine (at_B V c ⟨n + 1, h⟩ hB).trans ?_
    rw [Finset.sum_range_succ _ (n + 1)]
    exact congrArg (· + blockSum V c (n + 1)) (outsAt_eq c n (Nat.lt_of_succ_lt h))

/-- The 125 block sums are the sum over all 500000 nodes: a node is a block and a row in it. -/
theorem sum_blocks (c : Dev nD) : ∑ p ∈ Finset.range 125, blockSum V c p = ∑ i : Fin 500000, term V c i := by
  rw [Finset.sum_range]
  have e : ∀ p : Fin 125, blockSum V c p.val = ∑ r : Fin 4000, term V c (finProdFinEquiv (p, r)) := fun p => by
    unfold blockSum
    rw [dif_pos p.isLt]
    refine Finset.sum_congr rfl fun r _ => congrArg (term V c) (Fin.ext ?_)
    show 4000 * p.val + r.val = r.val + 4000 * p.val
    omega
  rw [Finset.sum_congr rfl fun p _ => e p, ← Fintype.sum_prod_type']
  exact Equiv.sum_comp (finProdFinEquiv (m := 125) (n := 4000)) (term V c)

/-! ## The array after the run -/

/-- The last point of the grid, the one that writes the block back. -/
abbrev lastPt : Fin cfg3.N := ⟨124, lt_of_lt_of_eq (by decide) N_3.symm⟩

/-- The sum over all nodes, as contents of the 1 x 1 result array. -/
abbrev total (c : Dev nD) : S1x1.Idx → EReal :=
  GcnSpec.combine2 (V c main_v64 : S500000x1.Idx → EReal) (V c main_v52 : S500000x1.Idx → EReal)
    (V c main_v20 : S500000x1.Idx → EReal) (V c main_v65 : S1x1.Idx → EReal)

theorem total_apply (c : Dev nD) (j : S1x1.Idx) : total V c j = ∑ i : Fin 500000, term V c i := rfl

/-- After the last point the accumulator holds the total. -/
theorem acc_last (c : Dev nD) : accAt V c lastPt.val lastPt.isLt = total V c := by
  funext j
  rw [idx11 j, outsAt_eq V c lastPt.val lastPt.isLt, total_apply]
  exact sum_blocks V c

/-- The one write-back, after the last point, writes the total: its block is the whole 1 x 1 array. -/
theorem flushed_eq (c : Dev nD) (t : Fin cfg3.N) (hf : (cfg3.win 4).flush t = true) :
    (dat3 (F := Ideal) V c).flushed 4 t = ((cfg3.win 4).blk t).view.read (Elt Ideal) (total V c) := by
  have hN : cfg3.N = 125 := N_3
  have h124 : t.val = 124 := by have := (flush3_4 t).mp hf; have := t.isLt; omega
  obtain rfl : t = lastPt := Fin.ext h124
  show (cfg3.win 4).cut (grid3.coords lastPt) ((dat3 (F := Ideal) V c).after 4 lastPt) = _
  rw [after3_4]
  show (cfg3.win 4).cut (grid3.coords lastPt) (accAt V c lastPt.val lastPt.isLt) = _
  rw [acc_last V c]
  have hz' : (fun a => win3_4.index lastPt a * main_v66.ty.shape.size a) = fun _ => 0 :=
    funext fun a => by fin_cases a <;> decide +kernel
  exact (Memref.read_access_unit_zero (Elt Ideal) main_v66 hz' (fun a => by rw [congrFun hz' a]; simp) (total V c)).symm

end Sum3

/-- The array the fourth kernel leaves is combine2 of the four arrays it reads. -/
theorem arr3 (c : Dev nD) :
    ((dat3 (F := Ideal) V c).arrAt 4 cfg3.N : S1x1.Idx → EReal)
      = GcnSpec.combine2 (V c main_v64 : S500000x1.Idx → EReal) (V c main_v52 : S500000x1.Idx → EReal)
          (V c main_v20 : S500000x1.Idx → EReal) (V c main_v65 : S1x1.Idx → EReal) := by
  refine (dat3 (F := Ideal) V c).arrAt_eq_of_cover 4 (Sum3.total V c) (Sum3.flushed_eq V c) fun i => ?_
  refine ⟨Sum3.lastPt, (flush3_4 Sum3.lastPt).mpr rfl, ?_⟩
  show i ∈ ((View.whole main_v66).slice (win3_4.rect Sum3.lastPt)).set
  rw [View.set_slice_whole, Rect.mem_set_unit]
  intro a
  have h0 : (i 0 : Nat) < 1 := (i 0).isLt
  have h1 : (i 1 : Nat) < 1 := (i 1).isLt
  match a with
  | ⟨0, _⟩ =>
    show win3_4.index Sum3.lastPt 0 * win3_4.size 0 ≤ (i 0 : Nat)
      ∧ (i 0 : Nat) < win3_4.index Sum3.lastPt 0 * win3_4.size 0 + win3_4.xsize (grid3.coords Sum3.lastPt) 0
    rw [show win3_4.index Sum3.lastPt 0 * win3_4.size 0 = 0 from by decide +kernel,
      show win3_4.xsize (grid3.coords Sum3.lastPt) 0 = 1 from by decide +kernel]
    omega
  | ⟨1, _⟩ =>
    show win3_4.index Sum3.lastPt 1 * win3_4.size 1 ≤ (i 1 : Nat)
      ∧ (i 1 : Nat) < win3_4.index Sum3.lastPt 1 * win3_4.size 1 + win3_4.xsize (grid3.coords Sum3.lastPt) 1
    rw [show win3_4.index Sum3.lastPt 1 * win3_4.size 1 = 0 from by decide +kernel,
      show win3_4.xsize (grid3.coords Sum3.lastPt) 1 = 1 from by decide +kernel]
    omega

end Cert.KernelIdeal.Regions

end
-- ==== Proof.LibGatherTable.lean ====
/-
  A gather of whole rows, or of whole columns, of a rank-two table, read at an index.

  The operation takes one start index per result row (or column), read as a signed integer and clamped into the table's
  range on the gathered axis; the other axis is copied whole. So result element (r, c) of a row gather is the table's
  element (clamp(idx r), c), and result element (c, r) of a column gather is the table's element (c, clamp(idx r)).
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- Any element of a list known to be a singleton is that singleton's element. -/
theorem getElem_of_eq_singleton {β : Type} {l : List β} {b : β} (h : l = [b]) (k : Nat) (hk : k < l.length) : l[k] = b := by
  subst h
  have : k = 0 := by simpa using hk
  subst this; rfl

/-- ROWS. Table [N, C], start indices the column [R, 1], result [R, C]: the gathered axis 0 is collapsed and start-indexed,
    axis 1 is the one offset axis, no batching, the index vector on axis 1 of the start indices. Element (r, c) of the
    result is the table's at (idx r clamped into [0, N - 1], c). -/
theorem gather_rows_apply {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r 0)).toInt.toNat (N - 1), by omega⟩ c) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = min (idx (ix2 r 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.zero_add, Nat.add_zero]
    rw [getElem_of_eq_singleton hoff]
    rfl

/-- COLUMNS. Table [C, N], start indices the column [R, 1], result [C, R]: the gathered axis 1 is collapsed and
    start-indexed, axis 0 is the one offset axis, no batching, the index vector on axis 1 of the start indices. Element
    (c, r) of the result is the table's at (c, idx r clamped into [0, N - 1]). -/
theorem gather_cols_apply {N C R w : Nat} (d : GatherDims ⟨2, ![C, N]⟩ ⟨2, ![R, 1]⟩ ⟨2, ![C, R]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![R, 1]⟩ w) (c : Fin C) (r : Fin R) (hN : 0 < N) :
    Host.gather d x idx (ix2 c r) = x (ix2 c ⟨min (idx (ix2 r 0)).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 c r) idx 0 + d.batchCoord (ix2 c r) 0 + d.offCoord (ix2 c r) 0 = c.val
    rw [GatherDims.batchCoord_eq_zero _ _ _ (hb 0)]
    unfold GatherDims.start GatherDims.offCoord
    rw [dif_neg hm, dif_pos hk]
    simp only [Nat.zero_add, Nat.add_zero]
    rw [getElem_of_eq_singleton hoff]
    rfl
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c r) idx 1 + d.batchCoord (ix2 c r) 1 + d.offCoord (ix2 c r) 1 = min (idx (ix2 r 0)).toInt.toNat (N - 1)
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [1] := by
        show Shape.kept _ d.offsetDims = [1]
        rw [hoff]; rfl
      rw [getElem_of_eq_singleton hbd]
      rfl
    | ⟨1, _⟩ =>
      unfold GatherDims.siIdx
      rw [dif_pos (by rw [hivd])]
      apply Fin.ext
      show List.idxOf (1 : Fin 2) d.startIndexMap = 0
      rw [hsim]; simp

end Idealize.ShloMosaic.GatherTable

end
-- ==== Proof.RefLookup.lean ====
/-
  The reference's two lookups as rows of a table.

  xlin1: the lookup of the embedding table followed by the first linear layer. The gather reads row clamp(id') of the
    table, id' the id wrapped once if negative; with ids in [0, 128) the wrap and the clamp do nothing. Selecting a row
    and then multiplying by the transposed weight is multiplying first and selecting the row of the product: both are
    the sum over l of emb(id, l) * w(j, l).
  ew: the same for the edge weights, a one-column table, with attributes in [0, 16).
-/
import proofs.«422157_j56495999811736_3_alg».proof.Proof.Gen.ReferenceIdeal.Read
import proofs.«422157_j56495999811736_3_alg».proof.Proof.LibGatherTable
import proofs.«422157_j56495999811736_3_alg».proof.Proof.Spec
import proofs.«422157_j56495999811736_3_alg».proof.Proof.OneHot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S500000x1, .i32⟩ : BufTy).Contents (Elt Ideal)) (x1 : (⟨S2x5000000, .i32⟩ : BufTy).Contents (Elt Ideal))
  (x2 : (⟨S5000000, .i32⟩ : BufTy).Contents (Elt Ideal)) (x3 : (⟨S128x16, .f32⟩ : BufTy).Contents (Elt Ideal))
  (x4 : (⟨S16x1, .f32⟩ : BufTy).Contents (Elt Ideal)) (x5 : (⟨S16x16, .f32⟩ : BufTy).Contents (Elt Ideal))
  (x6 : (⟨S16, .f32⟩ : BufTy).Contents (Elt Ideal)) (x7 : (⟨S1x16, .f32⟩ : BufTy).Contents (Elt Ideal))
  (x8 : (⟨S1, .f32⟩ : BufTy).Contents (Elt Ideal))

/-- A word below 2^31 read as a signed integer is its unsigned value. -/
private theorem toInt_of_lt (w : BitVec 32) (h : w.toNat < 2 ^ 31) : w.toInt = (w.toNat : Int) := by
  unfold BitVec.toInt
  have h32 := w.isLt
  split <;> omega

/-- The index wrap: a word below 2^31 is not negative as a signed integer, so the signed test against zero fails and the
    select keeps the word, whatever would have been added to it. -/
private theorem select_wrap_of_lt (w c : BitVec 32) (h : w.toNat < 2 ^ 31) :
    Scalar.select (IntOp.cmpi .slt w 0#32) (IntOp.addi w c) w = w := by
  have hs : w.slt 0#32 = false := by
    show decide (w.toInt < (0#32 : BitVec 32).toInt) = false
    rw [decide_eq_false_iff_not, toInt_of_lt w h]
    have h0 : (0#32 : BitVec 32).toInt = 0 := by decide
    omega
  unfold Scalar.select IntOp.cmpi
  simp only [hs]
  exact if_neg (by decide)

/-- Two words that are equal name the same clamped row of a table. -/
private theorem row_congr {α : Type} {N C : Nat} (hN : 0 < N) (tab : (⟨2, ![N, C]⟩ : Shape).Idx → α)
    {w w' : BitVec 32} (h : w = w') (c : Fin C) :
    tab (ix2 ⟨min w.toInt.toNat (N - 1), by omega⟩ c) = tab (ix2 ⟨min w'.toInt.toNat (N - 1), by omega⟩ c) := by
  subst h; rfl

/-- With ids in [0, 128) the start indices of the embedding lookup are the ids themselves: the reshape to a vector and
    back to a column reads the same word, and the wrap of negative ids does nothing. -/
private theorem ids_eq (hx : ∀ r : Fin 500000, ((x0 : S500000x1.Idx → BitVec 32) (ix2 r 0)).toNat < 128)
    (r : Fin 500000) :
    (val_main_v6 (F := Ideal) x0 : S500000x1.Idx → BitVec 32) (ix2 r 0) = (x0 : S500000x1.Idx → BitVec 32) (ix2 r 0) := by
  have e6 : idx_main_v6 (ix2 r 0) = ix1 r := by
    funext a
    match a with
    | ⟨0, _⟩ => rfl
  have e0 : idx_main_v0 (ix1 r) = ix2 r 0 := by
    funext a
    match a with
    | ⟨0, _⟩ => exact Fin.ext (Nat.div_one _)
    | ⟨1, _⟩ => rfl
  rw [val_main_v6_apply, e6, val_main_v5_apply, val_main_v2_apply, val_main_v4_apply, val_main_v1_apply,
    val_main_c_apply, val_main_v0_apply, e0]
  exact select_wrap_of_lt _ _ (by have := hx r; omega)

/-- With attributes in [0, 16) the start indices of the edge-weight lookup are the attributes as a column. -/
private theorem attrs_eq (he : ∀ e : Fin 5000000, ((x2 : S5000000.Idx → BitVec 32) (ix1 e)).toNat < 16)
    (e : Fin 5000000) :
    (val_main_v13 (F := Ideal) x2 : S5000000x1.Idx → BitVec 32) (ix2 e 0) = (x2 : S5000000.Idx → BitVec 32) (ix1 e) := by
  have e13 : idx_main_v13 (ix2 e 0) = ix1 e := by
    funext a
    match a with
    | ⟨0, _⟩ => rfl
  rw [val_main_v13_apply, e13, val_main_v12_apply, val_main_v9_apply, val_main_v11_apply, val_main_v8_apply,
    val_main_c_1_apply]
  exact select_wrap_of_lt _ _ (by have := he e; omega)

/-- With ids in [0, 128): the looked-up embeddings times the transposed weight are the rows of the folded table. -/
theorem xlin1_eq (hx : ∀ r : Fin 500000, ((x0 : S500000x1.Idx → BitVec 32) (ix2 r 0)).toNat < 128) :
    (val_main_v21 (F := Ideal) x0 x3 x5 : S500000x16.Idx → EReal)
      = GcnSpec.rowsOf (by decide) (GcnSpec.projTable x3 x5) x0 := by
  funext i
  obtain ⟨r, c, rfl⟩ : ∃ r c, i = ix2 r c := ⟨i 0, i 1, eq_ix2 i⟩
  refine (val_main_v21_apply x0 x3 x5 (ix2 r c)).trans ?_
  refine Eq.trans ?_ (GcnSpec.rowsOf_apply (by decide) (GcnSpec.projTable x3 x5) x0 r c).symm
  show _ = ∑ l : Fin 16, _
  refine Finset.sum_congr rfl fun k _ => ?_
  have el : lidx_main_v21 (ix2 r c) k = ix2 r k := by
    funext a
    match a with
    | ⟨0, _⟩ => rfl
    | ⟨1, _⟩ => rfl
  have er : ridx_main_v21 (ix2 r c) k = ix2 k c := by
    funext a
    match a with
    | ⟨0, _⟩ => rfl
    | ⟨1, _⟩ => rfl
  have e20 : idx_main_v20 (ix2 k c) = ix2 c k := by
    funext a
    match a with
    | ⟨0, _⟩ => rfl
    | ⟨1, _⟩ => rfl
  rw [el, er, val_main_v20_apply, e20]
  refine congrArg (· * _) ?_
  unfold val_main_v7
  refine (GatherTable.gather_rows_apply _ rfl rfl rfl rfl rfl x3 (val_main_v6 (F := Ideal) x0) r k (by decide)).trans ?_
  exact row_congr (by decide) x3 (ids_eq x0 hx r) k

/-- With attributes in [0, 16): the looked-up edge weights are the table's rows at the attributes. -/
theorem ew_eq (he : ∀ e : Fin 5000000, ((x2 : S5000000.Idx → BitVec 32) (ix1 e)).toNat < 16) :
    (val_main_v14 (F := Ideal) x2 x4 : S5000000x1.Idx → EReal)
      = GcnSpec.rowsOf (by decide) x4 (GcnSpec.col x2) := by
  funext i
  obtain ⟨e, c, rfl⟩ : ∃ e c, i = ix2 e c := ⟨i 0, i 1, eq_ix2 i⟩
  refine Eq.trans ?_ (GcnSpec.rowsOf_apply (by decide) x4 (GcnSpec.col x2) e c).symm
  unfold val_main_v14
  refine (GatherTable.gather_rows_apply _ rfl rfl rfl rfl rfl x4 (val_main_v13 (F := Ideal) x2) e c (by decide)).trans ?_
  exact row_congr (by decide) x4 (attrs_eq x2 he e) c

end Cert.ReferenceIdeal.RefValue

end
-- ==== Proof.RefCombine.lean ====
/-
  The reference's two epilogues as the functions the kernels compute.

  xlin2: the first layer's sum, rectifier and second projection, read at a node, is combine1 of the stages it reads.
  out: the reference's sum over the nodes starts from zero and adds every node's combination: combine2.
  The reference computes the inverse root degrees and the edge normalisation twice, once per layer; the two
  computations are the same operations on the same arrays.
-/
import proofs.«422157_j56495999811736_3_alg».proof.Proof.Gen.ReferenceIdeal.Read
import proofs.«422157_j56495999811736_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S500000x1, .i32⟩ : BufTy).Contents (Elt Ideal)) (x1 : (⟨S2x5000000, .i32⟩ : BufTy).Contents (Elt Ideal))
  (x2 : (⟨S5000000, .i32⟩ : BufTy).Contents (Elt Ideal)) (x3 : (⟨S128x16, .f32⟩ : BufTy).Contents (Elt Ideal))
  (x4 : (⟨S16x1, .f32⟩ : BufTy).Contents (Elt Ideal)) (x5 : (⟨S16x16, .f32⟩ : BufTy).Contents (Elt Ideal))
  (x6 : (⟨S16, .f32⟩ : BufTy).Contents (Elt Ideal)) (x7 : (⟨S1x16, .f32⟩ : BufTy).Contents (Elt Ideal))
  (x8 : (⟨S1, .f32⟩ : BufTy).Contents (Elt Ideal))

/-- The second computation of the inverse root degrees is the first. -/
theorem dinv_again : val_main_v79 (F := Ideal) x1 x2 x4 = val_main_v30 (F := Ideal) x1 x2 x4 := rfl

/-- The second computation of the edge normalisation is the first. -/
theorem norm_again : val_main_v95 (F := Ideal) x1 x2 x4 = val_main_v46 (F := Ideal) x1 x2 x4 := rfl

/-! ### The indices the layout operations read, by coordinates -/

/-- The left operand of the contraction is read at (node, channel). -/
private theorem lidx70_eq (r : Fin 500000) (k : Fin 1) (l : Fin 16) : lidx_main_v70 (ix2 r k) l = ix2 r l := by
  funext a; match a with | ⟨0, _⟩ => rfl | ⟨1, _⟩ => rfl

/-- The right operand of the contraction is read at (channel, 0): the result has one column. -/
private theorem ridx70_eq (r : Fin 500000) (k : Fin 1) (l : Fin 16) : ridx_main_v70 (ix2 r k) l = ix2 l 0 := by
  funext a; match a with
    | ⟨0, _⟩ => rfl
    | ⟨1, _⟩ => exact Subsingleton.elim (α := Fin 1) _ _

/-- The squared inverse root degree, broadcast along the channels, is read at the node. -/
private theorem idx6162_eq (r : Fin 500000) (l : Fin 16) : idx_main_v61 (idx_main_v62 (ix2 r l)) = ix1 r := by
  funext a; match a with | ⟨0, _⟩ => rfl

/-- The bias, broadcast along the nodes, is read at the channel. -/
private theorem idx6566_eq (r : Fin 500000) (l : Fin 16) : idx_main_v65 (idx_main_v66 (ix2 r l)) = ix1 l := by
  funext a; match a with | ⟨0, _⟩ => rfl

/-- The summed array is read at (node, 0): the result has one element. -/
private theorem idx115_eq (i : S1.Idx) (r : Fin 500000) : idx_main_v115 i r = ix2 r 0 := by
  funext a; match a with
    | ⟨0, _⟩ => rfl
    | ⟨1, _⟩ => exact Subsingleton.elim (α := Fin 1) _ _

/-- The squared inverse root degree as a column is read at the node. -/
private theorem idx109_eq (r : Fin 500000) : idx_main_v109 (ix2 r (0 : Fin 1)) = ix1 r := by
  funext a; match a with | ⟨0, _⟩ => rfl

/-- The second bias, broadcast along the nodes, is read at its one element. -/
private theorem idx112113_eq (r : Fin 500000) : idx_main_v112 (idx_main_v113 (ix2 r (0 : Fin 1))) = ix1 0 := by
  funext a; match a with | ⟨0, _⟩ => rfl

/-! ### The first layer's epilogue and the second projection -/

/-- The rectified combination of four numbers, in the extended reals' own operations. -/
private theorem relu_pt (a b c d z : EReal) :
    FloatOps.maximumf (F := Ideal) (φ := .f32)
        (FloatOps.addf (F := Ideal) (φ := .f32) (FloatOps.addf (F := Ideal) (φ := .f32) a
          (FloatOps.mulf (F := Ideal) (φ := .f32) (FloatOps.mulf (F := Ideal) (φ := .f32) d d) b)) c) z
      = max (a + d * d * b + c) z := rfl

/-- The rectified first-layer combination at (node, channel): aggregated messages plus the self loop plus the bias,
    against the zero word. -/
private theorem v68_at (r : Fin 500000) (l : Fin 16) :
    val_main_v68 (F := Ideal) x0 x1 x2 x3 x4 x5 x6 (ix2 r l)
      = max (val_main_v59 (F := Ideal) x0 x1 x2 x3 x4 x5 (ix2 r l)
              + (val_main_v30 (F := Ideal) x1 x2 x4 (ix1 r) * val_main_v30 (F := Ideal) x1 x2 x4 (ix1 r))
                * val_main_v21 (F := Ideal) x0 x3 x5 (ix2 r l)
              + x6 (ix1 l))
          (Ideal.ofBits .f32 0x00000000#32) := by
  rw [val_main_v68_apply, val_main_v67_apply, val_main_v64_apply, val_main_v63_apply, val_main_v62_apply,
    val_main_v61_apply, val_main_v60_apply, val_main_v66_apply, val_main_v65_apply, val_main_call1_v0_apply,
    val_main_call1_cst_apply, idx6162_eq, idx6566_eq]
  generalize val_main_v59 (F := Ideal) x0 x1 x2 x3 x4 x5 (ix2 r l) = a
  generalize val_main_v21 (F := Ideal) x0 x3 x5 (ix2 r l) = b
  generalize val_main_v30 (F := Ideal) x1 x2 x4 (ix1 r) = d
  generalize x6 (ix1 l) = c
  exact relu_pt a b c d _

/-- combine1 at a node, over arbitrary arrays: the column of squares is read at the node, the bias row at the
    channel. -/
private theorem combine1_at (A B : FVec Ideal ⟨2, ![500000, 16]⟩ .f32) (D : FVec Ideal ⟨1, ![500000]⟩ .f32)
    (c : FVec Ideal ⟨1, ![16]⟩ .f32) (W : FVec Ideal ⟨2, ![16, 1]⟩ .f32) (r : Fin 500000) (k : Fin 1) :
    GcnSpec.combine1 A B (GcnSpec.col (mulf D D)) (GcnSpec.row c) W (ix2 r k)
      = ∑ l : Fin 16, max (A (ix2 r l) + D (ix1 r) * D (ix1 r) * B (ix2 r l) + c (ix1 l))
          (Ideal.ofBits .f32 0x00000000#32) * W (ix2 l 0) := rfl

/-- The second layer's projected features are combine1 of the first layer's stages. -/
theorem xlin2_eq :
    (val_main_v70 (F := Ideal) x0 x1 x2 x3 x4 x5 x6 x7 : S500000x1.Idx → EReal)
      = GcnSpec.combine1 (val_main_v59 (F := Ideal) x0 x1 x2 x3 x4 x5) (val_main_v21 (F := Ideal) x0 x3 x5)
          (GcnSpec.col (mulf (val_main_v30 (F := Ideal) x1 x2 x4) (val_main_v30 (F := Ideal) x1 x2 x4)))
          (GcnSpec.row x6) (val_main_v69 (F := Ideal) x7) := by
  funext i
  obtain ⟨r, k, rfl⟩ : ∃ (r : Fin 500000) (k : Fin 1), i = ix2 r k := ⟨i 0, i 1, eq_ix2 i⟩
  rw [val_main_v70_apply, combine1_at]
  refine Finset.sum_congr rfl fun l _ => ?_
  rw [lidx70_eq, ridx70_eq, v68_at]

/-! ### The result -/

/-- The second layer's combination of four numbers, in the extended reals' own operations. -/
private theorem comb_pt (a b c d : EReal) :
    FloatOps.addf (F := Ideal) (φ := .f32) (FloatOps.addf (F := Ideal) (φ := .f32) a
        (FloatOps.mulf (F := Ideal) (φ := .f32) (FloatOps.mulf (F := Ideal) (φ := .f32) d d) b)) c
      = a + d * d * b + c := rfl

/-- The second layer's combination at a node: aggregated messages plus the self loop plus the bias. The inverse root
    degrees it squares are the first layer's. -/
private theorem v114_at (r : Fin 500000) :
    val_main_v114 (F := Ideal) x0 x1 x2 x3 x4 x5 x6 x7 x8 (ix2 r 0)
      = val_main_v107 (F := Ideal) x0 x1 x2 x3 x4 x5 x6 x7 (ix2 r 0)
          + (val_main_v30 (F := Ideal) x1 x2 x4 (ix1 r) * val_main_v30 (F := Ideal) x1 x2 x4 (ix1 r))
            * val_main_v70 (F := Ideal) x0 x1 x2 x3 x4 x5 x6 x7 (ix2 r 0)
          + x8 (ix1 0) := by
  rw [val_main_v114_apply, val_main_v111_apply, val_main_v110_apply, val_main_v109_apply, val_main_v108_apply,
    val_main_v113_apply, val_main_v112_apply, idx109_eq, idx112113_eq, dinv_again]
  generalize val_main_v107 (F := Ideal) x0 x1 x2 x3 x4 x5 x6 x7 (ix2 r 0) = a
  generalize val_main_v70 (F := Ideal) x0 x1 x2 x3 x4 x5 x6 x7 (ix2 r 0) = b
  generalize val_main_v30 (F := Ideal) x1 x2 x4 (ix1 r) = d
  generalize x8 (ix1 0) = c
  exact comb_pt a b c d

/-- combine2 as a one-element vector, over arbitrary arrays: the column of squares is read at the node, the bias at its
    one element. -/
private theorem combine2_at (A X : FVec Ideal ⟨2, ![500000, 1]⟩ .f32) (D : FVec Ideal ⟨1, ![500000]⟩ .f32)
    (b : FVec Ideal ⟨1, ![1]⟩ .f32) (i : (⟨1, ![1]⟩ : Shape).Idx) :
    GcnSpec.flat11 (GcnSpec.combine2 A X (GcnSpec.col (mulf D D)) (GcnSpec.cell11 b)) i
      = ∑ r : Fin 500000, (A (ix2 r 0) + D (ix1 r) * D (ix1 r) * X (ix2 r 0) + b (ix1 0)) := rfl

/-- The result is combine2 of the second layer's stages: the sum starts from the zero word, which is zero. -/
theorem out_eq :
    (val_main_v115 (F := Ideal) x0 x1 x2 x3 x4 x5 x6 x7 x8 : S1.Idx → EReal)
      = GcnSpec.flat11 (GcnSpec.combine2 (val_main_v107 (F := Ideal) x0 x1 x2 x3 x4 x5 x6 x7) (val_main_v70 (F := Ideal) x0 x1 x2 x3 x4 x5 x6 x7)
          (GcnSpec.col (mulf (val_main_v30 (F := Ideal) x1 x2 x4) (val_main_v30 (F := Ideal) x1 x2 x4)))
          (GcnSpec.cell11 x8)) := by
  funext i
  rw [val_main_v115_apply, val_main_cst_24_apply, combine2_at, Ideal.ofBits_def, Ideal.ofBits_zero_f32, zero_add]
  refine Finset.sum_congr rfl fun r _ => ?_
  rw [idx115_eq, v114_at]

end Cert.ReferenceIdeal.RefValue

end
-- ==== Proof.KChain.lean ====
/-
  The kernel program's result as the reference's last stage of the same arguments.

  The program is host operations, then the two lookup kernels, host operations, the first layer's epilogue kernel, host
  operations, the second layer's epilogue kernel, a reshape. Going through it boundary by boundary, each buffer a later
  step reads holds the reference's stage of the launch arguments: a stretch of host operations maps stages to stages
  (they are the reference's own operations), a kernel's result array is the function of the arrays it reads that the
  region lemma gives, and that function of the reference's stages is the reference's next stage (the four reference
  lemmas). A buffer a region does not touch keeps its contents; an input array of a region ends as it was entered.
-/
import proofs.«422157_j56495999811736_3_alg».proof.Proof.Gen.KernelIdeal.Frame
import proofs.«422157_j56495999811736_3_alg».proof.Proof.Gen.ReferenceIdeal.Read
import proofs.«422157_j56495999811736_3_alg».proof.Proof.Spec
import proofs.«422157_j56495999811736_3_alg».proof.Proof.KHost
import proofs.«422157_j56495999811736_3_alg».proof.Proof.Reg0
import proofs.«422157_j56495999811736_3_alg».proof.Proof.Reg1
import proofs.«422157_j56495999811736_3_alg».proof.Proof.Reg2
import proofs.«422157_j56495999811736_3_alg».proof.Proof.Reg3
import proofs.«422157_j56495999811736_3_alg».proof.Proof.RefLookup
import proofs.«422157_j56495999811736_3_alg».proof.Proof.RefCombine
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The launch arguments -/

abbrev A0 : S500000x1.Idx → BitVec 32 := m ((c.tc : Thread nD τ).loc main_arg0)
abbrev A1 : S2x5000000.Idx → BitVec 32 := m ((c.tc : Thread nD τ).loc main_arg1)
abbrev A2 : S5000000.Idx → BitVec 32 := m ((c.tc : Thread nD τ).loc main_arg2)
abbrev A3 : S128x16.Idx → EReal := m ((c.tc : Thread nD τ).loc main_arg3)
abbrev A4 : S16x1.Idx → EReal := m ((c.tc : Thread nD τ).loc main_arg4)
abbrev A5 : S16x16.Idx → EReal := m ((c.tc : Thread nD τ).loc main_arg5)
abbrev A6 : S16.Idx → EReal := m ((c.tc : Thread nD τ).loc main_arg6)
abbrev A7 : S1x16.Idx → EReal := m ((c.tc : Thread nD τ).loc main_arg7)
abbrev A8 : S1.Idx → EReal := m ((c.tc : Thread nD τ).loc main_arg8)

/-! ## Before the first kernel -/

theorem W1_arg0 : (W1 (F := Ideal) m ρ c (Proc.devRef .tc main_arg0) : S500000x1.Idx → BitVec 32) = A0 m c := s0_arg0 (W0 m ρ c)
theorem W1_arg4 : (W1 (F := Ideal) m ρ c (Proc.devRef .tc main_arg4) : S16x1.Idx → EReal) = A4 m c := s0_arg4 (W0 m ρ c)
theorem W1_arg6 : (W1 (F := Ideal) m ρ c (Proc.devRef .tc main_arg6) : S16.Idx → EReal) = A6 m c := s0_arg6 (W0 m ρ c)
theorem W1_arg7 : (W1 (F := Ideal) m ρ c (Proc.devRef .tc main_arg7) : S1x16.Idx → EReal) = A7 m c := s0_arg7 (W0 m ρ c)
theorem W1_arg8 : (W1 (F := Ideal) m ρ c (Proc.devRef .tc main_arg8) : S1.Idx → EReal) = A8 m c := s0_arg8 (W0 m ρ c)
theorem W1_v0 : (W1 (F := Ideal) m ρ c (Proc.devRef .tc main_v0) : S5000000x1.Idx → BitVec 32) = GcnSpec.col (A2 m c) := s0_v0 (W0 m ρ c)
theorem W1_v2 : (W1 (F := Ideal) m ρ c (Proc.devRef .tc main_v2) : S5000000.Idx → BitVec 32) = Cert.ReferenceIdeal.Read.val_main_v17 (F := Ideal) (A1 m c) := s0_v2 (W0 m ρ c)
theorem W1_v4 : (W1 (F := Ideal) m ρ c (Proc.devRef .tc main_v4) : S5000000.Idx → BitVec 32) = Cert.ReferenceIdeal.Read.val_main_v19 (F := Ideal) (A1 m c) := s0_v4 (W0 m ρ c)
theorem W1_v6 : (W1 (F := Ideal) m ρ c (Proc.devRef .tc main_v6) : S128x16.Idx → EReal) = GcnSpec.projTable (A3 m c) (A5 m c) := s0_v6 (W0 m ρ c)

/-! ## The first kernel: the projected features -/

/-- With the ids in range the first kernel leaves the reference's projected features. -/
theorem W2_v7 (hx : ∀ r : Fin 500000, ((A0 m c) (ix2 r 0)).toNat < 128) :
    (W2 (F := Ideal) m ρ c (Proc.devRef .tc main_v7) : S500000x16.Idx → EReal) = Cert.ReferenceIdeal.Read.val_main_v21 (F := Ideal) (A0 m c) (A3 m c) (A5 m c) := by
  have h := Regions.arr0 (V1 (F := Ideal) m ρ) c (fun r => by rw [(show V1 (F := Ideal) m ρ c main_arg0 = _ from W1_arg0 m ρ c)]; exact hx r)
  rw [(show V1 (F := Ideal) m ρ c main_arg0 = _ from W1_arg0 m ρ c), (show V1 (F := Ideal) m ρ c main_v6 = _ from W1_v6 m ρ c)] at h
  exact (W2_arr (F := Ideal) m ρ c 2).trans (h.trans (Cert.ReferenceIdeal.RefValue.xlin1_eq (A0 m c) (A3 m c) (A5 m c) hx).symm)

theorem W2_v0 : (W2 (F := Ideal) m ρ c (Proc.devRef .tc main_v0) : S5000000x1.Idx → BitVec 32) = GcnSpec.col (A2 m c) :=
  (W2_of_ne (F := Ideal) m ρ c main_v0 (by decide)).trans (W1_v0 m ρ c)
theorem W2_arg4 : (W2 (F := Ideal) m ρ c (Proc.devRef .tc main_arg4) : S16x1.Idx → EReal) = A4 m c :=
  (W2_of_ne (F := Ideal) m ρ c main_arg4 (by decide)).trans (W1_arg4 m ρ c)

/-! ## The second kernel: the edge weights -/

/-- With the attributes in range the second kernel leaves the reference's edge weights. -/
theorem W3_v8 (he : ∀ e : Fin 5000000, ((A2 m c) (ix1 e)).toNat < 16) :
    (W3 (F := Ideal) m ρ c (Proc.devRef .tc main_v8) : S5000000x1.Idx → EReal) = Cert.ReferenceIdeal.Read.val_main_v14 (F := Ideal) (A2 m c) (A4 m c) := by
  have h := Regions.arr1 (V2 (F := Ideal) m ρ) c (fun e => by rw [(show V2 (F := Ideal) m ρ c main_v0 = _ from W2_v0 m ρ c)]; exact he e)
  rw [(show V2 (F := Ideal) m ρ c main_v0 = _ from W2_v0 m ρ c), (show V2 (F := Ideal) m ρ c main_arg4 = _ from W2_arg4 m ρ c)] at h
  exact (W3_arr (F := Ideal) m ρ c 2).trans (h.trans (Cert.ReferenceIdeal.RefValue.ew_eq (A2 m c) (A4 m c) he).symm)

theorem W3_v2 : (W3 (F := Ideal) m ρ c (Proc.devRef .tc main_v2) : S5000000.Idx → BitVec 32) = Cert.ReferenceIdeal.Read.val_main_v17 (F := Ideal) (A1 m c) :=
  (W3_of_ne (F := Ideal) m ρ c main_v2 (by decide)).trans ((W2_of_ne (F := Ideal) m ρ c main_v2 (by decide)).trans (W1_v2 m ρ c))
theorem W3_v4 : (W3 (F := Ideal) m ρ c (Proc.devRef .tc main_v4) : S5000000.Idx → BitVec 32) = Cert.ReferenceIdeal.Read.val_main_v19 (F := Ideal) (A1 m c) :=
  (W3_of_ne (F := Ideal) m ρ c main_v4 (by decide)).trans ((W2_of_ne (F := Ideal) m ρ c main_v4 (by decide)).trans (W1_v4 m ρ c))
theorem W3_v7 (hx : ∀ r : Fin 500000, ((A0 m c) (ix2 r 0)).toNat < 128) :
    (W3 (F := Ideal) m ρ c (Proc.devRef .tc main_v7) : S500000x16.Idx → EReal) = Cert.ReferenceIdeal.Read.val_main_v21 (F := Ideal) (A0 m c) (A3 m c) (A5 m c) :=
  (W3_of_ne (F := Ideal) m ρ c main_v7 (by decide)).trans (W2_v7 m ρ c hx)
theorem W3_arg6 : (W3 (F := Ideal) m ρ c (Proc.devRef .tc main_arg6) : S16.Idx → EReal) = A6 m c :=
  (W3_of_ne (F := Ideal) m ρ c main_arg6 (by decide)).trans ((W2_of_ne (F := Ideal) m ρ c main_arg6 (by decide)).trans (W1_arg6 m ρ c))
theorem W3_arg7 : (W3 (F := Ideal) m ρ c (Proc.devRef .tc main_arg7) : S1x16.Idx → EReal) = A7 m c :=
  (W3_of_ne (F := Ideal) m ρ c main_arg7 (by decide)).trans ((W2_of_ne (F := Ideal) m ρ c main_arg7 (by decide)).trans (W1_arg7 m ρ c))
theorem W3_arg8 : (W3 (F := Ideal) m ρ c (Proc.devRef .tc main_arg8) : S1.Idx → EReal) = A8 m c :=
  (W3_of_ne (F := Ideal) m ρ c main_arg8 (by decide)).trans ((W2_of_ne (F := Ideal) m ρ c main_arg8 (by decide)).trans (W1_arg8 m ρ c))

/-! ## Degrees, normalisation and the first layer's messages -/

section Mid

theorem W5_v18 (hx : ∀ r : Fin 500000, ((A0 m c) (ix2 r 0)).toNat < 128) (he : ∀ e : Fin 5000000, ((A2 m c) (ix1 e)).toNat < 16) : (W5 (F := Ideal) m ρ c (Proc.devRef .tc main_v18) : S500000.Idx → EReal) = Cert.ReferenceIdeal.Read.val_main_v30 (F := Ideal) (A1 m c) (A2 m c) (A4 m c) := by
  refine (s2b_v18 (W4 (F := Ideal) m ρ c)).trans ?_
  rw [show W4 (F := Ideal) m ρ c (Proc.devRef .tc main_v16) = _ from
        s2a_v16 (u := W3 (F := Ideal) m ρ c) (x1 := A1 m c) (x2 := A2 m c) (x4 := A4 m c) (W3_v8 m ρ c he) (W3_v4 m ρ c),
    show W4 (F := Ideal) m ρ c (Proc.devRef .tc main_v17) = _ from
        s2a_v17 (u := W3 (F := Ideal) m ρ c) (x1 := A1 m c) (x2 := A2 m c) (x4 := A4 m c) (W3_v8 m ρ c he) (W3_v4 m ρ c),
    show W4 (F := Ideal) m ρ c (Proc.devRef .tc main_cst_2) = _ from s2a_cst2 (u := W3 (F := Ideal) m ρ c)]
  exact where_ref (A1 m c) (A2 m c) (A4 m c)

theorem W5_v9 (hx : ∀ r : Fin 500000, ((A0 m c) (ix2 r 0)).toNat < 128) (he : ∀ e : Fin 5000000, ((A2 m c) (ix1 e)).toNat < 16) : (W5 (F := Ideal) m ρ c (Proc.devRef .tc main_v9) : S5000000.Idx → EReal) = Cert.ReferenceIdeal.Read.val_main_v15 (F := Ideal) (A2 m c) (A4 m c) :=
  (keep_2_1_v9 (W4 (F := Ideal) m ρ c)).trans (s2a_v9 (u := W3 (F := Ideal) m ρ c) (x2 := A2 m c) (x4 := A4 m c) (W3_v8 m ρ c he))
theorem W5_v2 (hx : ∀ r : Fin 500000, ((A0 m c) (ix2 r 0)).toNat < 128) (he : ∀ e : Fin 5000000, ((A2 m c) (ix1 e)).toNat < 16) : (W5 (F := Ideal) m ρ c (Proc.devRef .tc main_v2) : S5000000.Idx → BitVec 32) = Cert.ReferenceIdeal.Read.val_main_v17 (F := Ideal) (A1 m c) :=
  (keep_2_1_v2 (W4 (F := Ideal) m ρ c)).trans ((keep_2_v2 (W3 (F := Ideal) m ρ c)).trans (W3_v2 m ρ c))
theorem W5_v4 (hx : ∀ r : Fin 500000, ((A0 m c) (ix2 r 0)).toNat < 128) (he : ∀ e : Fin 5000000, ((A2 m c) (ix1 e)).toNat < 16) : (W5 (F := Ideal) m ρ c (Proc.devRef .tc main_v4) : S5000000.Idx → BitVec 32) = Cert.ReferenceIdeal.Read.val_main_v19 (F := Ideal) (A1 m c) :=
  (keep_2_1_v4 (W4 (F := Ideal) m ρ c)).trans ((keep_2_v4 (W3 (F := Ideal) m ρ c)).trans (W3_v4 m ρ c))
theorem W5_v7 (hx : ∀ r : Fin 500000, ((A0 m c) (ix2 r 0)).toNat < 128) (he : ∀ e : Fin 5000000, ((A2 m c) (ix1 e)).toNat < 16) : (W5 (F := Ideal) m ρ c (Proc.devRef .tc main_v7) : S500000x16.Idx → EReal) = Cert.ReferenceIdeal.Read.val_main_v21 (F := Ideal) (A0 m c) (A3 m c) (A5 m c) :=
  (keep_2_1_v7 (W4 (F := Ideal) m ρ c)).trans ((keep_2_v7 (W3 (F := Ideal) m ρ c)).trans (W3_v7 m ρ c hx))
theorem W5_arg6 (hx : ∀ r : Fin 500000, ((A0 m c) (ix2 r 0)).toNat < 128) (he : ∀ e : Fin 5000000, ((A2 m c) (ix1 e)).toNat < 16) : (W5 (F := Ideal) m ρ c (Proc.devRef .tc main_arg6) : S16.Idx → EReal) = A6 m c :=
  (keep_2_1_arg6 (W4 (F := Ideal) m ρ c)).trans ((keep_2_arg6 (W3 (F := Ideal) m ρ c)).trans (W3_arg6 m ρ c))
theorem W5_arg7 (hx : ∀ r : Fin 500000, ((A0 m c) (ix2 r 0)).toNat < 128) (he : ∀ e : Fin 5000000, ((A2 m c) (ix1 e)).toNat < 16) : (W5 (F := Ideal) m ρ c (Proc.devRef .tc main_arg7) : S1x16.Idx → EReal) = A7 m c :=
  (keep_2_1_arg7 (W4 (F := Ideal) m ρ c)).trans ((keep_2_arg7 (W3 (F := Ideal) m ρ c)).trans (W3_arg7 m ρ c))
theorem W5_arg8 (hx : ∀ r : Fin 500000, ((A0 m c) (ix2 r 0)).toNat < 128) (he : ∀ e : Fin 5000000, ((A2 m c) (ix1 e)).toNat < 16) : (W5 (F := Ideal) m ρ c (Proc.devRef .tc main_arg8) : S1.Idx → EReal) = A8 m c :=
  (keep_2_1_arg8 (W4 (F := Ideal) m ρ c)).trans ((keep_2_arg8 (W3 (F := Ideal) m ρ c)).trans (W3_arg8 m ρ c))

theorem W6_v36 (hx : ∀ r : Fin 500000, ((A0 m c) (ix2 r 0)).toNat < 128) (he : ∀ e : Fin 5000000, ((A2 m c) (ix1 e)).toNat < 16) : (W6 (F := Ideal) m ρ c (Proc.devRef .tc main_v36) : S5000000.Idx → EReal) = Cert.ReferenceIdeal.Read.val_main_v46 (F := Ideal) (A1 m c) (A2 m c) (A4 m c) :=
  s2c_v36 (u := W5 (F := Ideal) m ρ c) (x1 := A1 m c) (x2 := A2 m c) (x4 := A4 m c) (W5_v18 m ρ c hx he) (W5_v9 m ρ c hx he) (W5_v2 m ρ c hx he) (W5_v4 m ρ c hx he)
theorem W6_v49 (hx : ∀ r : Fin 500000, ((A0 m c) (ix2 r 0)).toNat < 128) (he : ∀ e : Fin 5000000, ((A2 m c) (ix1 e)).toNat < 16) : (W6 (F := Ideal) m ρ c (Proc.devRef .tc main_v49) : S500000x16.Idx → EReal) = Cert.ReferenceIdeal.Read.val_main_v59 (F := Ideal) (A0 m c) (A1 m c) (A2 m c) (A3 m c) (A4 m c) (A5 m c) :=
  s2c_v49 (u := W5 (F := Ideal) m ρ c) (x0 := A0 m c) (x1 := A1 m c) (x2 := A2 m c) (x3 := A3 m c) (x4 := A4 m c) (x5 := A5 m c)
    (W5_v18 m ρ c hx he) (W5_v9 m ρ c hx he) (W5_v2 m ρ c hx he) (W5_v4 m ρ c hx he) (W5_v7 m ρ c hx he)
theorem W6_v20 (hx : ∀ r : Fin 500000, ((A0 m c) (ix2 r 0)).toNat < 128) (he : ∀ e : Fin 5000000, ((A2 m c) (ix1 e)).toNat < 16) : (W6 (F := Ideal) m ρ c (Proc.devRef .tc main_v20) : S500000x1.Idx → EReal) = sqCol (Cert.ReferenceIdeal.Read.val_main_v30 (F := Ideal) (A1 m c) (A2 m c) (A4 m c)) :=
  s2c_v20 (u := W5 (F := Ideal) m ρ c) (x1 := A1 m c) (x2 := A2 m c) (x4 := A4 m c) (W5_v18 m ρ c hx he)
theorem W6_v50 (hx : ∀ r : Fin 500000, ((A0 m c) (ix2 r 0)).toNat < 128) (he : ∀ e : Fin 5000000, ((A2 m c) (ix1 e)).toNat < 16) : (W6 (F := Ideal) m ρ c (Proc.devRef .tc main_v50) : S1x16.Idx → EReal) = GcnSpec.row (A6 m c) :=
  s2c_v50 (u := W5 (F := Ideal) m ρ c) (x6 := A6 m c) (W5_arg6 m ρ c hx he)
theorem W6_v51 (hx : ∀ r : Fin 500000, ((A0 m c) (ix2 r 0)).toNat < 128) (he : ∀ e : Fin 5000000, ((A2 m c) (ix1 e)).toNat < 16) : (W6 (F := Ideal) m ρ c (Proc.devRef .tc main_v51) : S16x1.Idx → EReal) = Cert.ReferenceIdeal.Read.val_main_v69 (F := Ideal) (A7 m c) :=
  s2c_v51 (u := W5 (F := Ideal) m ρ c) (x7 := A7 m c) (W5_arg7 m ρ c hx he)
theorem W6_v7 (hx : ∀ r : Fin 500000, ((A0 m c) (ix2 r 0)).toNat < 128) (he : ∀ e : Fin 5000000, ((A2 m c) (ix1 e)).toNat < 16) : (W6 (F := Ideal) m ρ c (Proc.devRef .tc main_v7) : S500000x16.Idx → EReal) = Cert.ReferenceIdeal.Read.val_main_v21 (F := Ideal) (A0 m c) (A3 m c) (A5 m c) :=
  (keep_2_2_v7 (W5 (F := Ideal) m ρ c)).trans (W5_v7 m ρ c hx he)
theorem W6_v2 (hx : ∀ r : Fin 500000, ((A0 m c) (ix2 r 0)).toNat < 128) (he : ∀ e : Fin 5000000, ((A2 m c) (ix1 e)).toNat < 16) : (W6 (F := Ideal) m ρ c (Proc.devRef .tc main_v2) : S5000000.Idx → BitVec 32) = Cert.ReferenceIdeal.Read.val_main_v17 (F := Ideal) (A1 m c) :=
  (keep_2_2_v2 (W5 (F := Ideal) m ρ c)).trans (W5_v2 m ρ c hx he)
theorem W6_v4 (hx : ∀ r : Fin 500000, ((A0 m c) (ix2 r 0)).toNat < 128) (he : ∀ e : Fin 5000000, ((A2 m c) (ix1 e)).toNat < 16) : (W6 (F := Ideal) m ρ c (Proc.devRef .tc main_v4) : S5000000.Idx → BitVec 32) = Cert.ReferenceIdeal.Read.val_main_v19 (F := Ideal) (A1 m c) :=
  (keep_2_2_v4 (W5 (F := Ideal) m ρ c)).trans (W5_v4 m ρ c hx he)
theorem W6_arg8 (hx : ∀ r : Fin 500000, ((A0 m c) (ix2 r 0)).toNat < 128) (he : ∀ e : Fin 5000000, ((A2 m c) (ix1 e)).toNat < 16) : (W6 (F := Ideal) m ρ c (Proc.devRef .tc main_arg8) : S1.Idx → EReal) = A8 m c :=
  (keep_2_2_arg8 (W5 (F := Ideal) m ρ c)).trans (W5_arg8 m ρ c hx he)

/-! ## The third kernel: the second layer's projected features -/

theorem W7_v52 (hx : ∀ r : Fin 500000, ((A0 m c) (ix2 r 0)).toNat < 128) (he : ∀ e : Fin 5000000, ((A2 m c) (ix1 e)).toNat < 16) : (W7 (F := Ideal) m ρ c (Proc.devRef .tc main_v52) : S500000x1.Idx → EReal) = Cert.ReferenceIdeal.Read.val_main_v70 (F := Ideal) (A0 m c) (A1 m c) (A2 m c) (A3 m c) (A4 m c) (A5 m c) (A6 m c) (A7 m c) := by
  have h := Regions.arr2 (V6 (F := Ideal) m ρ) c
  rw [(show V6 (F := Ideal) m ρ c main_v49 = _ from W6_v49 m ρ c hx he), (show V6 (F := Ideal) m ρ c main_v7 = _ from W6_v7 m ρ c hx he), (show V6 (F := Ideal) m ρ c main_v20 = _ from W6_v20 m ρ c hx he),
    (show V6 (F := Ideal) m ρ c main_v50 = _ from W6_v50 m ρ c hx he), (show V6 (F := Ideal) m ρ c main_v51 = _ from W6_v51 m ρ c hx he)] at h
  exact (W7_arr (F := Ideal) m ρ c 5).trans (h.trans (Cert.ReferenceIdeal.RefValue.xlin2_eq (A0 m c) (A1 m c) (A2 m c) (A3 m c) (A4 m c) (A5 m c) (A6 m c) (A7 m c)).symm)

/-- The squared inverse root degrees are an input array of the third kernel: they end as they were entered. -/
theorem W7_v20 (hx : ∀ r : Fin 500000, ((A0 m c) (ix2 r 0)).toNat < 128) (he : ∀ e : Fin 5000000, ((A2 m c) (ix1 e)).toNat < 16) : (W7 (F := Ideal) m ρ c (Proc.devRef .tc main_v20) : S500000x1.Idx → EReal) = sqCol (Cert.ReferenceIdeal.Read.val_main_v30 (F := Ideal) (A1 m c) (A2 m c) (A4 m c)) :=
  ((W7_arr (F := Ideal) m ρ c 2).trans (((dat2 (V6 (F := Ideal) m ρ) c).arrAt_in 2 rfl _).trans (A_eq2 (V6 (F := Ideal) m ρ) c 2))).trans (W6_v20 m ρ c hx he)
theorem W7_v36 (hx : ∀ r : Fin 500000, ((A0 m c) (ix2 r 0)).toNat < 128) (he : ∀ e : Fin 5000000, ((A2 m c) (ix1 e)).toNat < 16) : (W7 (F := Ideal) m ρ c (Proc.devRef .tc main_v36) : S5000000.Idx → EReal) = Cert.ReferenceIdeal.Read.val_main_v95 (F := Ideal) (A1 m c) (A2 m c) (A4 m c) :=
  ((W7_of_ne (F := Ideal) m ρ c main_v36 (by decide)).trans (W6_v36 m ρ c hx he)).trans (Cert.ReferenceIdeal.RefValue.norm_again (A1 m c) (A2 m c) (A4 m c)).symm
theorem W7_v2 (hx : ∀ r : Fin 500000, ((A0 m c) (ix2 r 0)).toNat < 128) (he : ∀ e : Fin 5000000, ((A2 m c) (ix1 e)).toNat < 16) : (W7 (F := Ideal) m ρ c (Proc.devRef .tc main_v2) : S5000000.Idx → BitVec 32) = Cert.ReferenceIdeal.Read.val_main_v17 (F := Ideal) (A1 m c) :=
  (W7_of_ne (F := Ideal) m ρ c main_v2 (by decide)).trans (W6_v2 m ρ c hx he)
theorem W7_v4 (hx : ∀ r : Fin 500000, ((A0 m c) (ix2 r 0)).toNat < 128) (he : ∀ e : Fin 5000000, ((A2 m c) (ix1 e)).toNat < 16) : (W7 (F := Ideal) m ρ c (Proc.devRef .tc main_v4) : S5000000.Idx → BitVec 32) = Cert.ReferenceIdeal.Read.val_main_v19 (F := Ideal) (A1 m c) :=
  (W7_of_ne (F := Ideal) m ρ c main_v4 (by decide)).trans (W6_v4 m ρ c hx he)
theorem W7_arg8 (hx : ∀ r : Fin 500000, ((A0 m c) (ix2 r 0)).toNat < 128) (he : ∀ e : Fin 5000000, ((A2 m c) (ix1 e)).toNat < 16) : (W7 (F := Ideal) m ρ c (Proc.devRef .tc main_arg8) : S1.Idx → EReal) = A8 m c :=
  (W7_of_ne (F := Ideal) m ρ c main_arg8 (by decide)).trans (W6_arg8 m ρ c hx he)

/-! ## The second layer's messages, the fourth kernel, the result -/

theorem W8_v64 (hx : ∀ r : Fin 500000, ((A0 m c) (ix2 r 0)).toNat < 128) (he : ∀ e : Fin 5000000, ((A2 m c) (ix1 e)).toNat < 16) : (W8 (F := Ideal) m ρ c (Proc.devRef .tc main_v64) : S500000x1.Idx → EReal) = Cert.ReferenceIdeal.Read.val_main_v107 (F := Ideal) (A0 m c) (A1 m c) (A2 m c) (A3 m c) (A4 m c) (A5 m c) (A6 m c) (A7 m c) :=
  s3_v64 (u := W7 (F := Ideal) m ρ c) (x0 := A0 m c) (x1 := A1 m c) (x2 := A2 m c) (x3 := A3 m c) (x4 := A4 m c) (x5 := A5 m c) (x6 := A6 m c) (x7 := A7 m c)
    (W7_v36 m ρ c hx he) (W7_v52 m ρ c hx he) (W7_v2 m ρ c hx he) (W7_v4 m ρ c hx he)
theorem W8_v65 (hx : ∀ r : Fin 500000, ((A0 m c) (ix2 r 0)).toNat < 128) (he : ∀ e : Fin 5000000, ((A2 m c) (ix1 e)).toNat < 16) : (W8 (F := Ideal) m ρ c (Proc.devRef .tc main_v65) : S1x1.Idx → EReal) = GcnSpec.cell11 (A8 m c) :=
  s3_v65 (u := W7 (F := Ideal) m ρ c) (x8 := A8 m c) (W7_arg8 m ρ c hx he)
theorem W8_v52 (hx : ∀ r : Fin 500000, ((A0 m c) (ix2 r 0)).toNat < 128) (he : ∀ e : Fin 5000000, ((A2 m c) (ix1 e)).toNat < 16) : (W8 (F := Ideal) m ρ c (Proc.devRef .tc main_v52) : S500000x1.Idx → EReal) = Cert.ReferenceIdeal.Read.val_main_v70 (F := Ideal) (A0 m c) (A1 m c) (A2 m c) (A3 m c) (A4 m c) (A5 m c) (A6 m c) (A7 m c) :=
  (keep_3_v52 (W7 (F := Ideal) m ρ c)).trans (W7_v52 m ρ c hx he)
theorem W8_v20 (hx : ∀ r : Fin 500000, ((A0 m c) (ix2 r 0)).toNat < 128) (he : ∀ e : Fin 5000000, ((A2 m c) (ix1 e)).toNat < 16) : (W8 (F := Ideal) m ρ c (Proc.devRef .tc main_v20) : S500000x1.Idx → EReal) = sqCol (Cert.ReferenceIdeal.Read.val_main_v30 (F := Ideal) (A1 m c) (A2 m c) (A4 m c)) :=
  (keep_3_v20 (W7 (F := Ideal) m ρ c)).trans (W7_v20 m ρ c hx he)

theorem W9_v66 (hx : ∀ r : Fin 500000, ((A0 m c) (ix2 r 0)).toNat < 128) (he : ∀ e : Fin 5000000, ((A2 m c) (ix1 e)).toNat < 16) : (W9 (F := Ideal) m ρ c (Proc.devRef .tc main_v66) : S1x1.Idx → EReal)
    = GcnSpec.combine2 (Cert.ReferenceIdeal.Read.val_main_v107 (F := Ideal) (A0 m c) (A1 m c) (A2 m c) (A3 m c) (A4 m c) (A5 m c) (A6 m c) (A7 m c)) (Cert.ReferenceIdeal.Read.val_main_v70 (F := Ideal) (A0 m c) (A1 m c) (A2 m c) (A3 m c) (A4 m c) (A5 m c) (A6 m c) (A7 m c)) (sqCol (Cert.ReferenceIdeal.Read.val_main_v30 (F := Ideal) (A1 m c) (A2 m c) (A4 m c))) (GcnSpec.cell11 (A8 m c)) := by
  have h := Regions.arr3 (V8 (F := Ideal) m ρ) c
  rw [(show V8 (F := Ideal) m ρ c main_v64 = _ from W8_v64 m ρ c hx he), (show V8 (F := Ideal) m ρ c main_v52 = _ from W8_v52 m ρ c hx he), (show V8 (F := Ideal) m ρ c main_v20 = _ from W8_v20 m ρ c hx he),
    (show V8 (F := Ideal) m ρ c main_v65 = _ from W8_v65 m ρ c hx he)] at h
  exact (W9_arr (F := Ideal) m ρ c 4).trans h

end Mid

/-- With the ids and the attributes in range, the result buffer after the last boundary holds the reference's result
    stage of the launch arguments. -/
theorem result_eq (c : Dev nD)
    (hx : ∀ r : Fin 500000, ((m ((c.tc : Thread nD τ).loc main_arg0) : S500000x1.Idx → BitVec 32) (ix2 r 0)).toNat < 128)
    (he : ∀ e : Fin 5000000, ((m ((c.tc : Thread nD τ).loc main_arg2) : S5000000.Idx → BitVec 32) (ix1 e)).toNat < 16) :
    (W10 (F := Ideal) m ρ c (Proc.devRef .tc main_v67) : S1.Idx → EReal)
      = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (s4_v67 (W9 (F := Ideal) m ρ c)).trans ?_
  rw [W9_v66 m ρ c hx he]
  exact (Cert.ReferenceIdeal.RefValue.out_eq (A0 m c) (A1 m c) (A2 m c) (A3 m c) (A4 m c) (A5 m c) (A6 m c) (A7 m c) (A8 m c)).symm

end Cert.KernelIdeal.Chain

end
-- ==== Proof.PreDecode.lean ====
/-
  The two index ranges read out of the precondition.

  The precondition is one bit: the conjunction of six finiteness tests and of two range tests, each an all-reduction
  of a compare. Its last two conjuncts say that every node id is at least 0 and below 128 and every edge attribute at
  least 0 and below 16, compared as signed words; a word in [0, n) signed is below n unsigned.

  The decoding runs from the outside in. The bit is (finiteness ∧ all₀) ∧ all₂: a conjunction of bits is 1 only if
  both are; an all-reduction by "and" into the one-element result is 1 only if every element reduced is 1; an element
  of the reduced array is the "and" of the two compares of that word with the broadcast constants, and a broadcast
  scalar reads as the scalar at every index. The finiteness conjuncts are carried along unopened.
-/
import proofs.«422157_j56495999811736_3_alg».proof.Defs
import proofs.«422157_j56495999811736_3_alg».proof.Proof.Gen.Pre_finite_inputs
import proofs.«422157_j56495999811736_3_alg».proof.Proof.Gen.KernelIdeal
import Idealize.ShloMosaic.Lib.ReduceAll
import Idealize.ShloMosaic.Lib.StableHlo.Predicate
import Idealize.ShloMosaic.Lib.ValueIdx

set_option maxRecDepth 16384

noncomputable section

namespace Cert.KernelIdeal.PreDecode

open Cert.KernelIdeal
open Idealize.ShloMosaic Idealize.ShloMosaic.TcCoe Idealize.ShloMosaic.ValueIdx Idealize.SL.Sem

/-! ## A word between 0 and n as a signed word -/

/-- A word that is at least 0 and below n (n < 2³¹) in the signed order is below n in the unsigned order: being at
    least 0 signed, its signed and unsigned readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  have a := IntOp.cmpi_sge.1 h0
  have b := IntOp.cmpi_slt.1 h1
  rw [StableHlo.Predicate.toInt_ofNat_small n hn] at b
  have z : (0#32 : BitVec 32).toInt = 0 := by decide
  rw [z] at a
  have c := BitVec.toInt_eq_toNat_cond w
  have hw := w.isLt
  split at c <;> omega

/-! ## The precondition's chain, read from its end -/

/-- The scalar shape has one index. -/
theorem scalar_idx_subsingleton : Subsingleton Cert.Pre_finite_inputs.S_.Idx := ⟨fun a b => funext fun d => d.elim0⟩

/-- The range test of one array, at one word: both signed compares hold. -/
abbrev InRange (w : BitVec 32) (n : BitVec 32) : Prop :=
  IntOp.cmpi .sge w 0#32 = 1#1 ∧ IntOp.cmpi .slt w n = 1#1

/-- The last part of the chain: from the bit being 1, every element of the node-id test array (made in the part
    before) is 1, and every edge attribute passes its two compares. The conjunct `v28` (finiteness) is dropped. -/
theorem part2_all (a2 : IVec Cert.Pre_finite_inputs.S5000000 32) (v28 : IVec Cert.Pre_finite_inputs.S_ 1)
    (v33 : IVec Cert.Pre_finite_inputs.S500000x1 1)
    (h : Cert.Pre_finite_inputs.fn_part2 (F := Ideal) a2 v28 v33 ix0 = 1#1) :
    (∀ i, v33 i = 1#1) ∧ ∀ i, InRange (a2 i) 16#32 := by
  haveI := scalar_idx_subsingleton
  unfold Cert.Pre_finite_inputs.fn_part2 at h
  dsimp only at h
  -- h : ((v28 ∧ all v33) ∧ all (sge ∧ slt)) at the one index
  obtain ⟨h1, h2⟩ := IntOp.andi_eq_one.1 h
  obtain ⟨-, h3⟩ := IntOp.andi_eq_one.1 h1
  refine ⟨fun i => Host.reduce_andi_all _ _ _ _ ix0 h3 i, fun i => ?_⟩
  -- the reduced array at i is the "and" of the two compares at i; the broadcast constants read as the constants
  have h4 := Host.reduce_andi_all _ _ _ _ ix0 h2 i
  obtain ⟨h5, h6⟩ := IntOp.andi_eq_one.1 h4
  exact ⟨h5, h6⟩

/-- The middle part of the chain: it makes the node-id test array and hands it on; an element of that array being 1 is
    the two compares of that node id. -/
theorem part1_all (a0 : IVec Cert.Pre_finite_inputs.S500000x1 32) (a2 : IVec Cert.Pre_finite_inputs.S5000000 32)
    (a7 : FVec Ideal Cert.Pre_finite_inputs.S1x16 .f32) (a8 : FVec Ideal Cert.Pre_finite_inputs.S1 .f32)
    (v13 : IVec Cert.Pre_finite_inputs.S_ 1) (v16 : IVec Cert.Pre_finite_inputs.S16 1)
    (h : Cert.Pre_finite_inputs.fn_part1 (F := Ideal) a0 a2 a7 a8 v13 v16 ix0 = 1#1) :
    (∀ i, InRange (a0 i) 128#32) ∧ ∀ i, InRange (a2 i) 16#32 := by
  unfold Cert.Pre_finite_inputs.fn_part1 at h
  dsimp only at h
  obtain ⟨h1, h2⟩ := part2_all _ _ _ h
  exact ⟨fun i => IntOp.andi_eq_one.1 (h1 i), h2⟩

/-- The whole chain: its head only makes finiteness tests and hands the two index arrays on. -/
theorem fn_all (a0 : IVec Cert.Pre_finite_inputs.S500000x1 32) (a1 : IVec Cert.Pre_finite_inputs.S2x5000000 32)
    (a2 : IVec Cert.Pre_finite_inputs.S5000000 32) (a3 : FVec Ideal Cert.Pre_finite_inputs.S128x16 .f32)
    (a4 : FVec Ideal Cert.Pre_finite_inputs.S16x1 .f32) (a5 : FVec Ideal Cert.Pre_finite_inputs.S16x16 .f32)
    (a6 : FVec Ideal Cert.Pre_finite_inputs.S16 .f32) (a7 : FVec Ideal Cert.Pre_finite_inputs.S1x16 .f32)
    (a8 : FVec Ideal Cert.Pre_finite_inputs.S1 .f32)
    (h : Cert.Pre_finite_inputs.fn (F := Ideal) a0 a1 a2 a3 a4 a5 a6 a7 a8 ix0 = 1#1) :
    (∀ i, InRange (a0 i) 128#32) ∧ ∀ i, InRange (a2 i) 16#32 := by
  unfold Cert.Pre_finite_inputs.fn at h
  dsimp only at h
  exact part1_all _ _ _ _ _ _ h

/-! ## The two ranges -/

variable (m : (ℓ : Loc nD τ sig) → Buf (Elt Ideal) ℓ)

/-- Under the precondition every node id is below 128. -/
theorem x_range (h : Cert.Pre_KernelIdeal (hPre_finite_inputs := Cert.Pre_finite_inputs.Gen.facts) m) (c : Dev nD) (r : Fin 500000) :
    ((m ((c.tc : Thread nD τ).loc main_arg0) : S500000x1.Idx → BitVec 32) (ix2 r 0)).toNat < 128 := by
  have e := congrFun (h c) ix0
  obtain ⟨h0, h1⟩ := (fn_all _ _ _ _ _ _ _ _ _ e).1 (ix2 r 0)
  exact toNat_lt_of_signed _ 128 (by decide) h0 h1

/-- Under the precondition every edge attribute is below 16. -/
theorem ea_range (h : Cert.Pre_KernelIdeal (hPre_finite_inputs := Cert.Pre_finite_inputs.Gen.facts) m) (c : Dev nD) (e : Fin 5000000) :
    ((m ((c.tc : Thread nD τ).loc main_arg2) : S5000000.Idx → BitVec 32) (ix1 e)).toNat < 16 := by
  have e0 := congrFun (h c) ix0
  obtain ⟨h0, h1⟩ := (fn_all _ _ _ _ _ _ _ _ _ e0).2 (ix1 e)
  exact toNat_lt_of_signed _ 16 (by decide) h0 h1

end Cert.KernelIdeal.PreDecode

end
-- ==== Proof.lean ====
/- The proof of the claim: the kernel program, its idealization and the reference each run to the end without a fault
   and leave their arguments unchanged, the idealization rewrote nothing, and at the extended reals the idealized
   kernel program and the reference, started on equal arguments whose node ids lie in [0, 128) and edge attributes in
   [0, 16), end with equal results.
   The kernel programs' runs are their generated frames; the reference's run is its generated read-back. The result
   of the idealized kernel program is read off its run's last boundary and identified, boundary by boundary, with the
   reference's last stage (Proof/KChain.lean over Proof/KHost, Proof/Reg0 … Reg3, Proof/RefLookup and Proof/RefCombine); the two ranges are read out of
   the precondition (Proof/PreDecode.lean). -/
import proofs.«422157_j56495999811736_3_alg».proof.Defs
import proofs.«422157_j56495999811736_3_alg».proof.Proof.Gen.Kernel
import proofs.«422157_j56495999811736_3_alg».proof.Proof.Gen.Kernel.Frame
import proofs.«422157_j56495999811736_3_alg».proof.Proof.Gen.KernelIdeal
import proofs.«422157_j56495999811736_3_alg».proof.Proof.Gen.KernelIdeal.Frame
import proofs.«422157_j56495999811736_3_alg».proof.Proof.Gen.ReferenceIdeal
import proofs.«422157_j56495999811736_3_alg».proof.Proof.Gen.ReferenceIdeal.Run
import proofs.«422157_j56495999811736_3_alg».proof.Proof.Gen.ReferenceIdeal.Read
import proofs.«422157_j56495999811736_3_alg».proof.Proof.Gen.Pre_finite_inputs
import proofs.«422157_j56495999811736_3_alg».proof.Proof.KRun
import proofs.«422157_j56495999811736_3_alg».proof.Proof.KChain
import proofs.«422157_j56495999811736_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the common arguments in their result buffers. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v67),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v115_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.Chain.result_eq m ρ c (Cert.KernelIdeal.PreDecode.x_range m hpre c)
    (Cert.KernelIdeal.PreDecode.ea_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
